-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256 .f32) (main_arg5 : FVec F S256x128 .f32) (main_arg6 : FVec F S128 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x8192 .f32) (main_arg1 : FVec F S8192x8192 .f32) (main_arg2 : FVec F S8192x512 .f32) (main_arg3 : FVec F S512x256 .f32) (main_arg4 : FVec F S256 .f32) (main_arg5 : FVec F S256x128 .f32) (main_arg6 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S1x8192 : Shape := ⟨2, ![1, 8192]⟩
abbrev S8192x256 : Shape := ⟨2, ![8192, 256]⟩
abbrev S1x256 : Shape := ⟨2, ![1, 256]⟩
abbrev S1x1024 : Shape := ⟨2, ![1, 1024]⟩
abbrev S1024x256 : Shape := ⟨2, ![1024, 256]⟩
abbrev S8192x128 : Shape := ⟨2, ![8192, 128]⟩
abbrev S1x128 : Shape := ⟨2, ![1, 128]⟩
abbrev S1024x128 : Shape := ⟨2, ![1024, 128]⟩

abbrev nBuf : Space → Nat
  | .hbm => 29
  | .vmem => 35
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .i1⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S1x8192, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x128, .f32⟩
  | .hbm, ⟨27, _⟩ => ⟨S1x128, .f32⟩
  | .hbm, ⟨28, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x256, .f32⟩
  | .local _ .vmem, ⟨16, _⟩ => ⟨S1024x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1, .f32⟩
  | .local _ .vmem, ⟨26, _⟩ => ⟨S1024x1, .f32⟩
  | .local _ .vmem, ⟨27, _⟩ => ⟨S1x1024, .f32⟩
  | .local _ .vmem, ⟨28, _⟩ => ⟨S1x1024, .f32⟩
  | .local _ .vmem, ⟨29, _⟩ => ⟨S1024x128, .f32⟩
  | .local _ .vmem, ⟨30, _⟩ => ⟨S1024x128, .f32⟩
  | .local _ .vmem, ⟨31, _⟩ => ⟨S1x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_17 : BitVec 32 := 0#32
  let v42 : BitVec 1 := Scalar.cmpi .ne v41 c0_i32_17
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_17 : BitVec 32 := 0#32
  let v42 : BitVec 1 := Scalar.cmpi .ne v41 c0_i32_17
  v42

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d0_w32 : S1024x1024.Iotas .tc 32 [0]
  iota_S1024x1024_d1_w32 : S1024x1024.Iotas .tc 32 [1]
  natLt_1_32 : 1 < 32
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  shapeCasts_S8192x1_S1x8192 : S8192x1.ShapeCasts S1x8192
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S8192x512_S512x256_S8192x256_1_0_0_1_n_n_wf : DotDims.WF S8192x512 S512x256 S8192x256 [1] [0] [0] [1] [] []
  dot_S1024x1024_S1024x256_S1024x256_1_0_0_1_n_n_wf : DotDims.WF S1024x1024 S1024x256 S1024x256 [1] [0] [0] [1] [] []
  dot_S8192x256_S256x128_S8192x128_1_0_0_1_n_n_wf : DotDims.WF S8192x256 S256x128 S8192x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x8192.size a
  hwx2_1 : ∀ i : grid2.Coords, EltTy.bits .f32 = 32 ∨ (Rect.block (s := S8192x8192) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S8192x128.size a
  hwx2_4 : ∀ i : grid2.Coords, EltTy.bits .f32 = 32 ∨ (Rect.block (s := S8192x128) S1024x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S8192x128.size a
  hwx2_6 : ∀ i : grid2.Coords, EltTy.bits .f32 = 32 ∨ (Rect.block (s := S8192x128) S1024x128.size (cc2_transform_6 i) (hinb2_6 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1024x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S1x8192 : Shape := ⟨2, ![1, 8192]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x1, .i32⟩
  | .hbm, ⟨28, _⟩ => ⟨S8192x2, .i32⟩
  | .hbm, ⟨29, _⟩ => ⟨S_, .f32⟩
  | .hbm, ⟨30, _⟩ => ⟨S8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .i1⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S1x8192, .f32⟩
  | .hbm, ⟨49, _⟩ => ⟨S8192x8192, .f32⟩
  | .hbm, ⟨50, _⟩ => ⟨S8192x8192, .f32⟩
  | .hbm, ⟨51, _⟩ => ⟨S8192x256, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x128, .f32⟩
  | .hbm, ⟨60, _⟩ => ⟨S8192x128, .f32⟩
  | .hbm, ⟨61, _⟩ => ⟨S1x128, .f32⟩
  | .hbm, ⟨62, _⟩ => ⟨S8192x128, .f32⟩
  | .hbm, ⟨63, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_v22 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_cst : Ref sig .tc := ⟨.hbm, 56, rfl⟩
abbrev main_call2_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S8192x2_S8192_n_01_01_1_wf : ScatterDims.WF S8192x8192 S8192x2 S8192 [] [0, 1] [0, 1] 1
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.RowSumBody.lean ====
import proofs.«171307_j71897752535776_1_alg».proof.Proof.Gen.KernelIdeal.Launch
import proofs.«171307_j71897752535776_1_alg».proof.Proof.Gen.KernelIdeal.Skeleton
import proofs.«171307_j71897752535776_1_alg».proof.Proof.Gen.KernelIdeal.Points
import Idealize.ShloMosaic.Lib.Pipeline.FrameBody
import Idealize.ShloMosaic.Lib.Ring
import Idealize.ShloMosaic.Lib.Pipeline.Value
import Idealize.ShloMosaic.Lib.Tactic

set_option maxRecDepth 16384

noncomputable section

namespace Cert.KernelIdeal.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The row-sum kernel's body on any whole memrefs

One call of the body at a grid point (row block, column block): the scratch column is reset to zero at the first
column block, the lane sums of A + 0.8 S + 1e-8 [row = col] over this block's 1024 columns are added to it, and at the
last column block the scratch is copied to the output's buffer. -/

/-- The body's first guard: the column block is the first one. -/
abbrev isFirst (i : grid0.Coords) : Prop :=
  (Scalar.cmpi .ne (Scalar.extui (Scalar.cmpi .eq (BitVec.ofNat 32 (i 1).val) 0#32)) 0#32) = 1#1

/-- What the scratch column holds after the body at a point, from the two input blocks and what it held before. -/
def accStep (i : grid0.Coords) (x0 x1 : Vec F S1024x1024 .f32) (s : Vec F S1024x1 .f32) : Vec F S1024x1 .f32 :=
  k0_pay2 i x0 x1 (if isFirst i then k0_pay1 (F := F) else s)

/-- What the output's staging buffer holds after the body: the new scratch at the last column block, else what it held. -/
def outStep (i : grid0.Coords) (x0 x1 : Vec F S1024x1024 .f32) (s d : Vec F S1024x1 .f32) : Vec F S1024x1 .f32 :=
  if k0_cond2 i = 1#1 then accStep i x0 x1 s else d

/-- A store through the whole buffer, made last, is what the buffer then reads as, whatever was stored before. -/
theorem read_writes_head {S : Shape} {e : EltTy} {sg : RefSig} {κ : Kind} {sp : Space} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hz inb y⟩), View.canon_cons_unit_zero hz]

/-- A load of the whole buffer after a store through the whole buffer reads that store's payload, whatever was stored before. -/
theorem readCov_head {S : Shape} {e : EltTy} {sg : RefSig} {κ : Kind} {sp : Space} (v : View sg κ sp S e)
    {off : Fin S.rank → ℕ} (hz : off = fun _ => 0) (inb : ∀ a, off a + S.size a ≤ S.size a) (w : S.Idx → Elt F e)
    (L : List (View.Piece (Elt F) S e)) :
    v.readCov (⟨Rect.unit off S.size inb, w⟩ :: L) (Rect.unit off S.size inb).toLoadRect = w := by
  rw [View.readCov_eq_canon_ld _ _ _ (fun y => ⟨_, List.mem_cons_self, View.mem_set_unit_zero hz inb y⟩), View.canon_cons_unit_zero hz,
    View.ld_unit_zero hz]

theorem sound_kernel (c : Dev nD) (E : Set ℕ) (i : grid0.Coords)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (x0 x1 : Vec F S1024x1024 .f32) (d s : Vec F S1024x1 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (outStep i x0 x1 s d)
            ∗ owns (c : Thread nD τ) arg5 fullShare (accStep i x0 x1 s)) -∗ K ⟨⟩))
      ⊢ wp frame (wpE (defs₀ (F := F)) Variants.none c none) E (cc0__d_kernel i arg2 harg2 arg3 harg3 arg4 harg4 arg5 harg5) K := by
  have hz : (![0, 0] : Fin S1024x1.rank → ℕ) = fun _ => 0 := by funext a; fin_cases a <;> rfl
  have hzz : (![0, 0] : Fin S1024x1024.rank → ℕ) = fun _ => 0 := by funext a; fin_cases a <;> rfl
  simp only [cc0__d_kernel_eq_skeleton]; unfold cc0__d_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  by_cases h1 : isFirst i <;> by_cases h2 : k0_cond2 i = 1#1
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words
      rw [read_writes_head _ _ hz]
      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_pos h2, if_pos h1]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words

      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_neg h2]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words
      rw [read_writes_head _ _ hz]
      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_pos h2, if_neg h1]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_neg h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words

      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_neg h2]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_neg h1]

end Cert.KernelIdeal.RowSum

end
-- ==== Proof.RowSumData.lean ====
import proofs.«171307_j71897752535776_1_alg».proof.Proof.RowSumBody
import Idealize.ShloMosaic.Lib.Pipeline.RegionsLoop
import Idealize.ShloMosaic.Lib.Pipeline.FrameSuffix

set_option maxRecDepth 16384

noncomputable section

namespace Cert.KernelIdeal.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The row-sum region: what each buffer holds point by point, and the body obligation

The grid is 8 row blocks by 8 column blocks, walked row block by row block. The scratch column after position n holds the
sum over the column blocks walked so far in n's row block; the output window's buffer is written only at the last column
block of a row block, with that row block's complete sums. -/

variable (V : (c : Dev nD) → (b : Ref sig .tc) → Buf (Elt F) ((c : Thread nD τ).loc b))

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first guard holds exactly at the first column block of each row block. -/
theorem isFirst_iff : ∀ t : Fin cfg0.N, isFirst (grid0.coords t) ↔ t.val % 8 = 0 :=
  (by decide +kernel : ∀ t : Fin grid0.N, isFirst (grid0.coords t) ↔ t.val % 8 = 0)
/-- The second guard holds exactly at the last column block of each row block. -/
theorem isLast_iff : ∀ t : Fin cfg0.N, k0_cond2 (grid0.coords t) = 1#1 ↔ t.val % 8 = 7 :=
  (by decide +kernel : ∀ t : Fin grid0.N, k0_cond2 (grid0.coords t) = 1#1 ↔ t.val % 8 = 7)

/-- At a first column block the scratch's earlier contents do not matter. -/
theorem accStep_first {i : grid0.Coords} (h : isFirst i) (x0 x1 : Vec F S1024x1024 .f32) (s s' : Vec F S1024x1 .f32) :
    accStep i x0 x1 s = accStep i x0 x1 s' := by
  unfold accStep; rw [if_pos h, if_pos h]

/-- The scratch column after the body at position n of the walk. -/
def accAt (c : Dev nD) : (n : ℕ) → n < cfg0.N → Vec F S1024x1 .f32
  | 0, hn => accStep (grid0.coords ⟨0, hn⟩) (iblk V c 0 ⟨0, hn⟩) (iblk V c 1 ⟨0, hn⟩) (k0_pay1 (F := F))
  | n + 1, hn => accStep (grid0.coords ⟨n + 1, hn⟩) (iblk V c 0 ⟨n + 1, hn⟩) (iblk V c 1 ⟨n + 1, hn⟩) (accAt c n (Nat.lt_of_succ_lt hn))

/-- One step of the walk, from any earlier scratch contents that are the previous position's when there is one. -/
theorem accAt_step (c : Dev nD) (t : Fin cfg0.N) (s : Vec F S1024x1 .f32)
    (hs : ∀ h : 0 < t.val, s = accAt V c (t.val - 1) (Nat.lt_of_le_of_lt (Nat.sub_le _ _) t.isLt)) :
    accStep (grid0.coords t) (iblk V c 0 t) (iblk V c 1 t) s = accAt V c t.val t.isLt := by
  obtain ⟨n, hn⟩ := t
  cases n with
  | zero => exact accStep_first ((isFirst_iff ⟨0, hn⟩).mpr rfl) _ _ _ _
  | succ n => rw [hs (Nat.succ_pos n)]; rfl

/-- The region's proof data on a core: the arrays as the region finds them; after the body each input's buffer at its
    block and the output's at the scratch's new contents (consulted only where the body stores it); between points the
    scratch column at the walk's running sums beside the other scoped buffers and the generator register; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := iprop((∃ s : Vec F S1024x1 .f32, ⌜∀ h : 0 < t.val, s = accAt V c (t.val - 1) (by have := t.isLt; omega)⌝
        ∗ owns (c : Thread nD τ) (Memref.whole cc0_scratch0 : Memref sig .tc .vmem S1024x1 .f32) fullShare s)
      ∗ Pipeline.scopedRestBut (Ix := Unit) (Name := ℕ) (U := UR sig nD τ) (Lvl := ℕ) (Val := Elt F) spec0 c [cc0_scratch0]
      ∗ ∃ r, prngReg c r)
  q _ := fullShare
  owed _ := 0

theorem Φ_eq (c : Dev nD) (t : Fin (cfg0.N + 1)) : (dat V c).Φ t
    = iprop((∃ s : Vec F S1024x1 .f32, ⌜∀ h : 0 < t.val, s = accAt V c (t.val - 1) (by have := t.isLt; omega)⌝
        ∗ owns (c : Thread nD τ) (Memref.whole cc0_scratch0 : Memref sig .tc .vmem S1024x1 .f32) fullShare s)
      ∗ Pipeline.scopedRestBut (Ix := Unit) (Name := ℕ) (U := UR sig nD τ) (Lvl := ℕ) (Val := Elt F) spec0 c [cc0_scratch0]
      ∗ ∃ r, prngReg c r) := by dsimp only [dat]
theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accAt V c t.val t.isLt := by dsimp only [dat]

/-- Each input's current staging buffer holds its block at every point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- What the body is called with at a point, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns: the output's buffer at the row block's sums where the body stores it, else as found. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ (dat V c).leavesExact 2 t)

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl, after_0, after_1, Φ_eq, Φ_eq]
  by_cases hl : k0_cond2 (grid0.coords t) = 1#1
  · have hidle : cfg0.idle 2 (cfg0.grid.coords t) = false := by
      show (!(k0_cond2 (grid0.coords t) == 1#1)) = false
      rw [hl]; rfl
    rw [show (dat V c).leavesExact 2 t = owns (c : Thread nD τ) (st0_2 t) fullShare ((dat V c).after 2 t) from by
      unfold Dat.leavesExact; rw [hidle], after_2]
    iintro ⟨⟨⟨%s, %hs, Hs⟩, Hrest, Hr⟩, Ho, ⟨%d0, H0⟩, ⟨%d1, H1⟩, ⟨%d2, H2⟩⟩
    iapply (sound_kernel c Set.univ (grid0.coords t) _ _ _ _ _ _ _ _ (iblk V c 0 t) (iblk V c 1 t) ((dat V c).before 2 t d2) s _)
    isplitl [H0]; · iexact H0
    isplitl [H1]; · iexact H1
    isplitl [H2]; · iexact H2
    isplitl [Hs]; · iexact Hs
    iintro ⟨H0, H1, H2, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    rw [show outStep (grid0.coords t) (iblk V c 0 t) (iblk V c 1 t) s ((dat V c).before 2 t d2) = accAt V c t.val t.isLt from by
      unfold outStep; rw [if_pos hl]; exact accAt_step V c t s hs]
    iexact H2
  · have hidle : cfg0.idle 2 (cfg0.grid.coords t) = true := by
      show (!(k0_cond2 (grid0.coords t) == 1#1)) = true
      rw [Bool.not_eq_true', beq_eq_false_iff_ne]; exact hl
    have hflush : (cfg0.win 2).flush t = false := by
      rw [Bool.eq_false_iff]; intro h; exact hl ((isLast_iff t).mpr ((flush0_2 t).mp h))
    rw [(dat V c).leavesExact_idle 2 t hidle hflush]
    iintro ⟨⟨⟨%s, %hs, Hs⟩, Hrest, Hr⟩, Ho, ⟨%d0, H0⟩, ⟨%d1, H1⟩, ⟨%d2, H2⟩⟩
    iapply (sound_kernel c Set.univ (grid0.coords t) _ _ _ _ _ _ _ _ (iblk V c 0 t) (iblk V c 1 t) ((dat V c).before 2 t d2) s _)
    isplitl [H0]; · iexact H0
    isplitl [H1]; · iexact H1
    isplitl [H2]; · iexact H2
    isplitl [Hs]; · iexact Hs
    iintro ⟨H0, H1, H2, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    iexists d2
    rw [show outStep (grid0.coords t) (iblk V c 0 t) (iblk V c 1 t) s ((dat V c).before 2 t d2) = (dat V c).before 2 t d2 from by
      unfold outStep; rw [if_neg hl]]
    iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.RowSum

end
-- ==== Proof.Layer1Body.lean ====
import proofs.«171307_j71897752535776_1_alg».proof.Proof.RowSumBody

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The layer-1 kernel's body on any whole memrefs

One call of the body at a grid point (row block, column block): the scratch block is reset to zero at the first column
block; the 1024 by 1024 block of the normalised adjacency, scale(row) (A + 0.8 S + 1e-8 [row = col]) scale(col), times this
column block's 1024 rows of the right factor is added to it; at the last column block the scratch plus the bias row, clamped below at zero,
is stored to the output's buffer. -/

open Cert.KernelIdeal.RowSum (read_writes_head readCov_head)

/-- The body's first guard: the column block is the first one. -/
abbrev isFirst (i : grid1.Coords) : Prop :=
  (Scalar.cmpi .ne (Scalar.extui (Scalar.cmpi .eq (BitVec.ofNat 32 (i 1).val) 0#32)) 0#32) = 1#1

/-- What the scratch block holds after the body at a point, from the five input blocks and what it held before. -/
def accStep (i : grid1.Coords) (x0 x1 : Vec F S1024x1024 .f32) (x2 : Vec F S1024x1 .f32) (x3 : Vec F S1x1024 .f32)
    (x4 : Vec F S1024x256 .f32) (s : Vec F S1024x256 .f32) : Vec F S1024x256 .f32 :=
  k1_pay1 (k1_pay4 i x0 x1 x2 x3 x4 (if isFirst i then k1_pay3 (F := F) else s))

/-- What the output's staging buffer holds after the body: at the last column block the new scratch plus the bias clamped at zero, else what it held. -/
def outStep (i : grid1.Coords) (x0 x1 : Vec F S1024x1024 .f32) (x2 : Vec F S1024x1 .f32) (x3 : Vec F S1x1024 .f32)
    (x4 : Vec F S1024x256 .f32) (x5 : Vec F S1x256 .f32) (s d : Vec F S1024x256 .f32) : Vec F S1024x256 .f32 :=
  if k1_cond2 i = 1#1 then k1_pay2 (accStep i x0 x1 x2 x3 x4 s) x5 else d

theorem sound_kernel (c : Dev nD) (E : Set ℕ) (i : grid1.Coords)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x256 .f32) (harg9 : arg9.IsWhole)
    (x0 x1 : Vec F S1024x1024 .f32) (x2 : Vec F S1024x1 .f32) (x3 : Vec F S1x1024 .f32) (x4 : Vec F S1024x256 .f32) (x5 : Vec F S1x256 .f32)
    (d s : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare d ∗ owns (c : Thread nD τ) arg9 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (outStep i x0 x1 x2 x3 x4 x5 s d)
            ∗ owns (c : Thread nD τ) arg9 fullShare (accStep i x0 x1 x2 x3 x4 s)) -∗ K ⟨⟩))
      ⊢ wp frame (wpE (defs₀ (F := F)) Variants.none c none) E
          (cc1_kernel i arg2 harg2 arg3 harg3 arg4 harg4 arg5 harg5 arg6 harg6 arg7 harg7 arg8 harg8 arg9 harg9) K := by
  have hz0 : (![0, 0] : Fin S1024x1024.rank → ℕ) = fun _ => 0 := by funext a; fin_cases a <;> rfl
  have hz1 : (![0, 0] : Fin S1024x1.rank → ℕ) = fun _ => 0 := by funext a; fin_cases a <;> rfl
  have hz2 : (![0, 0] : Fin S1x1024.rank → ℕ) = fun _ => 0 := by funext a; fin_cases a <;> rfl
  have hz3 : (![0, 0] : Fin S1024x256.rank → ℕ) = fun _ => 0 := by funext a; fin_cases a <;> rfl
  have hz4 : (![0, 0] : Fin S1x256.rank → ℕ) = fun _ => 0 := by funext a; fin_cases a <;> rfl
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5
  obtain rfl := harg8.eq_unread hf6; obtain rfl := harg9.eq_unread hf7
  by_cases h1 : isFirst i <;> by_cases h2 : k1_cond2 i = 1#1
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_pos h2, if_pos h1]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_neg h2]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_pos h2, if_neg h1]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_neg h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_neg h2]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_neg h1]

end Cert.KernelIdeal.Layer1

end
-- ==== Proof.Layer1Data.lean ====
import proofs.«171307_j71897752535776_1_alg».proof.Proof.Layer1Body
import Idealize.ShloMosaic.Lib.Pipeline.RegionsLoop
import Idealize.ShloMosaic.Lib.Pipeline.FrameSuffix

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The layer-1 region: what each buffer holds point by point, and the body obligation

The grid is 8 row blocks by 8 column blocks, walked row block by row block. The scratch block after position n holds the
products summed over the column blocks walked so far in n's row block; the output window's buffer is written only at the
last column block of a row block. -/

variable (V : (c : Dev nD) → (b : Ref sig .tc) → Buf (Elt F) ((c : Thread nD τ).loc b))

/-- A window's block at a point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first guard holds exactly at the first column block of each row block. -/
theorem isFirst_iff : ∀ t : Fin cfg1.N, isFirst (grid1.coords t) ↔ t.val % 8 = 0 :=
  (by decide +kernel : ∀ t : Fin grid1.N, isFirst (grid1.coords t) ↔ t.val % 8 = 0)
/-- The second guard holds exactly at the last column block of each row block. -/
theorem isLast_iff : ∀ t : Fin cfg1.N, k1_cond2 (grid1.coords t) = 1#1 ↔ t.val % 8 = 7 :=
  (by decide +kernel : ∀ t : Fin grid1.N, k1_cond2 (grid1.coords t) = 1#1 ↔ t.val % 8 = 7)

/-- At a first column block the scratch's earlier contents do not matter. -/
theorem accStep_first {i : grid1.Coords} (h : isFirst i) (x0 x1 : Vec F S1024x1024 .f32) (x2 : Vec F S1024x1 .f32) (x3 : Vec F S1x1024 .f32)
    (x4 : Vec F S1024x256 .f32) (s s' : Vec F S1024x256 .f32) :
    accStep i x0 x1 x2 x3 x4 s = accStep i x0 x1 x2 x3 x4 s' := by
  unfold accStep; rw [if_pos h, if_pos h]

/-- The scratch block after the body at position n of the walk. -/
def accAt (c : Dev nD) : (n : ℕ) → n < cfg1.N → Vec F S1024x256 .f32
  | 0, hn => accStep (grid1.coords ⟨0, hn⟩) (iblk V c 0 ⟨0, hn⟩) (iblk V c 1 ⟨0, hn⟩) (iblk V c 2 ⟨0, hn⟩) (iblk V c 3 ⟨0, hn⟩) (iblk V c 4 ⟨0, hn⟩) (k1_pay3 (F := F))
  | n + 1, hn => accStep (grid1.coords ⟨n + 1, hn⟩) (iblk V c 0 ⟨n + 1, hn⟩) (iblk V c 1 ⟨n + 1, hn⟩) (iblk V c 2 ⟨n + 1, hn⟩) (iblk V c 3 ⟨n + 1, hn⟩)
      (iblk V c 4 ⟨n + 1, hn⟩) (accAt c n (Nat.lt_of_succ_lt hn))

/-- One step of the walk, from any earlier scratch contents that are the previous position's when there is one. -/
theorem accAt_step (c : Dev nD) (t : Fin cfg1.N) (s : Vec F S1024x256 .f32)
    (hs : ∀ h : 0 < t.val, s = accAt V c (t.val - 1) (Nat.lt_of_le_of_lt (Nat.sub_le _ _) t.isLt)) :
    accStep (grid1.coords t) (iblk V c 0 t) (iblk V c 1 t) (iblk V c 2 t) (iblk V c 3 t) (iblk V c 4 t) s = accAt V c t.val t.isLt := by
  obtain ⟨n, hn⟩ := t
  cases n with
  | zero => exact accStep_first ((isFirst_iff ⟨0, hn⟩).mpr rfl) _ _ _ _ _ _ _
  | succ n => rw [hs (Nat.succ_pos n)]; rfl

/-- What the body stores to the output's buffer at a last column block: the row block's complete sums plus the bias, clamped at zero. -/
def outAt (c : Dev nD) (t : Fin cfg1.N) : Vec F S1024x256 .f32 := k1_pay2 (accAt V c t.val t.isLt) (iblk V c 5 t)

/-- The region's proof data on a core: the arrays as the region finds them; after the body each input's buffer at its
    block and the output's at the stored value (consulted only where the body stores it); between points the scratch block
    at the walk's running sums beside the other scoped buffers and the generator register; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := iprop((∃ s : Vec F S1024x256 .f32, ⌜∀ h : 0 < t.val, s = accAt V c (t.val - 1) (by have := t.isLt; omega)⌝
        ∗ owns (c : Thread nD τ) (Memref.whole cc1_scratch0 : Memref sig .tc .vmem S1024x256 .f32) fullShare s)
      ∗ Pipeline.scopedRestBut (Ix := Unit) (Name := ℕ) (U := UR sig nD τ) (Lvl := ℕ) (Val := Elt F) spec1 c [cc1_scratch0]
      ∗ ∃ r, prngReg c r)
  q _ := fullShare
  owed _ := 0

theorem Φ_eq (c : Dev nD) (t : Fin (cfg1.N + 1)) : (dat V c).Φ t
    = iprop((∃ s : Vec F S1024x256 .f32, ⌜∀ h : 0 < t.val, s = accAt V c (t.val - 1) (by have := t.isLt; omega)⌝
        ∗ owns (c : Thread nD τ) (Memref.whole cc1_scratch0 : Memref sig .tc .vmem S1024x256 .f32) fullShare s)
      ∗ Pipeline.scopedRestBut (Ix := Unit) (Name := ℕ) (U := UR sig nD τ) (Lvl := ℕ) (Val := Elt F) spec1 c [cc1_scratch0]
      ∗ ∃ r, prngReg c r) := by dsimp only [dat]
theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- What the body is called with at a point, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns: the output's buffer at the stored value where the body stores it, else as found. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ (dat V c).leavesExact 6 t)

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl, after_0, after_1, after_2, after_3, after_4, after_5, Φ_eq, Φ_eq]
  by_cases hl : k1_cond2 (grid1.coords t) = 1#1
  · have hidle : cfg1.idle 6 (cfg1.grid.coords t) = false := by
      show (!(k1_cond2 (grid1.coords t) == 1#1)) = false
      rw [hl]; rfl
    rw [show (dat V c).leavesExact 6 t = owns (c : Thread nD τ) (st1_6 t) fullShare ((dat V c).after 6 t) from by
      unfold Dat.leavesExact; rw [hidle], after_6]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid1.coords t) _ _ _ _ _ _ _ _ _ _ _ _ _ _ _ _ (iblk V c 0 t) (iblk V c 1 t) (iblk V c 2 t) (iblk V c 3 t)
      (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [show outStep (grid1.coords t) (iblk V c 0 t) (iblk V c 1 t) (iblk V c 2 t) (iblk V c 3 t) (iblk V c 4 t) (iblk V c 5 t) s
        ((dat V c).before 6 t d6) = outAt V c t from by
      unfold outStep outAt; rw [if_pos hl, accAt_step V c t s hs]]
    iexact H6
  · have hidle : cfg1.idle 6 (cfg1.grid.coords t) = true := by
      show (!(k1_cond2 (grid1.coords t) == 1#1)) = true
      rw [Bool.not_eq_true', beq_eq_false_iff_ne]; exact hl
    have hflush : (cfg1.win 6).flush t = false := by
      rw [Bool.eq_false_iff]; intro h; exact hl ((isLast_iff t).mpr ((flush1_6 t).mp h))
    rw [(dat V c).leavesExact_idle 6 t hidle hflush]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid1.coords t) _ _ _ _ _ _ _ _ _ _ _ _ _ _ _ _ (iblk V c 0 t) (iblk V c 1 t) (iblk V c 2 t) (iblk V c 3 t)
      (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6
    rw [show outStep (grid1.coords t) (iblk V c 0 t) (iblk V c 1 t) (iblk V c 2 t) (iblk V c 3 t) (iblk V c 4 t) (iblk V c 5 t) s
        ((dat V c).before 6 t d6) = (dat V c).before 6 t d6 from by
      unfold outStep; rw [if_neg hl]]
    iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Layer1

end
-- ==== Proof.Layer2Body.lean ====
import proofs.«171307_j71897752535776_1_alg».proof.Proof.RowSumBody

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The layer-2 kernel's body on any whole memrefs

One call of the body at a grid point (row block, column block): the scratch block is reset to zero at the first column
block; the 1024 by 1024 block of the normalised adjacency, scale(row) (A + 0.8 S + 1e-8 [row = col]) scale(col), times this
column block's 1024 rows of the right factor is added to it; at the last column block the scratch plus the bias row
is stored to the output's buffer. -/

open Cert.KernelIdeal.RowSum (read_writes_head readCov_head)

/-- The body's first guard: the column block is the first one. -/
abbrev isFirst (i : grid2.Coords) : Prop :=
  (Scalar.cmpi .ne (Scalar.extui (Scalar.cmpi .eq (BitVec.ofNat 32 (i 1).val) 0#32)) 0#32) = 1#1

/-- What the scratch block holds after the body at a point, from the five input blocks and what it held before. -/
def accStep (i : grid2.Coords) (x0 x1 : Vec F S1024x1024 .f32) (x2 : Vec F S1024x1 .f32) (x3 : Vec F S1x1024 .f32)
    (x4 : Vec F S1024x128 .f32) (s : Vec F S1024x128 .f32) : Vec F S1024x128 .f32 :=
  k2_pay1 (k2_pay4 i x0 x1 x2 x3 x4 (if isFirst i then k2_pay3 (F := F) else s))

/-- What the output's staging buffer holds after the body: at the last column block the new scratch plus the bias, else what it held. -/
def outStep (i : grid2.Coords) (x0 x1 : Vec F S1024x1024 .f32) (x2 : Vec F S1024x1 .f32) (x3 : Vec F S1x1024 .f32)
    (x4 : Vec F S1024x128 .f32) (x5 : Vec F S1x128 .f32) (s d : Vec F S1024x128 .f32) : Vec F S1024x128 .f32 :=
  if k2_cond2 i = 1#1 then k2_pay2 (accStep i x0 x1 x2 x3 x4 s) x5 else d

theorem sound_kernel (c : Dev nD) (E : Set ℕ) (i : grid2.Coords)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x128 .f32) (harg6 : arg6.IsWhole) (arg7 : Memref sig .tc .vmem S1x128 .f32) (harg7 : arg7.IsWhole)
    (arg8 : Memref sig .tc .vmem S1024x128 .f32) (harg8 : arg8.IsWhole) (arg9 : Memref sig .tc .vmem S1024x128 .f32) (harg9 : arg9.IsWhole)
    (x0 x1 : Vec F S1024x1024 .f32) (x2 : Vec F S1024x1 .f32) (x3 : Vec F S1x1024 .f32) (x4 : Vec F S1024x128 .f32) (x5 : Vec F S1x128 .f32)
    (d s : Vec F S1024x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare d ∗ owns (c : Thread nD τ) arg9 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (outStep i x0 x1 x2 x3 x4 x5 s d)
            ∗ owns (c : Thread nD τ) arg9 fullShare (accStep i x0 x1 x2 x3 x4 s)) -∗ K ⟨⟩))
      ⊢ wp frame (wpE (defs₀ (F := F)) Variants.none c none) E
          (cc2_kernel i arg2 harg2 arg3 harg3 arg4 harg4 arg5 harg5 arg6 harg6 arg7 harg7 arg8 harg8 arg9 harg9) K := by
  have hz : (![0, 0] : Fin S1024x128.rank → ℕ) = fun _ => 0 := by funext a; fin_cases a <;> rfl
  have hzz : (![0, 0] : Fin S1024x1024.rank → ℕ) = fun _ => 0 := by funext a; fin_cases a <;> rfl
  have hzc : (![0, 0] : Fin S1024x1.rank → ℕ) = fun _ => 0 := by funext a; fin_cases a <;> rfl
  have hzr : (![0, 0] : Fin S1x1024.rank → ℕ) = fun _ => 0 := by funext a; fin_cases a <;> rfl
  have hzb : (![0, 0] : Fin S1x128.rank → ℕ) = fun _ => 0 := by funext a; fin_cases a <;> rfl
  sl_unfold [cc2_kernel, cc2_kernel_skel]
  sl_unfold [k2_part1, k2_part1_skel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5
  obtain rfl := harg8.eq_unread hf6; obtain rfl := harg9.eq_unread hf7
  by_cases h1 : isFirst i <;> by_cases h2 : k2_cond2 i = 1#1
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_pos h2, if_pos h1]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_neg h2]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_pos h2, if_neg h1]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_neg h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_neg h2]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_neg h1]

end Cert.KernelIdeal.Layer2

end
-- ==== Proof.Layer2Data.lean ====
import proofs.«171307_j71897752535776_1_alg».proof.Proof.Layer2Body
import Idealize.ShloMosaic.Lib.Pipeline.RegionsLoop
import Idealize.ShloMosaic.Lib.Pipeline.FrameSuffix

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The layer-2 region: what each buffer holds point by point, and the body obligation

The grid is 8 row blocks by 8 column blocks, walked row block by row block. The scratch block after position n holds the
products summed over the column blocks walked so far in n's row block; the output window's buffer is written only at the
last column block of a row block. -/

variable (V : (c : Dev nD) → (b : Ref sig .tc) → Buf (Elt F) ((c : Thread nD τ).loc b))

/-- A window's block at a point, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first guard holds exactly at the first column block of each row block. -/
theorem isFirst_iff : ∀ t : Fin cfg2.N, isFirst (grid2.coords t) ↔ t.val % 8 = 0 :=
  (by decide +kernel : ∀ t : Fin grid2.N, isFirst (grid2.coords t) ↔ t.val % 8 = 0)
/-- The second guard holds exactly at the last column block of each row block. -/
theorem isLast_iff : ∀ t : Fin cfg2.N, k2_cond2 (grid2.coords t) = 1#1 ↔ t.val % 8 = 7 :=
  (by decide +kernel : ∀ t : Fin grid2.N, k2_cond2 (grid2.coords t) = 1#1 ↔ t.val % 8 = 7)

/-- At a first column block the scratch's earlier contents do not matter. -/
theorem accStep_first {i : grid2.Coords} (h : isFirst i) (x0 x1 : Vec F S1024x1024 .f32) (x2 : Vec F S1024x1 .f32) (x3 : Vec F S1x1024 .f32)
    (x4 : Vec F S1024x128 .f32) (s s' : Vec F S1024x128 .f32) :
    accStep i x0 x1 x2 x3 x4 s = accStep i x0 x1 x2 x3 x4 s' := by
  unfold accStep; rw [if_pos h, if_pos h]

/-- The scratch block after the body at position n of the walk. -/
def accAt (c : Dev nD) : (n : ℕ) → n < cfg2.N → Vec F S1024x128 .f32
  | 0, hn => accStep (grid2.coords ⟨0, hn⟩) (iblk V c 0 ⟨0, hn⟩) (iblk V c 1 ⟨0, hn⟩) (iblk V c 2 ⟨0, hn⟩) (iblk V c 3 ⟨0, hn⟩) (iblk V c 4 ⟨0, hn⟩) (k2_pay3 (F := F))
  | n + 1, hn => accStep (grid2.coords ⟨n + 1, hn⟩) (iblk V c 0 ⟨n + 1, hn⟩) (iblk V c 1 ⟨n + 1, hn⟩) (iblk V c 2 ⟨n + 1, hn⟩) (iblk V c 3 ⟨n + 1, hn⟩)
      (iblk V c 4 ⟨n + 1, hn⟩) (accAt c n (Nat.lt_of_succ_lt hn))

/-- One step of the walk, from any earlier scratch contents that are the previous position's when there is one. -/
theorem accAt_step (c : Dev nD) (t : Fin cfg2.N) (s : Vec F S1024x128 .f32)
    (hs : ∀ h : 0 < t.val, s = accAt V c (t.val - 1) (Nat.lt_of_le_of_lt (Nat.sub_le _ _) t.isLt)) :
    accStep (grid2.coords t) (iblk V c 0 t) (iblk V c 1 t) (iblk V c 2 t) (iblk V c 3 t) (iblk V c 4 t) s = accAt V c t.val t.isLt := by
  obtain ⟨n, hn⟩ := t
  cases n with
  | zero => exact accStep_first ((isFirst_iff ⟨0, hn⟩).mpr rfl) _ _ _ _ _ _ _
  | succ n => rw [hs (Nat.succ_pos n)]; rfl

/-- What the body stores to the output's buffer at a last column block: the row block's complete sums plus the bias. -/
def outAt (c : Dev nD) (t : Fin cfg2.N) : Vec F S1024x128 .f32 := k2_pay2 (accAt V c t.val t.isLt) (iblk V c 5 t)

/-- The region's proof data on a core: the arrays as the region finds them; after the body each input's buffer at its
    block and the output's at the stored value (consulted only where the body stores it); between points the scratch block
    at the walk's running sums beside the other scoped buffers and the generator register; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := iprop((∃ s : Vec F S1024x128 .f32, ⌜∀ h : 0 < t.val, s = accAt V c (t.val - 1) (by have := t.isLt; omega)⌝
        ∗ owns (c : Thread nD τ) (Memref.whole cc2_scratch0 : Memref sig .tc .vmem S1024x128 .f32) fullShare s)
      ∗ Pipeline.scopedRestBut (Ix := Unit) (Name := ℕ) (U := UR sig nD τ) (Lvl := ℕ) (Val := Elt F) spec2 c [cc2_scratch0]
      ∗ ∃ r, prngReg c r)
  q _ := fullShare
  owed _ := 0

theorem Φ_eq (c : Dev nD) (t : Fin (cfg2.N + 1)) : (dat V c).Φ t
    = iprop((∃ s : Vec F S1024x128 .f32, ⌜∀ h : 0 < t.val, s = accAt V c (t.val - 1) (by have := t.isLt; omega)⌝
        ∗ owns (c : Thread nD τ) (Memref.whole cc2_scratch0 : Memref sig .tc .vmem S1024x128 .f32) fullShare s)
      ∗ Pipeline.scopedRestBut (Ix := Unit) (Name := ℕ) (U := UR sig nD τ) (Lvl := ℕ) (Val := Elt F) spec2 c [cc2_scratch0]
      ∗ ∃ r, prngReg c r) := by dsimp only [dat]
theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = outAt V c t := by dsimp only [dat]

/-- Each input's current staging buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- What the body is called with at a point, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns: the output's buffer at the stored value where the body stores it, else as found. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ (dat V c).leavesExact 6 t)

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl, after_0, after_1, after_2, after_3, after_4, after_5, Φ_eq, Φ_eq]
  by_cases hl : k2_cond2 (grid2.coords t) = 1#1
  · have hidle : cfg2.idle 6 (cfg2.grid.coords t) = false := by
      show (!(k2_cond2 (grid2.coords t) == 1#1)) = false
      rw [hl]; rfl
    rw [show (dat V c).leavesExact 6 t = owns (c : Thread nD τ) (st2_6 t) fullShare ((dat V c).after 6 t) from by
      unfold Dat.leavesExact; rw [hidle], after_6]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid2.coords t) _ _ _ _ _ _ _ _ _ _ _ _ _ _ _ _
      (iblk V c 0 t) (iblk V c 1 t) (iblk V c 2 t) (iblk V c 3 t) (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [show outStep (grid2.coords t) (iblk V c 0 t) (iblk V c 1 t) (iblk V c 2 t) (iblk V c 3 t) (iblk V c 4 t) (iblk V c 5 t) s ((dat V c).before 6 t d6) = outAt V c t from by
      unfold outStep outAt; rw [if_pos hl, accAt_step V c t s hs]]
    iexact H6
  · have hidle : cfg2.idle 6 (cfg2.grid.coords t) = true := by
      show (!(k2_cond2 (grid2.coords t) == 1#1)) = true
      rw [Bool.not_eq_true', beq_eq_false_iff_ne]; exact hl
    have hflush : (cfg2.win 6).flush t = false := by
      rw [Bool.eq_false_iff]; intro h; exact hl ((isLast_iff t).mpr ((flush2_6 t).mp h))
    rw [(dat V c).leavesExact_idle 6 t hidle hflush]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid2.coords t) _ _ _ _ _ _ _ _ _ _ _ _ _ _ _ _
      (iblk V c 0 t) (iblk V c 1 t) (iblk V c 2 t) (iblk V c 3 t) (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6
    rw [show outStep (grid2.coords t) (iblk V c 0 t) (iblk V c 1 t) (iblk V c 2 t) (iblk V c 3 t) (iblk V c 4 t) (iblk V c 5 t) s ((dat V c).before 6 t d6) = (dat V c).before 6 t d6 from by
      unfold outStep; rw [if_neg hl]]
    iexact H6

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Layer2

end
-- ==== Proof.Boundaries.lean ====
import proofs.«171307_j71897752535776_1_alg».proof.Proof.RowSumData
import proofs.«171307_j71897752535776_1_alg».proof.Proof.Layer1Data
import proofs.«171307_j71897752535776_1_alg».proof.Proof.Layer2Data

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal
variable {F : FTy → Type} [FloatOps F]

local notation "𝕄" => MT nD τ sig Unit (Elt F) ℕ (UR sig nD τ) ℕ

/-! # The buffers' contents between the program's items

The program is nine items in a row: the row-sum region, five stretches of host operations (the power, the test for an
infinity, the select, the reshapes and x W1), the first layer's region, one stretch (hidden W2 and a reshape) and the second
layer's region. Between two items every unscoped buffer of the core holds named contents: the launch memory, then each
stretch's operations applied, then each region's arrays at what its write-backs leave, every other buffer as before. -/

variable (m : (ℓ : Loc nD τ sig) → Buf (Elt F) ℓ)

/-! ## The buffers' contents between items -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (RowSum.dat (V0 m) c).arrAt w cfg0.N
theorem W1_arr (c : Dev nD) (w : Fin cfg0.W) :
    W1 m c (Proc.devRef .tc (Pipeline.arrRef spec0 w)) = (RowSum.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (RowSum.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev V6 : (c : Dev nD) → (b : Ref sig .tc) → Buf (Elt F) ((c : Thread nD τ).loc b) := fun c b => W6 m c b

/-- After region 1: its arrays at what the pipeline leaves, every other buffer as entered. -/
def W7 (c : Dev nD) : Valuation τ sig (Elt F) :=
  Pipeline.withArrays spec1 c (W6 m c) fun w => (Layer1.dat (V6 m) c).arrAt w cfg1.N
theorem W7_arr (c : Dev nD) (w : Fin cfg1.W) :
    W7 m c (Proc.devRef .tc (Pipeline.arrRef spec1 w)) = (Layer1.dat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (Layer1.dat (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
abbrev W8 : Dev nD → Valuation τ sig (Elt F) := fun c => StableHlo.after hostOps2 (W7 m c)
abbrev V8 : (c : Dev nD) → (b : Ref sig .tc) → Buf (Elt F) ((c : Thread nD τ).loc b) := fun c b => W8 m c b

/-- After region 2: its arrays at what the pipeline leaves, every other buffer as entered. -/
def W9 (c : Dev nD) : Valuation τ sig (Elt F) :=
  Pipeline.withArrays spec2 c (W8 m c) fun w => (Layer2.dat (V8 m) c).arrAt w cfg2.N
theorem W9_arr (c : Dev nD) (w : Fin cfg2.W) :
    W9 m c (Proc.devRef .tc (Pipeline.arrRef spec2 w)) = (Layer2.dat (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (Layer2.dat (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

end Cert.KernelIdeal.Launch

end
-- ==== Proof.Launch.lean ====
import proofs.«171307_j71897752535776_1_alg».proof.Proof.Boundaries
import proofs.«171307_j71897752535776_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (RegionSeg HostSeg Seg)
open Cert.KernelIdeal
variable {F : FTy → Type} [FloatOps F]

local notation "𝕄" => MT nD τ sig Unit (Elt F) ℕ (UR sig nD τ) ℕ

/-! # The whole program's run

The program is nine items in a row: the row-sum region, five stretches of host operations (the power, the test for an
infinity, the select, the reshapes and x W1), the first layer's region, one stretch (hidden W2 and a reshape) and the second
layer's region. Between two items every unscoped buffer of the core is held whole at named contents: the launch memory, then
each stretch's operations applied, then each region's arrays at what its write-backs leave. The run ends with every buffer
at the last of these contents; the argument arrays are never written, and the result array is what the last region leaves. -/

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => RowSum.dat (V0 m) c
  | ⟨1, _⟩ => fun c => Layer1.dat (V6 m) c
  | ⟨2, _⟩ => fun c => Layer2.dat (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tₙ (c : Dev nD) : sProp 𝕄 := iprop(StableHlo.held (c : Thread nD τ) (Pipeline.ucRefs τ sig) (W9 m c) ∗ ∃ r, prngReg c r)

/-- The scoped buffers of a layer's call that are no staging buffer of it, split at the call's scratch block. -/
theorem scopedRest0_split' (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  scopedRest0_split c
theorem scopedRest1_split' (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
theorem scopedRest2_split' (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-! ## The regions as segments -/

-- a library lemma stated over the pinned configuration unifies with the printed one only when unification may unfold
-- plain definitions in a metavariable's type
set_option backward.isDefEq.respectTransparency.types false in
/-- Region 0 over the thread state: entered with every unscoped buffer at the contents before it, left with the region's
    arrays at what its write-backs leave and every other buffer as entered; the scratch block goes into the invariant out of
    the scoped buffers and comes back; the generator register likewise; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RowSum.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
      scopedRest0_split' (F := F) c
    rw [show (pdats m 0 c).Φ 0 = (RowSum.dat (V0 m) c).Φ 0 from rfl, RowSum.Φ_eq, hs]
    iintro ⟨Hp, -, ⟨%f, Hs⟩, Hrest⟩
    isplitl [Hs]
    · iexists f; isplitr; · ipureintro; intro h; exact absurd h (Nat.lt_irrefl 0)
      rw [owns_whole]; iexact Hs
    isplitl [Hrest]; · iexact Hrest
    iexact Hp
  hout c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
      scopedRest0_split' (F := F) c
    rw [Pipeline.ownSems0_none, show (pdats m 0 c).Φ (Fin.last _) = (RowSum.dat (V0 m) c).Φ (Fin.last _) from rfl, RowSum.Φ_eq, hs]
    iintro ⟨⟨%s, -, Hs⟩, Hrest, Hp⟩
    isplitl [Hp]; · iexact Hp
    isplitr; · iempintro
    isplitl [Hs]
    · iexists s; rw [← owns_whole]; iexact Hs
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the contents before it, left with the region's
    arrays at what its write-backs leave and every other buffer as entered; the scratch block goes into the invariant out of
    the scoped buffers and comes back; the generator register likewise; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
      scopedRest1_split' (F := F) c
    rw [show (pdats m 1 c).Φ 0 = (Layer1.dat (V6 m) c).Φ 0 from rfl, Layer1.Φ_eq, hs]
    iintro ⟨Hp, -, ⟨%f, Hs⟩, Hrest⟩
    isplitl [Hs]
    · iexists f; isplitr; · ipureintro; intro h; exact absurd h (Nat.lt_irrefl 0)
      rw [owns_whole]; iexact Hs
    isplitl [Hrest]; · iexact Hrest
    iexact Hp
  hout c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
      scopedRest1_split' (F := F) c
    rw [Pipeline.ownSems0_none, show (pdats m 1 c).Φ (Fin.last _) = (Layer1.dat (V6 m) c).Φ (Fin.last _) from rfl, Layer1.Φ_eq, hs]
    iintro ⟨⟨%s, -, Hs⟩, Hrest, Hp⟩
    isplitl [Hp]; · iexact Hp
    isplitr; · iempintro
    isplitl [Hs]
    · iexists s; rw [← owns_whole]; iexact Hs
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at the contents before it, left with the region's
    arrays at what its write-backs leave and every other buffer as entered; the scratch block goes into the invariant out of
    the scoped buffers and comes back; the generator register likewise; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
      scopedRest2_split' (F := F) c
    rw [show (pdats m 2 c).Φ 0 = (Layer2.dat (V8 m) c).Φ 0 from rfl, Layer2.Φ_eq, hs]
    iintro ⟨Hp, -, ⟨%f, Hs⟩, Hrest⟩
    isplitl [Hs]
    · iexists f; isplitr; · ipureintro; intro h; exact absurd h (Nat.lt_irrefl 0)
      rw [owns_whole]; iexact Hs
    isplitl [Hrest]; · iexact Hrest
    iexact Hp
  hout c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
      scopedRest2_split' (F := F) c
    rw [Pipeline.ownSems0_none, show (pdats m 2 c).Φ (Fin.last _) = (Layer2.dat (V8 m) c).Φ (Fin.last _) from rfl, Layer2.Φ_eq, hs]
    iintro ⟨⟨%s, -, Hs⟩, Hrest, Hp⟩
    isplitl [Hp]; · iexact Hp
    isplitr; · iempintro
    isplitl [Hs]
    · iexists s; rw [← owns_whole]; iexact Hs
    iexact Hrest
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .region (reg2 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and every
    final memory holds each unscoped buffer at the last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Launch

end
-- ==== Proof.BoundaryFacts.lean ====
import proofs.«171307_j71897752535776_1_alg».proof.Proof.Boundaries
import proofs.«171307_j71897752535776_1_alg».proof.Proof.Gen.KernelIdeal.Regions
import Idealize.ShloMosaic.Lib.Pipeline.Cells

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal
variable {F : FTy → Type} [FloatOps F]

local notation "𝕄" => MT nD τ sig Unit (Elt F) ℕ (UR sig nD τ) ℕ

/-! # Which buffers the program's items leave alone

No host operation and no region writes an argument array: a region reads it through an input window or not at all. The two
scale arrays, once computed, are not written again. So those buffers hold at every later boundary what they held before. -/

variable (m : (ℓ : Loc nD τ sig) → Buf (Elt F) ℓ)

/-! ## A buffer that a run of host stretches does not write

Each host stretch writes only its own result buffers; read at any other reference the contents are those before it. -/

theorem W2_unwritten (c : Dev nD) (r : Ref sig .tc) (h : r ∉ hostOps1_W) : W2 m c (Proc.devRef .tc r) = W1 m c (Proc.devRef .tc r) :=
  StableHlo.after_of_writes_sub hostOps1 _ hostOps1_writes h
theorem W3_unwritten (c : Dev nD) (r : Ref sig .tc) (h : r ∉ hostOps1_1_W) : W3 m c (Proc.devRef .tc r) = W2 m c (Proc.devRef .tc r) :=
  StableHlo.after_of_writes_sub hostOps1_1 _ hostOps1_1_writes h
theorem W4_unwritten (c : Dev nD) (r : Ref sig .tc) (h : r ∉ hostOps1_2_W) : W4 m c (Proc.devRef .tc r) = W3 m c (Proc.devRef .tc r) :=
  StableHlo.after_of_writes_sub hostOps1_2 _ hostOps1_2_writes h
theorem W5_unwritten (c : Dev nD) (r : Ref sig .tc) (h : r ∉ hostOps1_3_W) : W5 m c (Proc.devRef .tc r) = W4 m c (Proc.devRef .tc r) :=
  StableHlo.after_of_writes_sub hostOps1_3 _ hostOps1_3_writes h
theorem W6_unwritten (c : Dev nD) (r : Ref sig .tc) (h : r ∉ hostOps1_4_W) : W6 m c (Proc.devRef .tc r) = W5 m c (Proc.devRef .tc r) :=
  StableHlo.after_of_writes_sub hostOps1_4 _ hostOps1_4_writes h
theorem W8_unwritten (c : Dev nD) (r : Ref sig .tc) (h : r ∉ hostOps2_W) : W8 m c (Proc.devRef .tc r) = W7 m c (Proc.devRef .tc r) :=
  StableHlo.after_of_writes_sub hostOps2 _ hostOps2_writes h

/-- The five stretches between the row-sum region and the first layer, taken together. -/
theorem W6_of_W1 (c : Dev nD) (r : Ref sig .tc) (h1 : r ∉ hostOps1_W) (h2 : r ∉ hostOps1_1_W) (h3 : r ∉ hostOps1_2_W)
    (h4 : r ∉ hostOps1_3_W) (h5 : r ∉ hostOps1_4_W) : W6 m c (Proc.devRef .tc r) = W1 m c (Proc.devRef .tc r) :=
  (W6_unwritten m c r h5).trans <| (W5_unwritten m c r h4).trans <| (W4_unwritten m c r h3).trans <|
    (W3_unwritten m c r h2).trans (W2_unwritten m c r h1)

/-! ## The argument arrays at each boundary

The adjacency and the similarity matrix are input windows of all three regions: a region leaves an input window's array as
it found it. The other five arguments are no window of the row-sum region and no window of either layer. -/

/-- After the row-sum region the two matrices are as launched. -/
theorem W1_main_arg0 (c : Dev nD) : W1 m c (Proc.devRef .tc main_arg0) = m ((c : Thread nD τ).loc main_arg0) :=
  (W1_arr m c 0).trans (((RowSum.dat _ c).arrAt_in 0 rfl _).trans (RowSum.A_eq _ c 0))
theorem W1_main_arg1 (c : Dev nD) : W1 m c (Proc.devRef .tc main_arg1) = m ((c : Thread nD τ).loc main_arg1) :=
  (W1_arr m c 1).trans (((RowSum.dat _ c).arrAt_in 1 rfl _).trans (RowSum.A_eq _ c 1))

/-- An argument that is no window of the row-sum region and that no host stretch before the first layer writes. -/
theorem W6_of_W0 (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) (h5 : r ∉ hostOps1_4_W) : W6 m c (Proc.devRef .tc r) = m ((c : Thread nD τ).loc r) :=
  (W6_of_W1 m c r h1 h2 h3 h4 h5).trans (W1_of_ne m c r h0)
/-- The adjacency and similarity arrays as each layer's region finds them: as launched. -/
theorem V6_main_arg0 (c : Dev nD) : V6 m c main_arg0 = m ((c : Thread nD τ).loc main_arg0) :=
  (W6_of_W1 m c main_arg0 (by decide) (by decide) (by decide) (by decide) (by decide)).trans (W1_main_arg0 m c)
theorem V6_main_arg1 (c : Dev nD) : V6 m c main_arg1 = m ((c : Thread nD τ).loc main_arg1) :=
  (W6_of_W1 m c main_arg1 (by decide) (by decide) (by decide) (by decide) (by decide)).trans (W1_main_arg1 m c)
/-- After the first layer's region its input windows' arrays are as it found them. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((Layer1.dat _ c).arrAt_in w hin _).trans (Layer1.A_eq _ c w))
/-- After the second layer's region its input windows' arrays are as it found them. -/
theorem W9_in (c : Dev nD) (w : Fin cfg2.W) (hin : (cfg2.win w).isOut = false) :
    W9 m c (Proc.devRef .tc (Pipeline.arrRef spec2 w)) = W8 m c (Proc.devRef .tc (Pipeline.arrRef spec2 w)) :=
  (W9_arr m c w).trans (((Layer2.dat _ c).arrAt_in w hin _).trans (Layer2.A_eq _ c w))
theorem V8_main_arg0 (c : Dev nD) : V8 m c main_arg0 = m ((c : Thread nD τ).loc main_arg0) :=
  (W8_unwritten m c main_arg0 (by decide)).trans ((W7_in m c 0 rfl).trans (V6_main_arg0 m c))
theorem V8_main_arg1 (c : Dev nD) : V8 m c main_arg1 = m ((c : Thread nD τ).loc main_arg1) :=
  (W8_unwritten m c main_arg1 (by decide)).trans ((W7_in m c 1 rfl).trans (V6_main_arg1 m c))
/-- The two scale arrays as the second layer's region finds them: as the first layer's found them. -/
theorem V8_main_v6 (c : Dev nD) : V8 m c main_v6 = V6 m c main_v6 :=
  (W8_unwritten m c main_v6 (by decide)).trans (W7_in m c 2 rfl)
theorem V8_main_v7 (c : Dev nD) : V8 m c main_v7 = V6 m c main_v7 :=
  (W8_unwritten m c main_v7 (by decide)).trans (W7_in m c 3 rfl)

/-- An argument that is no window of any region and that no host stretch writes is at the end as launched. -/
theorem W9_of_W0 (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) (h5 : r ∉ hostOps1_4_W) (h6 : ∀ w, Pipeline.arrRef spec1 w ≠ r) (h7 : r ∉ hostOps2_W)
    (h8 : ∀ w, Pipeline.arrRef spec2 w ≠ r) : W9 m c (Proc.devRef .tc r) = m ((c : Thread nD τ).loc r) :=
  (W9_of_ne m c r h8).trans <| (W8_unwritten m c r h7).trans <| (W7_of_ne m c r h6).trans (W6_of_W0 m c r h0 h1 h2 h3 h4 h5)

theorem W9_main_arg0 (c : Dev nD) : W9 m c (Proc.devRef .tc main_arg0) = m ((c : Thread nD τ).loc main_arg0) :=
  (W9_in m c 0 rfl).trans (V8_main_arg0 m c)
theorem W9_main_arg1 (c : Dev nD) : W9 m c (Proc.devRef .tc main_arg1) = m ((c : Thread nD τ).loc main_arg1) :=
  (W9_in m c 1 rfl).trans (V8_main_arg1 m c)
theorem W9_main_arg2 (c : Dev nD) : W9 m c (Proc.devRef .tc main_arg2) = m ((c : Thread nD τ).loc main_arg2) :=
  W9_of_W0 m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_of_W0 m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_of_W0 m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_of_W0 m c main_arg5 (by decide) (by decide) (by decide) (by decide) (by decide) (by decide) (by decide) (by decide) (by decide)
theorem W9_main_arg6 (c : Dev nD) : W9 m c (Proc.devRef .tc main_arg6) = m ((c : Thread nD τ).loc main_arg6) :=
  W9_of_W0 m c main_arg6 (by decide) (by decide) (by decide) (by decide) (by decide) (by decide) (by decide) (by decide) (by decide)

/-- The result array at the end is what the last region leaves. -/
theorem W9_result (c : Dev nD) : W9 m c (Proc.devRef .tc main_v13) = (Layer2.dat (V8 m) c).arrAt 6 cfg2.N :=
  W9_arr m c 6

/-- The degrees as the first host stretch finds them: what the row-sum region left. -/
theorem V1_main_v0 (c : Dev nD) : V1 m c main_v0 = (RowSum.dat (V0 m) c).arrAt 2 cfg0.N :=
  W1_arr m c 2
/-- The first layer's value as the last host stretch finds it: what the first layer's region left. -/
theorem V7_main_v10 (c : Dev nD) : V7 m c main_v10 = (Layer1.dat (V6 m) c).arrAt 6 cfg1.N :=
  W7_arr m c 6

end Cert.KernelIdeal.Launch

end
-- ==== Proof.KernelBits.RowSumBody.lean ====
import proofs.«171307_j71897752535776_1_alg».proof.Proof.Gen.Kernel.Launch
import proofs.«171307_j71897752535776_1_alg».proof.Proof.Gen.Kernel.Skeleton
import proofs.«171307_j71897752535776_1_alg».proof.Proof.Gen.Kernel.Points
import Idealize.ShloMosaic.Lib.Pipeline.FrameBody
import Idealize.ShloMosaic.Lib.Ring
import Idealize.ShloMosaic.Lib.Pipeline.Value
import Idealize.ShloMosaic.Lib.Tactic

set_option maxRecDepth 16384

noncomputable section

namespace Cert.Kernel.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The row-sum kernel's body on any whole memrefs

One call of the body at a grid point (row block, column block): the scratch column is reset to zero at the first
column block, the lane sums of A + 0.8 S + 1e-8 [row = col] over this block's 1024 columns are added to it, and at the
last column block the scratch is copied to the output's buffer. -/

/-- The body's first guard: the column block is the first one. -/
abbrev isFirst (i : grid0.Coords) : Prop :=
  (Scalar.cmpi .ne (Scalar.extui (Scalar.cmpi .eq (BitVec.ofNat 32 (i 1).val) 0#32)) 0#32) = 1#1

/-- What the scratch column holds after the body at a point, from the two input blocks and what it held before. -/
def accStep (i : grid0.Coords) (x0 x1 : Vec F S1024x1024 .f32) (s : Vec F S1024x1 .f32) : Vec F S1024x1 .f32 :=
  k0_pay2 i x0 x1 (if isFirst i then k0_pay1 (F := F) else s)

/-- What the output's staging buffer holds after the body: the new scratch at the last column block, else what it held. -/
def outStep (i : grid0.Coords) (x0 x1 : Vec F S1024x1024 .f32) (s d : Vec F S1024x1 .f32) : Vec F S1024x1 .f32 :=
  if k0_cond2 i = 1#1 then accStep i x0 x1 s else d

/-- A store through the whole buffer, made last, is what the buffer then reads as, whatever was stored before. -/
theorem read_writes_head {S : Shape} {e : EltTy} {sg : RefSig} {κ : Kind} {sp : Space} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hz inb y⟩), View.canon_cons_unit_zero hz]

/-- A load of the whole buffer after a store through the whole buffer reads that store's payload, whatever was stored before. -/
theorem readCov_head {S : Shape} {e : EltTy} {sg : RefSig} {κ : Kind} {sp : Space} (v : View sg κ sp S e)
    {off : Fin S.rank → ℕ} (hz : off = fun _ => 0) (inb : ∀ a, off a + S.size a ≤ S.size a) (w : S.Idx → Elt F e)
    (L : List (View.Piece (Elt F) S e)) :
    v.readCov (⟨Rect.unit off S.size inb, w⟩ :: L) (Rect.unit off S.size inb).toLoadRect = w := by
  rw [View.readCov_eq_canon_ld _ _ _ (fun y => ⟨_, List.mem_cons_self, View.mem_set_unit_zero hz inb y⟩), View.canon_cons_unit_zero hz,
    View.ld_unit_zero hz]

theorem sound_kernel (c : Dev nD) (E : Set ℕ) (i : grid0.Coords)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1024x1 .f32) (harg5 : arg5.IsWhole)
    (x0 x1 : Vec F S1024x1024 .f32) (d s : Vec F S1024x1 .f32) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (outStep i x0 x1 s d)
            ∗ owns (c : Thread nD τ) arg5 fullShare (accStep i x0 x1 s)) -∗ K ⟨⟩))
      ⊢ wp frame (wpE (defs₀ (F := F)) Variants.none c none) E (cc0__d_kernel i arg2 harg2 arg3 harg3 arg4 harg4 arg5 harg5) K := by
  have hz : (![0, 0] : Fin S1024x1.rank → ℕ) = fun _ => 0 := by funext a; fin_cases a <;> rfl
  have hzz : (![0, 0] : Fin S1024x1024.rank → ℕ) = fun _ => 0 := by funext a; fin_cases a <;> rfl
  simp only [cc0__d_kernel_eq_skeleton]; unfold cc0__d_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  by_cases h1 : isFirst i <;> by_cases h2 : k0_cond2 i = 1#1
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words
      rw [read_writes_head _ _ hz]
      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_pos h2, if_pos h1]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words

      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_neg h2]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words
      rw [read_writes_head _ _ hz]
      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_pos h2, if_neg h1]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_neg h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_words

      simp only [View.readAt_eq_ld, harg2.read_unread, harg3.read_unread, harg4.read_unread, harg5.read_unread, View.ld_unit_zero (S := S1024x1024) hzz,
        View.ld_unit_zero (S := S1024x1) hz, readCov_head (S := S1024x1) _ hz]
      unfold outStep accStep; rw [if_neg h2]
    · iexists _; isplitr; swap; · iexact H3
      ipureintro
      sl_unfold_words
      rw [read_writes_head _ _ hz]
      simp only [View.readAt_eq_ld, harg2.read_unread, harg3.read_unread, harg5.read_unread, View.ld_unit_zero (S := S1024x1024) hzz,
        View.ld_unit_zero (S := S1024x1) hz, readCov_head (S := S1024x1) _ hz]
      unfold accStep; rw [if_neg h1]

end Cert.Kernel.RowSum

end
-- ==== Proof.KernelBits.RowSumData.lean ====
import proofs.«171307_j71897752535776_1_alg».proof.Proof.KernelBits.RowSumBody
import Idealize.ShloMosaic.Lib.Pipeline.RegionsLoop
import Idealize.ShloMosaic.Lib.Pipeline.FrameSuffix

set_option maxRecDepth 16384

noncomputable section

namespace Cert.Kernel.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The row-sum region: what each buffer holds point by point, and the body obligation

The grid is 8 row blocks by 8 column blocks, walked row block by row block. The scratch column after position n holds the
sum over the column blocks walked so far in n's row block; the output window's buffer is written only at the last column
block of a row block, with that row block's complete sums. -/

variable (V : (c : Dev nD) → (b : Ref sig .tc) → Buf (Elt F) ((c : Thread nD τ).loc b))

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first guard holds exactly at the first column block of each row block. -/
theorem isFirst_iff : ∀ t : Fin cfg0.N, isFirst (grid0.coords t) ↔ t.val % 8 = 0 :=
  (by decide +kernel : ∀ t : Fin grid0.N, isFirst (grid0.coords t) ↔ t.val % 8 = 0)
/-- The second guard holds exactly at the last column block of each row block. -/
theorem isLast_iff : ∀ t : Fin cfg0.N, k0_cond2 (grid0.coords t) = 1#1 ↔ t.val % 8 = 7 :=
  (by decide +kernel : ∀ t : Fin grid0.N, k0_cond2 (grid0.coords t) = 1#1 ↔ t.val % 8 = 7)

/-- At a first column block the scratch's earlier contents do not matter. -/
theorem accStep_first {i : grid0.Coords} (h : isFirst i) (x0 x1 : Vec F S1024x1024 .f32) (s s' : Vec F S1024x1 .f32) :
    accStep i x0 x1 s = accStep i x0 x1 s' := by
  unfold accStep; rw [if_pos h, if_pos h]

/-- The scratch column after the body at position n of the walk. -/
def accAt (c : Dev nD) : (n : ℕ) → n < cfg0.N → Vec F S1024x1 .f32
  | 0, hn => accStep (grid0.coords ⟨0, hn⟩) (iblk V c 0 ⟨0, hn⟩) (iblk V c 1 ⟨0, hn⟩) (k0_pay1 (F := F))
  | n + 1, hn => accStep (grid0.coords ⟨n + 1, hn⟩) (iblk V c 0 ⟨n + 1, hn⟩) (iblk V c 1 ⟨n + 1, hn⟩) (accAt c n (Nat.lt_of_succ_lt hn))

/-- One step of the walk, from any earlier scratch contents that are the previous position's when there is one. -/
theorem accAt_step (c : Dev nD) (t : Fin cfg0.N) (s : Vec F S1024x1 .f32)
    (hs : ∀ h : 0 < t.val, s = accAt V c (t.val - 1) (Nat.lt_of_le_of_lt (Nat.sub_le _ _) t.isLt)) :
    accStep (grid0.coords t) (iblk V c 0 t) (iblk V c 1 t) s = accAt V c t.val t.isLt := by
  obtain ⟨n, hn⟩ := t
  cases n with
  | zero => exact accStep_first ((isFirst_iff ⟨0, hn⟩).mpr rfl) _ _ _ _
  | succ n => rw [hs (Nat.succ_pos n)]; rfl

/-- The region's proof data on a core: the arrays as the region finds them; after the body each input's buffer at its
    block and the output's at the scratch's new contents (consulted only where the body stores it); between points the
    scratch column at the walk's running sums beside the other scoped buffers and the generator register; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := iprop((∃ s : Vec F S1024x1 .f32, ⌜∀ h : 0 < t.val, s = accAt V c (t.val - 1) (by have := t.isLt; omega)⌝
        ∗ owns (c : Thread nD τ) (Memref.whole cc0_scratch0 : Memref sig .tc .vmem S1024x1 .f32) fullShare s)
      ∗ Pipeline.scopedRestBut (Ix := Unit) (Name := ℕ) (U := UR sig nD τ) (Lvl := ℕ) (Val := Elt F) spec0 c [cc0_scratch0]
      ∗ ∃ r, prngReg c r)
  q _ := fullShare
  owed _ := 0

theorem Φ_eq (c : Dev nD) (t : Fin (cfg0.N + 1)) : (dat V c).Φ t
    = iprop((∃ s : Vec F S1024x1 .f32, ⌜∀ h : 0 < t.val, s = accAt V c (t.val - 1) (by have := t.isLt; omega)⌝
        ∗ owns (c : Thread nD τ) (Memref.whole cc0_scratch0 : Memref sig .tc .vmem S1024x1 .f32) fullShare s)
      ∗ Pipeline.scopedRestBut (Ix := Unit) (Name := ℕ) (U := UR sig nD τ) (Lvl := ℕ) (Val := Elt F) spec0 c [cc0_scratch0]
      ∗ ∃ r, prngReg c r) := by dsimp only [dat]
theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accAt V c t.val t.isLt := by dsimp only [dat]

/-- Each input's current staging buffer holds its block at every point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- What the body is called with at a point, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns: the output's buffer at the row block's sums where the body stores it, else as found. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ (dat V c).leavesExact 2 t)

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl, after_0, after_1, Φ_eq, Φ_eq]
  by_cases hl : k0_cond2 (grid0.coords t) = 1#1
  · have hidle : cfg0.idle 2 (cfg0.grid.coords t) = false := by
      show (!(k0_cond2 (grid0.coords t) == 1#1)) = false
      rw [hl]; rfl
    rw [show (dat V c).leavesExact 2 t = owns (c : Thread nD τ) (st0_2 t) fullShare ((dat V c).after 2 t) from by
      unfold Dat.leavesExact; rw [hidle], after_2]
    iintro ⟨⟨⟨%s, %hs, Hs⟩, Hrest, Hr⟩, Ho, ⟨%d0, H0⟩, ⟨%d1, H1⟩, ⟨%d2, H2⟩⟩
    iapply (sound_kernel c Set.univ (grid0.coords t) _ _ _ _ _ _ _ _ (iblk V c 0 t) (iblk V c 1 t) ((dat V c).before 2 t d2) s _)
    isplitl [H0]; · iexact H0
    isplitl [H1]; · iexact H1
    isplitl [H2]; · iexact H2
    isplitl [Hs]; · iexact Hs
    iintro ⟨H0, H1, H2, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    rw [show outStep (grid0.coords t) (iblk V c 0 t) (iblk V c 1 t) s ((dat V c).before 2 t d2) = accAt V c t.val t.isLt from by
      unfold outStep; rw [if_pos hl]; exact accAt_step V c t s hs]
    iexact H2
  · have hidle : cfg0.idle 2 (cfg0.grid.coords t) = true := by
      show (!(k0_cond2 (grid0.coords t) == 1#1)) = true
      rw [Bool.not_eq_true', beq_eq_false_iff_ne]; exact hl
    have hflush : (cfg0.win 2).flush t = false := by
      rw [Bool.eq_false_iff]; intro h; exact hl ((isLast_iff t).mpr ((flush0_2 t).mp h))
    rw [(dat V c).leavesExact_idle 2 t hidle hflush]
    iintro ⟨⟨⟨%s, %hs, Hs⟩, Hrest, Hr⟩, Ho, ⟨%d0, H0⟩, ⟨%d1, H1⟩, ⟨%d2, H2⟩⟩
    iapply (sound_kernel c Set.univ (grid0.coords t) _ _ _ _ _ _ _ _ (iblk V c 0 t) (iblk V c 1 t) ((dat V c).before 2 t d2) s _)
    isplitl [H0]; · iexact H0
    isplitl [H1]; · iexact H1
    isplitl [H2]; · iexact H2
    isplitl [Hs]; · iexact Hs
    iintro ⟨H0, H1, H2, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    iexists d2
    rw [show outStep (grid0.coords t) (iblk V c 0 t) (iblk V c 1 t) s ((dat V c).before 2 t d2) = (dat V c).before 2 t d2 from by
      unfold outStep; rw [if_neg hl]]
    iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.RowSum

end
-- ==== Proof.KernelBits.Layer1Body.lean ====
import proofs.«171307_j71897752535776_1_alg».proof.Proof.KernelBits.RowSumBody

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The layer-1 kernel's body on any whole memrefs

One call of the body at a grid point (row block, column block): the scratch block is reset to zero at the first column
block; the 1024 by 1024 block of the normalised adjacency, scale(row) (A + 0.8 S + 1e-8 [row = col]) scale(col), times this
column block's 1024 rows of the right factor is added to it; at the last column block the scratch plus the bias row, clamped below at zero,
is stored to the output's buffer. -/

open Cert.Kernel.RowSum (read_writes_head readCov_head)

/-- The body's first guard: the column block is the first one. -/
abbrev isFirst (i : grid1.Coords) : Prop :=
  (Scalar.cmpi .ne (Scalar.extui (Scalar.cmpi .eq (BitVec.ofNat 32 (i 1).val) 0#32)) 0#32) = 1#1

/-- What the scratch block holds after the body at a point, from the five input blocks and what it held before. -/
def accStep (i : grid1.Coords) (x0 x1 : Vec F S1024x1024 .f32) (x2 : Vec F S1024x1 .f32) (x3 : Vec F S1x1024 .f32)
    (x4 : Vec F S1024x256 .f32) (s : Vec F S1024x256 .f32) : Vec F S1024x256 .f32 :=
  k1_pay1 (k1_pay4 i x0 x1 x2 x3 x4 (if isFirst i then k1_pay3 (F := F) else s))

/-- What the output's staging buffer holds after the body: at the last column block the new scratch plus the bias clamped at zero, else what it held. -/
def outStep (i : grid1.Coords) (x0 x1 : Vec F S1024x1024 .f32) (x2 : Vec F S1024x1 .f32) (x3 : Vec F S1x1024 .f32)
    (x4 : Vec F S1024x256 .f32) (x5 : Vec F S1x256 .f32) (s d : Vec F S1024x256 .f32) : Vec F S1024x256 .f32 :=
  if k1_cond2 i = 1#1 then k1_pay2 (accStep i x0 x1 x2 x3 x4 s) x5 else d

theorem sound_kernel (c : Dev nD) (E : Set ℕ) (i : grid1.Coords)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x256 .f32) (harg9 : arg9.IsWhole)
    (x0 x1 : Vec F S1024x1024 .f32) (x2 : Vec F S1024x1 .f32) (x3 : Vec F S1x1024 .f32) (x4 : Vec F S1024x256 .f32) (x5 : Vec F S1x256 .f32)
    (d s : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare d ∗ owns (c : Thread nD τ) arg9 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (outStep i x0 x1 x2 x3 x4 x5 s d)
            ∗ owns (c : Thread nD τ) arg9 fullShare (accStep i x0 x1 x2 x3 x4 s)) -∗ K ⟨⟩))
      ⊢ wp frame (wpE (defs₀ (F := F)) Variants.none c none) E
          (cc1_kernel i arg2 harg2 arg3 harg3 arg4 harg4 arg5 harg5 arg6 harg6 arg7 harg7 arg8 harg8 arg9 harg9) K := by
  have hz0 : (![0, 0] : Fin S1024x1024.rank → ℕ) = fun _ => 0 := by funext a; fin_cases a <;> rfl
  have hz1 : (![0, 0] : Fin S1024x1.rank → ℕ) = fun _ => 0 := by funext a; fin_cases a <;> rfl
  have hz2 : (![0, 0] : Fin S1x1024.rank → ℕ) = fun _ => 0 := by funext a; fin_cases a <;> rfl
  have hz3 : (![0, 0] : Fin S1024x256.rank → ℕ) = fun _ => 0 := by funext a; fin_cases a <;> rfl
  have hz4 : (![0, 0] : Fin S1x256.rank → ℕ) = fun _ => 0 := by funext a; fin_cases a <;> rfl
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5
  obtain rfl := harg8.eq_unread hf6; obtain rfl := harg9.eq_unread hf7
  by_cases h1 : isFirst i <;> by_cases h2 : k1_cond2 i = 1#1
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_pos h2, if_pos h1]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_neg h2]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_pos h2, if_neg h1]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_neg h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold outStep accStep; rw [if_neg h2]
    · iexists _; isplitr; swap; · iexact H7
      ipureintro
      sl_unfold_words
      rw [read_writes_head _ _ hz3]
      simp only [View.readAt_eq_ld, harg2.read_unread, harg3.read_unread, harg4.read_unread, harg5.read_unread, harg6.read_unread,
        harg7.read_unread, harg8.read_unread, harg9.read_unread, View.ld_unit_zero (S := S1024x1024) hz0, View.ld_unit_zero (S := S1024x1) hz1,
        View.ld_unit_zero (S := S1x1024) hz2, View.ld_unit_zero (S := S1024x256) hz3, View.ld_unit_zero (S := S1x256) hz4,
        readCov_head (S := S1024x256) _ hz3]
      unfold accStep; rw [if_neg h1]

end Cert.Kernel.Layer1

end
-- ==== Proof.KernelBits.Layer1Data.lean ====
import proofs.«171307_j71897752535776_1_alg».proof.Proof.KernelBits.Layer1Body
import Idealize.ShloMosaic.Lib.Pipeline.RegionsLoop
import Idealize.ShloMosaic.Lib.Pipeline.FrameSuffix

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The layer-1 region: what each buffer holds point by point, and the body obligation

The grid is 8 row blocks by 8 column blocks, walked row block by row block. The scratch block after position n holds the
products summed over the column blocks walked so far in n's row block; the output window's buffer is written only at the
last column block of a row block. -/

variable (V : (c : Dev nD) → (b : Ref sig .tc) → Buf (Elt F) ((c : Thread nD τ).loc b))

/-- A window's block at a point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first guard holds exactly at the first column block of each row block. -/
theorem isFirst_iff : ∀ t : Fin cfg1.N, isFirst (grid1.coords t) ↔ t.val % 8 = 0 :=
  (by decide +kernel : ∀ t : Fin grid1.N, isFirst (grid1.coords t) ↔ t.val % 8 = 0)
/-- The second guard holds exactly at the last column block of each row block. -/
theorem isLast_iff : ∀ t : Fin cfg1.N, k1_cond2 (grid1.coords t) = 1#1 ↔ t.val % 8 = 7 :=
  (by decide +kernel : ∀ t : Fin grid1.N, k1_cond2 (grid1.coords t) = 1#1 ↔ t.val % 8 = 7)

/-- At a first column block the scratch's earlier contents do not matter. -/
theorem accStep_first {i : grid1.Coords} (h : isFirst i) (x0 x1 : Vec F S1024x1024 .f32) (x2 : Vec F S1024x1 .f32) (x3 : Vec F S1x1024 .f32)
    (x4 : Vec F S1024x256 .f32) (s s' : Vec F S1024x256 .f32) :
    accStep i x0 x1 x2 x3 x4 s = accStep i x0 x1 x2 x3 x4 s' := by
  unfold accStep; rw [if_pos h, if_pos h]

/-- The scratch block after the body at position n of the walk. -/
def accAt (c : Dev nD) : (n : ℕ) → n < cfg1.N → Vec F S1024x256 .f32
  | 0, hn => accStep (grid1.coords ⟨0, hn⟩) (iblk V c 0 ⟨0, hn⟩) (iblk V c 1 ⟨0, hn⟩) (iblk V c 2 ⟨0, hn⟩) (iblk V c 3 ⟨0, hn⟩) (iblk V c 4 ⟨0, hn⟩) (k1_pay3 (F := F))
  | n + 1, hn => accStep (grid1.coords ⟨n + 1, hn⟩) (iblk V c 0 ⟨n + 1, hn⟩) (iblk V c 1 ⟨n + 1, hn⟩) (iblk V c 2 ⟨n + 1, hn⟩) (iblk V c 3 ⟨n + 1, hn⟩)
      (iblk V c 4 ⟨n + 1, hn⟩) (accAt c n (Nat.lt_of_succ_lt hn))

/-- One step of the walk, from any earlier scratch contents that are the previous position's when there is one. -/
theorem accAt_step (c : Dev nD) (t : Fin cfg1.N) (s : Vec F S1024x256 .f32)
    (hs : ∀ h : 0 < t.val, s = accAt V c (t.val - 1) (Nat.lt_of_le_of_lt (Nat.sub_le _ _) t.isLt)) :
    accStep (grid1.coords t) (iblk V c 0 t) (iblk V c 1 t) (iblk V c 2 t) (iblk V c 3 t) (iblk V c 4 t) s = accAt V c t.val t.isLt := by
  obtain ⟨n, hn⟩ := t
  cases n with
  | zero => exact accStep_first ((isFirst_iff ⟨0, hn⟩).mpr rfl) _ _ _ _ _ _ _
  | succ n => rw [hs (Nat.succ_pos n)]; rfl

/-- What the body stores to the output's buffer at a last column block: the row block's complete sums plus the bias, clamped at zero. -/
def outAt (c : Dev nD) (t : Fin cfg1.N) : Vec F S1024x256 .f32 := k1_pay2 (accAt V c t.val t.isLt) (iblk V c 5 t)

/-- The region's proof data on a core: the arrays as the region finds them; after the body each input's buffer at its
    block and the output's at the stored value (consulted only where the body stores it); between points the scratch block
    at the walk's running sums beside the other scoped buffers and the generator register; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := iprop((∃ s : Vec F S1024x256 .f32, ⌜∀ h : 0 < t.val, s = accAt V c (t.val - 1) (by have := t.isLt; omega)⌝
        ∗ owns (c : Thread nD τ) (Memref.whole cc1_scratch0 : Memref sig .tc .vmem S1024x256 .f32) fullShare s)
      ∗ Pipeline.scopedRestBut (Ix := Unit) (Name := ℕ) (U := UR sig nD τ) (Lvl := ℕ) (Val := Elt F) spec1 c [cc1_scratch0]
      ∗ ∃ r, prngReg c r)
  q _ := fullShare
  owed _ := 0

theorem Φ_eq (c : Dev nD) (t : Fin (cfg1.N + 1)) : (dat V c).Φ t
    = iprop((∃ s : Vec F S1024x256 .f32, ⌜∀ h : 0 < t.val, s = accAt V c (t.val - 1) (by have := t.isLt; omega)⌝
        ∗ owns (c : Thread nD τ) (Memref.whole cc1_scratch0 : Memref sig .tc .vmem S1024x256 .f32) fullShare s)
      ∗ Pipeline.scopedRestBut (Ix := Unit) (Name := ℕ) (U := UR sig nD τ) (Lvl := ℕ) (Val := Elt F) spec1 c [cc1_scratch0]
      ∗ ∃ r, prngReg c r) := by dsimp only [dat]
theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- What the body is called with at a point, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns: the output's buffer at the stored value where the body stores it, else as found. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ (dat V c).leavesExact 6 t)

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl, after_0, after_1, after_2, after_3, after_4, after_5, Φ_eq, Φ_eq]
  by_cases hl : k1_cond2 (grid1.coords t) = 1#1
  · have hidle : cfg1.idle 6 (cfg1.grid.coords t) = false := by
      show (!(k1_cond2 (grid1.coords t) == 1#1)) = false
      rw [hl]; rfl
    rw [show (dat V c).leavesExact 6 t = owns (c : Thread nD τ) (st1_6 t) fullShare ((dat V c).after 6 t) from by
      unfold Dat.leavesExact; rw [hidle], after_6]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid1.coords t) _ _ _ _ _ _ _ _ _ _ _ _ _ _ _ _ (iblk V c 0 t) (iblk V c 1 t) (iblk V c 2 t) (iblk V c 3 t)
      (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [show outStep (grid1.coords t) (iblk V c 0 t) (iblk V c 1 t) (iblk V c 2 t) (iblk V c 3 t) (iblk V c 4 t) (iblk V c 5 t) s
        ((dat V c).before 6 t d6) = outAt V c t from by
      unfold outStep outAt; rw [if_pos hl, accAt_step V c t s hs]]
    iexact H6
  · have hidle : cfg1.idle 6 (cfg1.grid.coords t) = true := by
      show (!(k1_cond2 (grid1.coords t) == 1#1)) = true
      rw [Bool.not_eq_true', beq_eq_false_iff_ne]; exact hl
    have hflush : (cfg1.win 6).flush t = false := by
      rw [Bool.eq_false_iff]; intro h; exact hl ((isLast_iff t).mpr ((flush1_6 t).mp h))
    rw [(dat V c).leavesExact_idle 6 t hidle hflush]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid1.coords t) _ _ _ _ _ _ _ _ _ _ _ _ _ _ _ _ (iblk V c 0 t) (iblk V c 1 t) (iblk V c 2 t) (iblk V c 3 t)
      (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6
    rw [show outStep (grid1.coords t) (iblk V c 0 t) (iblk V c 1 t) (iblk V c 2 t) (iblk V c 3 t) (iblk V c 4 t) (iblk V c 5 t) s
        ((dat V c).before 6 t d6) = (dat V c).before 6 t d6 from by
      unfold outStep; rw [if_neg hl]]
    iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Layer1

end
-- ==== Proof.KernelBits.Layer2Body.lean ====
import proofs.«171307_j71897752535776_1_alg».proof.Proof.KernelBits.RowSumBody

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The layer-2 kernel's body on any whole memrefs

One call of the body at a grid point (row block, column block): the scratch block is reset to zero at the first column
block; the 1024 by 1024 block of the normalised adjacency, scale(row) (A + 0.8 S + 1e-8 [row = col]) scale(col), times this
column block's 1024 rows of the right factor is added to it; at the last column block the scratch plus the bias row
is stored to the output's buffer. -/

open Cert.Kernel.RowSum (read_writes_head readCov_head)

/-- The body's first guard: the column block is the first one. -/
abbrev isFirst (i : grid2.Coords) : Prop :=
  (Scalar.cmpi .ne (Scalar.extui (Scalar.cmpi .eq (BitVec.ofNat 32 (i 1).val) 0#32)) 0#32) = 1#1

/-- What the scratch block holds after the body at a point, from the five input blocks and what it held before. -/
def accStep (i : grid2.Coords) (x0 x1 : Vec F S1024x1024 .f32) (x2 : Vec F S1024x1 .f32) (x3 : Vec F S1x1024 .f32)
    (x4 : Vec F S1024x128 .f32) (s : Vec F S1024x128 .f32) : Vec F S1024x128 .f32 :=
  k2_pay1 (k2_pay4 i x0 x1 x2 x3 x4 (if isFirst i then k2_pay3 (F := F) else s))

/-- What the output's staging buffer holds after the body: at the last column block the new scratch plus the bias, else what it held. -/
def outStep (i : grid2.Coords) (x0 x1 : Vec F S1024x1024 .f32) (x2 : Vec F S1024x1 .f32) (x3 : Vec F S1x1024 .f32)
    (x4 : Vec F S1024x128 .f32) (x5 : Vec F S1x128 .f32) (s d : Vec F S1024x128 .f32) : Vec F S1024x128 .f32 :=
  if k2_cond2 i = 1#1 then k2_pay2 (accStep i x0 x1 x2 x3 x4 s) x5 else d

theorem sound_kernel (c : Dev nD) (E : Set ℕ) (i : grid2.Coords)
    (arg2 : Memref sig .tc .vmem S1024x1024 .f32) (harg2 : arg2.IsWhole) (arg3 : Memref sig .tc .vmem S1024x1024 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x128 .f32) (harg6 : arg6.IsWhole) (arg7 : Memref sig .tc .vmem S1x128 .f32) (harg7 : arg7.IsWhole)
    (arg8 : Memref sig .tc .vmem S1024x128 .f32) (harg8 : arg8.IsWhole) (arg9 : Memref sig .tc .vmem S1024x128 .f32) (harg9 : arg9.IsWhole)
    (x0 x1 : Vec F S1024x1024 .f32) (x2 : Vec F S1024x1 .f32) (x3 : Vec F S1x1024 .f32) (x4 : Vec F S1024x128 .f32) (x5 : Vec F S1x128 .f32)
    (d s : Vec F S1024x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare d ∗ owns (c : Thread nD τ) arg9 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (outStep i x0 x1 x2 x3 x4 x5 s d)
            ∗ owns (c : Thread nD τ) arg9 fullShare (accStep i x0 x1 x2 x3 x4 s)) -∗ K ⟨⟩))
      ⊢ wp frame (wpE (defs₀ (F := F)) Variants.none c none) E
          (cc2_kernel i arg2 harg2 arg3 harg3 arg4 harg4 arg5 harg5 arg6 harg6 arg7 harg7 arg8 harg8 arg9 harg9) K := by
  have hz : (![0, 0] : Fin S1024x128.rank → ℕ) = fun _ => 0 := by funext a; fin_cases a <;> rfl
  have hzz : (![0, 0] : Fin S1024x1024.rank → ℕ) = fun _ => 0 := by funext a; fin_cases a <;> rfl
  have hzc : (![0, 0] : Fin S1024x1.rank → ℕ) = fun _ => 0 := by funext a; fin_cases a <;> rfl
  have hzr : (![0, 0] : Fin S1x1024.rank → ℕ) = fun _ => 0 := by funext a; fin_cases a <;> rfl
  have hzb : (![0, 0] : Fin S1x128.rank → ℕ) = fun _ => 0 := by funext a; fin_cases a <;> rfl
  sl_unfold [cc2_kernel, cc2_kernel_skel]
  sl_unfold [k2_part1, k2_part1_skel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5
  obtain rfl := harg8.eq_unread hf6; obtain rfl := harg9.eq_unread hf7
  by_cases h1 : isFirst i <;> by_cases h2 : k2_cond2 i = 1#1
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_pos h2, if_pos h1]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_neg h2]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_pos h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_pos h2, if_neg h1]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_neg h1]
  · sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold outStep accStep; rw [if_neg h2]
    · iexists _; isplitr; swap; · iexact H7
      ipureintro
      sl_unfold_words
      rw [read_writes_head _ _ hz]
      simp only [View.readAt_eq_ld, harg2.read_unread, harg3.read_unread, harg4.read_unread, harg5.read_unread, harg6.read_unread, harg7.read_unread,
        harg8.read_unread, harg9.read_unread, View.ld_unit_zero (S := S1024x1024) hzz, View.ld_unit_zero (S := S1024x1) hzc, View.ld_unit_zero (S := S1x1024) hzr,
        View.ld_unit_zero (S := S1024x128) hz, View.ld_unit_zero (S := S1x128) hzb, readCov_head (S := S1024x128) _ hz]
      unfold accStep; rw [if_neg h1]

end Cert.Kernel.Layer2

end
-- ==== Proof.KernelBits.Layer2Data.lean ====
import proofs.«171307_j71897752535776_1_alg».proof.Proof.KernelBits.Layer2Body
import Idealize.ShloMosaic.Lib.Pipeline.RegionsLoop
import Idealize.ShloMosaic.Lib.Pipeline.FrameSuffix

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The layer-2 region: what each buffer holds point by point, and the body obligation

The grid is 8 row blocks by 8 column blocks, walked row block by row block. The scratch block after position n holds the
products summed over the column blocks walked so far in n's row block; the output window's buffer is written only at the
last column block of a row block. -/

variable (V : (c : Dev nD) → (b : Ref sig .tc) → Buf (Elt F) ((c : Thread nD τ).loc b))

/-- A window's block at a point, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first guard holds exactly at the first column block of each row block. -/
theorem isFirst_iff : ∀ t : Fin cfg2.N, isFirst (grid2.coords t) ↔ t.val % 8 = 0 :=
  (by decide +kernel : ∀ t : Fin grid2.N, isFirst (grid2.coords t) ↔ t.val % 8 = 0)
/-- The second guard holds exactly at the last column block of each row block. -/
theorem isLast_iff : ∀ t : Fin cfg2.N, k2_cond2 (grid2.coords t) = 1#1 ↔ t.val % 8 = 7 :=
  (by decide +kernel : ∀ t : Fin grid2.N, k2_cond2 (grid2.coords t) = 1#1 ↔ t.val % 8 = 7)

/-- At a first column block the scratch's earlier contents do not matter. -/
theorem accStep_first {i : grid2.Coords} (h : isFirst i) (x0 x1 : Vec F S1024x1024 .f32) (x2 : Vec F S1024x1 .f32) (x3 : Vec F S1x1024 .f32)
    (x4 : Vec F S1024x128 .f32) (s s' : Vec F S1024x128 .f32) :
    accStep i x0 x1 x2 x3 x4 s = accStep i x0 x1 x2 x3 x4 s' := by
  unfold accStep; rw [if_pos h, if_pos h]

/-- The scratch block after the body at position n of the walk. -/
def accAt (c : Dev nD) : (n : ℕ) → n < cfg2.N → Vec F S1024x128 .f32
  | 0, hn => accStep (grid2.coords ⟨0, hn⟩) (iblk V c 0 ⟨0, hn⟩) (iblk V c 1 ⟨0, hn⟩) (iblk V c 2 ⟨0, hn⟩) (iblk V c 3 ⟨0, hn⟩) (iblk V c 4 ⟨0, hn⟩) (k2_pay3 (F := F))
  | n + 1, hn => accStep (grid2.coords ⟨n + 1, hn⟩) (iblk V c 0 ⟨n + 1, hn⟩) (iblk V c 1 ⟨n + 1, hn⟩) (iblk V c 2 ⟨n + 1, hn⟩) (iblk V c 3 ⟨n + 1, hn⟩)
      (iblk V c 4 ⟨n + 1, hn⟩) (accAt c n (Nat.lt_of_succ_lt hn))

/-- One step of the walk, from any earlier scratch contents that are the previous position's when there is one. -/
theorem accAt_step (c : Dev nD) (t : Fin cfg2.N) (s : Vec F S1024x128 .f32)
    (hs : ∀ h : 0 < t.val, s = accAt V c (t.val - 1) (Nat.lt_of_le_of_lt (Nat.sub_le _ _) t.isLt)) :
    accStep (grid2.coords t) (iblk V c 0 t) (iblk V c 1 t) (iblk V c 2 t) (iblk V c 3 t) (iblk V c 4 t) s = accAt V c t.val t.isLt := by
  obtain ⟨n, hn⟩ := t
  cases n with
  | zero => exact accStep_first ((isFirst_iff ⟨0, hn⟩).mpr rfl) _ _ _ _ _ _ _
  | succ n => rw [hs (Nat.succ_pos n)]; rfl

/-- What the body stores to the output's buffer at a last column block: the row block's complete sums plus the bias. -/
def outAt (c : Dev nD) (t : Fin cfg2.N) : Vec F S1024x128 .f32 := k2_pay2 (accAt V c t.val t.isLt) (iblk V c 5 t)

/-- The region's proof data on a core: the arrays as the region finds them; after the body each input's buffer at its
    block and the output's at the stored value (consulted only where the body stores it); between points the scratch block
    at the walk's running sums beside the other scoped buffers and the generator register; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := iprop((∃ s : Vec F S1024x128 .f32, ⌜∀ h : 0 < t.val, s = accAt V c (t.val - 1) (by have := t.isLt; omega)⌝
        ∗ owns (c : Thread nD τ) (Memref.whole cc2_scratch0 : Memref sig .tc .vmem S1024x128 .f32) fullShare s)
      ∗ Pipeline.scopedRestBut (Ix := Unit) (Name := ℕ) (U := UR sig nD τ) (Lvl := ℕ) (Val := Elt F) spec2 c [cc2_scratch0]
      ∗ ∃ r, prngReg c r)
  q _ := fullShare
  owed _ := 0

theorem Φ_eq (c : Dev nD) (t : Fin (cfg2.N + 1)) : (dat V c).Φ t
    = iprop((∃ s : Vec F S1024x128 .f32, ⌜∀ h : 0 < t.val, s = accAt V c (t.val - 1) (by have := t.isLt; omega)⌝
        ∗ owns (c : Thread nD τ) (Memref.whole cc2_scratch0 : Memref sig .tc .vmem S1024x128 .f32) fullShare s)
      ∗ Pipeline.scopedRestBut (Ix := Unit) (Name := ℕ) (U := UR sig nD τ) (Lvl := ℕ) (Val := Elt F) spec2 c [cc2_scratch0]
      ∗ ∃ r, prngReg c r) := by dsimp only [dat]
theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = outAt V c t := by dsimp only [dat]

/-- Each input's current staging buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- What the body is called with at a point, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns: the output's buffer at the stored value where the body stores it, else as found. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ (dat V c).leavesExact 6 t)

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl, after_0, after_1, after_2, after_3, after_4, after_5, Φ_eq, Φ_eq]
  by_cases hl : k2_cond2 (grid2.coords t) = 1#1
  · have hidle : cfg2.idle 6 (cfg2.grid.coords t) = false := by
      show (!(k2_cond2 (grid2.coords t) == 1#1)) = false
      rw [hl]; rfl
    rw [show (dat V c).leavesExact 6 t = owns (c : Thread nD τ) (st2_6 t) fullShare ((dat V c).after 6 t) from by
      unfold Dat.leavesExact; rw [hidle], after_6]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid2.coords t) _ _ _ _ _ _ _ _ _ _ _ _ _ _ _ _
      (iblk V c 0 t) (iblk V c 1 t) (iblk V c 2 t) (iblk V c 3 t) (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [show outStep (grid2.coords t) (iblk V c 0 t) (iblk V c 1 t) (iblk V c 2 t) (iblk V c 3 t) (iblk V c 4 t) (iblk V c 5 t) s ((dat V c).before 6 t d6) = outAt V c t from by
      unfold outStep outAt; rw [if_pos hl, accAt_step V c t s hs]]
    iexact H6
  · have hidle : cfg2.idle 6 (cfg2.grid.coords t) = true := by
      show (!(k2_cond2 (grid2.coords t) == 1#1)) = true
      rw [Bool.not_eq_true', beq_eq_false_iff_ne]; exact hl
    have hflush : (cfg2.win 6).flush t = false := by
      rw [Bool.eq_false_iff]; intro h; exact hl ((isLast_iff t).mpr ((flush2_6 t).mp h))
    rw [(dat V c).leavesExact_idle 6 t hidle hflush]
    iintro ⟨⟨⟨%s, %hs, Hs⟩, Hrest, Hr⟩, Ho, ⟨%d0, H0⟩, ⟨%d1, H1⟩, ⟨%d2, H2⟩, ⟨%d3, H3⟩, ⟨%d4, H4⟩, ⟨%d5, H5⟩, ⟨%d6, H6⟩⟩
    iapply (sound_kernel c Set.univ (grid2.coords t) _ _ _ _ _ _ _ _ _ _ _ _ _ _ _ _
      (iblk V c 0 t) (iblk V c 1 t) (iblk V c 2 t) (iblk V c 3 t) (iblk V c 4 t) (iblk V c 5 t) ((dat V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hrest Hr]
    · isplitl [Hs]
      · iexists _; isplitr; swap; · iexact Hs
        ipureintro; intro _; exact accAt_step V c t s hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6
    rw [show outStep (grid2.coords t) (iblk V c 0 t) (iblk V c 1 t) (iblk V c 2 t) (iblk V c 3 t) (iblk V c 4 t) (iblk V c 5 t) s ((dat V c).before 6 t d6) = (dat V c).before 6 t d6 from by
      unfold outStep; rw [if_neg hl]]
    iexact H6

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Layer2

end
-- ==== Proof.KernelBits.Boundaries.lean ====
import proofs.«171307_j71897752535776_1_alg».proof.Proof.KernelBits.RowSumData
import proofs.«171307_j71897752535776_1_alg».proof.Proof.KernelBits.Layer1Data
import proofs.«171307_j71897752535776_1_alg».proof.Proof.KernelBits.Layer2Data

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel
variable {F : FTy → Type} [FloatOps F]

local notation "𝕄" => MT nD τ sig Unit (Elt F) ℕ (UR sig nD τ) ℕ

/-! # The buffers' contents between the program's items

The program is nine items in a row: the row-sum region, five stretches of host operations (the power, the test for an
infinity, the select, the reshapes and x W1), the first layer's region, one stretch (hidden W2 and a reshape) and the second
layer's region. Between two items every unscoped buffer of the core holds named contents: the launch memory, then each
stretch's operations applied, then each region's arrays at what its write-backs leave, every other buffer as before. -/

variable (m : (ℓ : Loc nD τ sig) → Buf (Elt F) ℓ)

/-! ## The buffers' contents between items -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (RowSum.dat (V0 m) c).arrAt w cfg0.N
theorem W1_arr (c : Dev nD) (w : Fin cfg0.W) :
    W1 m c (Proc.devRef .tc (Pipeline.arrRef spec0 w)) = (RowSum.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (RowSum.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev V6 : (c : Dev nD) → (b : Ref sig .tc) → Buf (Elt F) ((c : Thread nD τ).loc b) := fun c b => W6 m c b

/-- After region 1: its arrays at what the pipeline leaves, every other buffer as entered. -/
def W7 (c : Dev nD) : Valuation τ sig (Elt F) :=
  Pipeline.withArrays spec1 c (W6 m c) fun w => (Layer1.dat (V6 m) c).arrAt w cfg1.N
theorem W7_arr (c : Dev nD) (w : Fin cfg1.W) :
    W7 m c (Proc.devRef .tc (Pipeline.arrRef spec1 w)) = (Layer1.dat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (Layer1.dat (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
abbrev W8 : Dev nD → Valuation τ sig (Elt F) := fun c => StableHlo.after hostOps2 (W7 m c)
abbrev V8 : (c : Dev nD) → (b : Ref sig .tc) → Buf (Elt F) ((c : Thread nD τ).loc b) := fun c b => W8 m c b

/-- After region 2: its arrays at what the pipeline leaves, every other buffer as entered. -/
def W9 (c : Dev nD) : Valuation τ sig (Elt F) :=
  Pipeline.withArrays spec2 c (W8 m c) fun w => (Layer2.dat (V8 m) c).arrAt w cfg2.N
theorem W9_arr (c : Dev nD) (w : Fin cfg2.W) :
    W9 m c (Proc.devRef .tc (Pipeline.arrRef spec2 w)) = (Layer2.dat (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (Layer2.dat (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

end Cert.Kernel.Launch

end
-- ==== Proof.KernelBits.Launch.lean ====
import proofs.«171307_j71897752535776_1_alg».proof.Proof.KernelBits.Boundaries
import proofs.«171307_j71897752535776_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (RegionSeg HostSeg Seg)
open Cert.Kernel
variable {F : FTy → Type} [FloatOps F]

local notation "𝕄" => MT nD τ sig Unit (Elt F) ℕ (UR sig nD τ) ℕ

/-! # The whole program's run

The program is nine items in a row: the row-sum region, five stretches of host operations (the power, the test for an
infinity, the select, the reshapes and x W1), the first layer's region, one stretch (hidden W2 and a reshape) and the second
layer's region. Between two items every unscoped buffer of the core is held whole at named contents: the launch memory, then
each stretch's operations applied, then each region's arrays at what its write-backs leave. The run ends with every buffer
at the last of these contents; the argument arrays are never written, and the result array is what the last region leaves. -/

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => RowSum.dat (V0 m) c
  | ⟨1, _⟩ => fun c => Layer1.dat (V6 m) c
  | ⟨2, _⟩ => fun c => Layer2.dat (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tₙ (c : Dev nD) : sProp 𝕄 := iprop(StableHlo.held (c : Thread nD τ) (Pipeline.ucRefs τ sig) (W9 m c) ∗ ∃ r, prngReg c r)

/-- The scoped buffers of a layer's call that are no staging buffer of it, split at the call's scratch block. -/
theorem scopedRest0_split' (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  scopedRest0_split c
theorem scopedRest1_split' (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
theorem scopedRest2_split' (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-! ## The regions as segments -/

-- a library lemma stated over the pinned configuration unifies with the printed one only when unification may unfold
-- plain definitions in a metavariable's type
set_option backward.isDefEq.respectTransparency.types false in
/-- Region 0 over the thread state: entered with every unscoped buffer at the contents before it, left with the region's
    arrays at what its write-backs leave and every other buffer as entered; the scratch block goes into the invariant out of
    the scoped buffers and comes back; the generator register likewise; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RowSum.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
      scopedRest0_split' (F := F) c
    rw [show (pdats m 0 c).Φ 0 = (RowSum.dat (V0 m) c).Φ 0 from rfl, RowSum.Φ_eq, hs]
    iintro ⟨Hp, -, ⟨%f, Hs⟩, Hrest⟩
    isplitl [Hs]
    · iexists f; isplitr; · ipureintro; intro h; exact absurd h (Nat.lt_irrefl 0)
      rw [owns_whole]; iexact Hs
    isplitl [Hrest]; · iexact Hrest
    iexact Hp
  hout c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
      scopedRest0_split' (F := F) c
    rw [Pipeline.ownSems0_none, show (pdats m 0 c).Φ (Fin.last _) = (RowSum.dat (V0 m) c).Φ (Fin.last _) from rfl, RowSum.Φ_eq, hs]
    iintro ⟨⟨%s, -, Hs⟩, Hrest, Hp⟩
    isplitl [Hp]; · iexact Hp
    isplitr; · iempintro
    isplitl [Hs]
    · iexists s; rw [← owns_whole]; iexact Hs
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the contents before it, left with the region's
    arrays at what its write-backs leave and every other buffer as entered; the scratch block goes into the invariant out of
    the scoped buffers and comes back; the generator register likewise; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
      scopedRest1_split' (F := F) c
    rw [show (pdats m 1 c).Φ 0 = (Layer1.dat (V6 m) c).Φ 0 from rfl, Layer1.Φ_eq, hs]
    iintro ⟨Hp, -, ⟨%f, Hs⟩, Hrest⟩
    isplitl [Hs]
    · iexists f; isplitr; · ipureintro; intro h; exact absurd h (Nat.lt_irrefl 0)
      rw [owns_whole]; iexact Hs
    isplitl [Hrest]; · iexact Hrest
    iexact Hp
  hout c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
      scopedRest1_split' (F := F) c
    rw [Pipeline.ownSems0_none, show (pdats m 1 c).Φ (Fin.last _) = (Layer1.dat (V6 m) c).Φ (Fin.last _) from rfl, Layer1.Φ_eq, hs]
    iintro ⟨⟨%s, -, Hs⟩, Hrest, Hp⟩
    isplitl [Hp]; · iexact Hp
    isplitr; · iempintro
    isplitl [Hs]
    · iexists s; rw [← owns_whole]; iexact Hs
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at the contents before it, left with the region's
    arrays at what its write-backs leave and every other buffer as entered; the scratch block goes into the invariant out of
    the scoped buffers and comes back; the generator register likewise; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
      scopedRest2_split' (F := F) c
    rw [show (pdats m 2 c).Φ 0 = (Layer2.dat (V8 m) c).Φ 0 from rfl, Layer2.Φ_eq, hs]
    iintro ⟨Hp, -, ⟨%f, Hs⟩, Hrest⟩
    isplitl [Hs]
    · iexists f; isplitr; · ipureintro; intro h; exact absurd h (Nat.lt_irrefl 0)
      rw [owns_whole]; iexact Hs
    isplitl [Hrest]; · iexact Hrest
    iexact Hp
  hout c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
      scopedRest2_split' (F := F) c
    rw [Pipeline.ownSems0_none, show (pdats m 2 c).Φ (Fin.last _) = (Layer2.dat (V8 m) c).Φ (Fin.last _) from rfl, Layer2.Φ_eq, hs]
    iintro ⟨⟨%s, -, Hs⟩, Hrest, Hp⟩
    isplitl [Hp]; · iexact Hp
    isplitr; · iempintro
    isplitl [Hs]
    · iexists s; rw [← owns_whole]; iexact Hs
    iexact Hrest
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)),
    .region (reg2 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and every
    final memory holds each unscoped buffer at the last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Launch

end
-- ==== Proof.KernelBits.BoundaryFacts.lean ====
import proofs.«171307_j71897752535776_1_alg».proof.Proof.KernelBits.Boundaries
import proofs.«171307_j71897752535776_1_alg».proof.Proof.Gen.Kernel.Regions
import Idealize.ShloMosaic.Lib.Pipeline.Cells

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel
variable {F : FTy → Type} [FloatOps F]

local notation "𝕄" => MT nD τ sig Unit (Elt F) ℕ (UR sig nD τ) ℕ

/-! # Which buffers the program's items leave alone

No host operation and no region writes an argument array: a region reads it through an input window or not at all. The two
scale arrays, once computed, are not written again. So those buffers hold at every later boundary what they held before. -/

variable (m : (ℓ : Loc nD τ sig) → Buf (Elt F) ℓ)

/-! ## A buffer that a run of host stretches does not write

Each host stretch writes only its own result buffers; read at any other reference the contents are those before it. -/

theorem W2_unwritten (c : Dev nD) (r : Ref sig .tc) (h : r ∉ hostOps1_W) : W2 m c (Proc.devRef .tc r) = W1 m c (Proc.devRef .tc r) :=
  StableHlo.after_of_writes_sub hostOps1 _ hostOps1_writes h
theorem W3_unwritten (c : Dev nD) (r : Ref sig .tc) (h : r ∉ hostOps1_1_W) : W3 m c (Proc.devRef .tc r) = W2 m c (Proc.devRef .tc r) :=
  StableHlo.after_of_writes_sub hostOps1_1 _ hostOps1_1_writes h
theorem W4_unwritten (c : Dev nD) (r : Ref sig .tc) (h : r ∉ hostOps1_2_W) : W4 m c (Proc.devRef .tc r) = W3 m c (Proc.devRef .tc r) :=
  StableHlo.after_of_writes_sub hostOps1_2 _ hostOps1_2_writes h
theorem W5_unwritten (c : Dev nD) (r : Ref sig .tc) (h : r ∉ hostOps1_3_W) : W5 m c (Proc.devRef .tc r) = W4 m c (Proc.devRef .tc r) :=
  StableHlo.after_of_writes_sub hostOps1_3 _ hostOps1_3_writes h
theorem W6_unwritten (c : Dev nD) (r : Ref sig .tc) (h : r ∉ hostOps1_4_W) : W6 m c (Proc.devRef .tc r) = W5 m c (Proc.devRef .tc r) :=
  StableHlo.after_of_writes_sub hostOps1_4 _ hostOps1_4_writes h
theorem W8_unwritten (c : Dev nD) (r : Ref sig .tc) (h : r ∉ hostOps2_W) : W8 m c (Proc.devRef .tc r) = W7 m c (Proc.devRef .tc r) :=
  StableHlo.after_of_writes_sub hostOps2 _ hostOps2_writes h

/-- The five stretches between the row-sum region and the first layer, taken together. -/
theorem W6_of_W1 (c : Dev nD) (r : Ref sig .tc) (h1 : r ∉ hostOps1_W) (h2 : r ∉ hostOps1_1_W) (h3 : r ∉ hostOps1_2_W)
    (h4 : r ∉ hostOps1_3_W) (h5 : r ∉ hostOps1_4_W) : W6 m c (Proc.devRef .tc r) = W1 m c (Proc.devRef .tc r) :=
  (W6_unwritten m c r h5).trans <| (W5_unwritten m c r h4).trans <| (W4_unwritten m c r h3).trans <|
    (W3_unwritten m c r h2).trans (W2_unwritten m c r h1)

/-! ## The argument arrays at each boundary

The adjacency and the similarity matrix are input windows of all three regions: a region leaves an input window's array as
it found it. The other five arguments are no window of the row-sum region and no window of either layer. -/

/-- After the row-sum region the two matrices are as launched. -/
theorem W1_main_arg0 (c : Dev nD) : W1 m c (Proc.devRef .tc main_arg0) = m ((c : Thread nD τ).loc main_arg0) :=
  (W1_arr m c 0).trans (((RowSum.dat _ c).arrAt_in 0 rfl _).trans (RowSum.A_eq _ c 0))
theorem W1_main_arg1 (c : Dev nD) : W1 m c (Proc.devRef .tc main_arg1) = m ((c : Thread nD τ).loc main_arg1) :=
  (W1_arr m c 1).trans (((RowSum.dat _ c).arrAt_in 1 rfl _).trans (RowSum.A_eq _ c 1))

/-- An argument that is no window of the row-sum region and that no host stretch before the first layer writes. -/
theorem W6_of_W0 (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) (h5 : r ∉ hostOps1_4_W) : W6 m c (Proc.devRef .tc r) = m ((c : Thread nD τ).loc r) :=
  (W6_of_W1 m c r h1 h2 h3 h4 h5).trans (W1_of_ne m c r h0)
/-- The adjacency and similarity arrays as each layer's region finds them: as launched. -/
theorem V6_main_arg0 (c : Dev nD) : V6 m c main_arg0 = m ((c : Thread nD τ).loc main_arg0) :=
  (W6_of_W1 m c main_arg0 (by decide) (by decide) (by decide) (by decide) (by decide)).trans (W1_main_arg0 m c)
theorem V6_main_arg1 (c : Dev nD) : V6 m c main_arg1 = m ((c : Thread nD τ).loc main_arg1) :=
  (W6_of_W1 m c main_arg1 (by decide) (by decide) (by decide) (by decide) (by decide)).trans (W1_main_arg1 m c)
/-- After the first layer's region its input windows' arrays are as it found them. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((Layer1.dat _ c).arrAt_in w hin _).trans (Layer1.A_eq _ c w))
/-- After the second layer's region its input windows' arrays are as it found them. -/
theorem W9_in (c : Dev nD) (w : Fin cfg2.W) (hin : (cfg2.win w).isOut = false) :
    W9 m c (Proc.devRef .tc (Pipeline.arrRef spec2 w)) = W8 m c (Proc.devRef .tc (Pipeline.arrRef spec2 w)) :=
  (W9_arr m c w).trans (((Layer2.dat _ c).arrAt_in w hin _).trans (Layer2.A_eq _ c w))
theorem V8_main_arg0 (c : Dev nD) : V8 m c main_arg0 = m ((c : Thread nD τ).loc main_arg0) :=
  (W8_unwritten m c main_arg0 (by decide)).trans ((W7_in m c 0 rfl).trans (V6_main_arg0 m c))
theorem V8_main_arg1 (c : Dev nD) : V8 m c main_arg1 = m ((c : Thread nD τ).loc main_arg1) :=
  (W8_unwritten m c main_arg1 (by decide)).trans ((W7_in m c 1 rfl).trans (V6_main_arg1 m c))
/-- The two scale arrays as the second layer's region finds them: as the first layer's found them. -/
theorem V8_main_v6 (c : Dev nD) : V8 m c main_v6 = V6 m c main_v6 :=
  (W8_unwritten m c main_v6 (by decide)).trans (W7_in m c 2 rfl)
theorem V8_main_v7 (c : Dev nD) : V8 m c main_v7 = V6 m c main_v7 :=
  (W8_unwritten m c main_v7 (by decide)).trans (W7_in m c 3 rfl)

/-- An argument that is no window of any region and that no host stretch writes is at the end as launched. -/
theorem W9_of_W0 (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) (h5 : r ∉ hostOps1_4_W) (h6 : ∀ w, Pipeline.arrRef spec1 w ≠ r) (h7 : r ∉ hostOps2_W)
    (h8 : ∀ w, Pipeline.arrRef spec2 w ≠ r) : W9 m c (Proc.devRef .tc r) = m ((c : Thread nD τ).loc r) :=
  (W9_of_ne m c r h8).trans <| (W8_unwritten m c r h7).trans <| (W7_of_ne m c r h6).trans (W6_of_W0 m c r h0 h1 h2 h3 h4 h5)

theorem W9_main_arg0 (c : Dev nD) : W9 m c (Proc.devRef .tc main_arg0) = m ((c : Thread nD τ).loc main_arg0) :=
  (W9_in m c 0 rfl).trans (V8_main_arg0 m c)
theorem W9_main_arg1 (c : Dev nD) : W9 m c (Proc.devRef .tc main_arg1) = m ((c : Thread nD τ).loc main_arg1) :=
  (W9_in m c 1 rfl).trans (V8_main_arg1 m c)
theorem W9_main_arg2 (c : Dev nD) : W9 m c (Proc.devRef .tc main_arg2) = m ((c : Thread nD τ).loc main_arg2) :=
  W9_of_W0 m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_of_W0 m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_of_W0 m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_of_W0 m c main_arg5 (by decide) (by decide) (by decide) (by decide) (by decide) (by decide) (by decide) (by decide) (by decide)
theorem W9_main_arg6 (c : Dev nD) : W9 m c (Proc.devRef .tc main_arg6) = m ((c : Thread nD τ).loc main_arg6) :=
  W9_of_W0 m c main_arg6 (by decide) (by decide) (by decide) (by decide) (by decide) (by decide) (by decide) (by decide) (by decide)

/-- The result array at the end is what the last region leaves. -/
theorem W9_result (c : Dev nD) : W9 m c (Proc.devRef .tc main_v13) = (Layer2.dat (V8 m) c).arrAt 6 cfg2.N :=
  W9_arr m c 6

/-- The degrees as the first host stretch finds them: what the row-sum region left. -/
theorem V1_main_v0 (c : Dev nD) : V1 m c main_v0 = (RowSum.dat (V0 m) c).arrAt 2 cfg0.N :=
  W1_arr m c 2
/-- The first layer's value as the last host stretch finds it: what the first layer's region left. -/
theorem V7_main_v10 (c : Dev nD) : V7 m c main_v10 = (Layer1.dat (V6 m) c).arrAt 6 cfg1.N :=
  W7_arr m c 6

end Cert.Kernel.Launch

end
-- ==== Proof.Spec.lean ====
import Idealize.ShloMosaic.PureOps.Ideal
import Idealize.ShloMosaic.Lib.ValueIdx

noncomputable section

open scoped BigOperators

/-! # What both programs compute, over the extended reals

A two-layer graph convolution over a dense adjacency. With A the adjacency and S the similarity matrix (both 8192 by 8192),
the shifted adjacency is adj = A + beta S with eps added on the diagonal; its row sums are the degrees; each degree d is
turned into the scale d^(-1/2), an infinite value replaced by zero; the normalised adjacency is
anorm p q = scale p * adj p q * scale q. The first layer is hidden = max (anorm (x W1) + b1) 0, the second
out = anorm (hidden W2) + b2. Every sum is a finite sum in the extended reals, a commutative monoid, so the order and the
grouping of its terms do not matter. -/

namespace Cert.Spec

open Idealize.ShloMosaic Idealize.ShloMosaic.ValueIdx

/-- A matrix, a vector: functions of a rank-2 or rank-1 index. -/
abbrev Mat (a b : ℕ) : Type := (⟨2, ![a, b]⟩ : Shape).Idx → EReal
abbrev Vec1 (a : ℕ) : Type := (⟨1, ![a]⟩ : Shape).Idx → EReal

/-- The weight of the similarity matrix and the diagonal shift: the two float words both programs carry. -/
def beta : EReal := Ideal.ofBits .f32 0x3F4CCCCD#32
def eps : EReal := Ideal.ofBits .f32 0x322BCC77#32

/-- The shifted adjacency. -/
def adj (A S : Mat 8192 8192) (p q : Fin 8192) : EReal :=
  A (ix2 p q) + beta * S (ix2 p q) + (if p = q then eps else 0)

/-- A node's degree: its row of the shifted adjacency, summed. -/
def deg (A S : Mat 8192 8192) (p : Fin 8192) : EReal := ∑ q : Fin 8192, adj A S p q

/-- d ↦ d^(-1/2), an infinite value replaced by zero: the host's power, its test for an infinity and its select, on one element. -/
def invSqrtOrZero (d : EReal) : EReal :=
  Scalar.select
    (FloatOps.cmpf (F := Ideal) (φ := .f32) .oeq
      (FloatOps.hostAbsf (F := Ideal) (φ := .f32) (FloatOps.hostPowf (F := Ideal) (φ := .f32) d (Ideal.ofBits .f32 0xBF000000#32)))
      (Ideal.ofBits .f32 0x7F800000#32))
    (Ideal.ofBits .f32 0x00000000#32)
    (FloatOps.hostPowf (F := Ideal) (φ := .f32) d (Ideal.ofBits .f32 0xBF000000#32))

/-- A node's scale. -/
def scale (A S : Mat 8192 8192) (p : Fin 8192) : EReal := invSqrtOrZero (deg A S p)

/-- The normalised adjacency. -/
def anorm (A S : Mat 8192 8192) (p q : Fin 8192) : EReal := scale A S p * adj A S p q * scale A S q

/-- The features times the first weight matrix. -/
def xw (x : Mat 8192 512) (W1 : Mat 512 256) (k : Fin 8192) (c : Fin 256) : EReal := ∑ j : Fin 512, x (ix2 k j) * W1 (ix2 j c)

/-- The first layer. -/
def hidden (A S : Mat 8192 8192) (x : Mat 8192 512) (W1 : Mat 512 256) (b1 : Vec1 256) (p : Fin 8192) (c : Fin 256) : EReal :=
  max ((∑ k : Fin 8192, anorm A S p k * xw x W1 k c) + b1 (ix1 c)) 0

/-- The first layer times the second weight matrix. -/
def hw (A S : Mat 8192 8192) (x : Mat 8192 512) (W1 : Mat 512 256) (b1 : Vec1 256) (W2 : Mat 256 128) (k : Fin 8192) (c : Fin 128) : EReal :=
  ∑ j : Fin 256, hidden A S x W1 b1 k j * W2 (ix2 j c)

/-- The second layer, by coordinates. -/
def outAt (A S : Mat 8192 8192) (x : Mat 8192 512) (W1 : Mat 512 256) (b1 : Vec1 256) (W2 : Mat 256 128) (b2 : Vec1 128)
    (p : Fin 8192) (c : Fin 128) : EReal :=
  (∑ k : Fin 8192, anorm A S p k * hw A S x W1 b1 W2 k c) + b2 (ix1 c)

/-- The result array. -/
def out (A S : Mat 8192 8192) (x : Mat 8192 512) (W1 : Mat 512 256) (b1 : Vec1 256) (W2 : Mat 256 128) (b2 : Vec1 128) : Mat 8192 128 :=
  fun i => outAt A S x W1 b1 W2 b2 (i 0) (i 1)

/-! ## Sums taken block by block

Both kernels walk a row's 8192 columns in 8 blocks of 1024, adding each block's sum to a running total that starts at zero. -/

/-- Column l of column block jb. -/
def col (jb : Fin 8) (l : Fin 1024) : Fin 8192 := ⟨jb.val * 1024 + l.val, by have := jb.isLt; have := l.isLt; omega⟩

/-- The running total after the column blocks 0 … n-1. -/
def partialSum (f : Fin 8192 → EReal) (n : ℕ) : EReal :=
  ∑ jb ∈ Finset.range n, if h : jb < 8 then ∑ l : Fin 1024, f (col ⟨jb, h⟩ l) else 0

theorem partialSum_zero (f : Fin 8192 → EReal) : partialSum f 0 = 0 := by
  unfold partialSum; rw [Finset.range_zero, Finset.sum_empty]

theorem partialSum_succ (f : Fin 8192 → EReal) (n : ℕ) (h : n < 8) :
    partialSum f (n + 1) = partialSum f n + ∑ l : Fin 1024, f (col ⟨n, h⟩ l) := by
  unfold partialSum; rw [Finset.sum_range_succ, dif_pos h]

/-- All 8 blocks together are the whole row. -/
theorem partialSum_all (f : Fin 8192 → EReal) : partialSum f 8 = ∑ q : Fin 8192, f q := by
  unfold partialSum
  rw [Finset.sum_range]
  -- every block index below 8 takes the first branch
  have hblk : ∀ jb : Fin 8, (if h : jb.val < 8 then ∑ l : Fin 1024, f (col ⟨jb.val, h⟩ l) else 0) = ∑ l : Fin 1024, f (col jb l) :=
    fun jb => dif_pos jb.isLt
  rw [Finset.sum_congr rfl fun jb _ => hblk jb, ← Fintype.sum_prod_type']
  -- the pair (block, column inside the block) is the column block * 1024 + column
  refine Fintype.sum_equiv (finProdFinEquiv (m := 8) (n := 1024)) _ _ fun p => congrArg f (Fin.ext ?_)
  show p.1.val * 1024 + p.2.val = p.2.val + 1024 * p.1.val
  omega

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.HostValues.lean ====
import proofs.«171307_j71897752535776_1_alg».proof.Proof.BoundaryFacts
import proofs.«171307_j71897752535776_1_alg».proof.Proof.Spec
import Idealize.ShloMosaic.Lib.StableHlo.Run
import Idealize.ShloMosaic.Lib.ValueIdx
import Idealize.ShloMosaic.Lib.ValueLayout
import Idealize.ShloMosaic.PureOps.Ideal.Laws
import proofs.«171307_j71897752535776_1_alg».proof.Proof.LibRowwise

set_option maxRecDepth 16384

noncomputable section

open scoped BigOperators

namespace Cert.KernelIdeal.Launch

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-! # What the host stretches compute, read at one element

Between the row-sum region and the first layer: each degree d becomes the scale d^(-1/2) with an infinite value replaced by
zero, as a column (8192 by 1) and, reshaped, as a row (1 by 8192); x W1 is formed; the bias vector is reshaped to a row.
Between the two layers: the first layer's value times W2, and the second bias as a row. Each array is named by a variable
of its literal type, tied to the buffer's contents at the boundary by an equation. -/

/-! ## Each stretch's results, over any contents before it -/

section Stretches

variable (V : Valuation τ sig (Elt Ideal))

/-- The first stretch: the degrees raised to the broadcast power. -/
theorem stretch_pow : (StableHlo.after hostOps1 V (Proc.devRef .tc main_v2) : Mat 8192 1)
    = Host.powf (F := Ideal) (s := S8192x1) (φ := .f32) (V (Proc.devRef .tc main_v0) : Mat 8192 1) (broadcastInDim S8192x1 ![] bcast_S_S8192x1 (constant (F := Ideal) S_ .f32 0xBF000000#32)) := by
  after_results

/-- The second stretch: is the absolute value of the power the infinity word? -/
theorem stretch_isinf : (StableHlo.after hostOps1_1 V (Proc.devRef .tc main_v3) : IVec S8192x1 1)
    = cmpf (F := Ideal) (s := S8192x1) (φ := .f32) .oeq (Host.absf (F := Ideal) (s := S8192x1) (φ := .f32) (V (Proc.devRef .tc main_v2) : Mat 8192 1)) (broadcastInDim S8192x1 ![] bcast_S_S8192x1 (constant (F := Ideal) S_ .f32 0x7F800000#32)) := by
  after_results
  rfl

/-- The third stretch: the power again, and the zero word. -/
theorem stretch_pow' : (StableHlo.after hostOps1_2 V (Proc.devRef .tc main_v5) : Mat 8192 1)
    = Host.powf (F := Ideal) (s := S8192x1) (φ := .f32) (V (Proc.devRef .tc main_v0) : Mat 8192 1) (broadcastInDim S8192x1 ![] bcast_S_S8192x1 (constant (F := Ideal) S_ .f32 0xBF000000#32)) := by
  after_results
theorem stretch_zero : (StableHlo.after hostOps1_2 V (Proc.devRef .tc main_cst_1) : S_.Idx → EReal) = constant (F := Ideal) S_ .f32 0x00000000#32 := by
  after_results

/-- The fourth stretch: the select between the broadcast zero word and the power. -/
theorem stretch_select : (StableHlo.after hostOps1_3 V (Proc.devRef .tc main_v6) : Mat 8192 1)
    = select (V (Proc.devRef .tc main_v3) : IVec S8192x1 1) (broadcastInDim S8192x1 ![] bcast_S_S8192x1 (id (V (Proc.devRef .tc main_cst_1) : S_.Idx → EReal)))
        (V (Proc.devRef .tc main_v5) : Mat 8192 1) := by
  after_results
  rfl

/-- The fifth stretch: the scale column as a row, x W1, and the first bias as a row. -/
theorem stretch_row : (StableHlo.after hostOps1_4 V (Proc.devRef .tc main_v7) : Mat 1 8192)
    = shapeCast S1x8192 (V (Proc.devRef .tc main_v6) : Mat 8192 1) shapeCasts_S8192x1_S1x8192 := by
  after_results
  rfl
theorem stretch_xw : (StableHlo.after hostOps1_4 V (Proc.devRef .tc main_v8) : Mat 8192 256)
    = Host.dotGeneral (F := Ideal) (φ₁ := .f32) (φ₂ := .f32) dot_S8192x512_S512x256_S8192x256_1_0_0_1_n_n none (V (Proc.devRef .tc main_arg2) : Mat 8192 512) (V (Proc.devRef .tc main_arg3) : Mat 512 256) := by
  after_results
theorem stretch_bias1 : (StableHlo.after hostOps1_4 V (Proc.devRef .tc main_v9) : Mat 1 256)
    = shapeCast S1x256 (V (Proc.devRef .tc main_arg4) : Vec1 256) shapeCasts_S256_S1x256 := by
  after_results
  rfl

/-- The last stretch: hidden W2, and the second bias as a row. -/
theorem stretch_hw : (StableHlo.after hostOps2 V (Proc.devRef .tc main_v11) : Mat 8192 128)
    = Host.dotGeneral (F := Ideal) (φ₁ := .f32) (φ₂ := .f32) dot_S8192x256_S256x128_S8192x128_1_0_0_1_n_n none (V (Proc.devRef .tc main_v10) : Mat 8192 256) (V (Proc.devRef .tc main_arg5) : Mat 256 128) := by
  after_results
theorem stretch_bias2 : (StableHlo.after hostOps2 V (Proc.devRef .tc main_v12) : Mat 1 128)
    = shapeCast S1x128 (V (Proc.devRef .tc main_arg6) : Vec1 128) shapeCasts_S128_S1x128 := by
  after_results
  rfl

end Stretches

/-! ## The chain on one element -/

/-- The power, the test for an infinity and the select, on arrays named by variables, at one index. -/
theorem scale_elem (d v2 v5 sc : Mat 8192 1) (v3 : IVec S8192x1 1) (z : S_.Idx → EReal)
    (h2 : v2 = Host.powf (F := Ideal) (s := S8192x1) (φ := .f32) d (broadcastInDim S8192x1 ![] bcast_S_S8192x1 (constant (F := Ideal) S_ .f32 0xBF000000#32)))
    (h3 : v3 = cmpf (F := Ideal) (s := S8192x1) (φ := .f32) .oeq (Host.absf (F := Ideal) (s := S8192x1) (φ := .f32) v2) (broadcastInDim S8192x1 ![] bcast_S_S8192x1 (constant (F := Ideal) S_ .f32 0x7F800000#32)))
    (h5 : v5 = Host.powf (F := Ideal) (s := S8192x1) (φ := .f32) d (broadcastInDim S8192x1 ![] bcast_S_S8192x1 (constant (F := Ideal) S_ .f32 0xBF000000#32)))
    (hz : z = constant (F := Ideal) S_ .f32 0x00000000#32)
    (hsc : sc = select v3 (broadcastInDim S8192x1 ![] bcast_S_S8192x1 (id z)) v5) (i : S8192x1.Idx) :
    sc i = Spec.invSqrtOrZero (d i) := by
  subst h2 h3 h5 hz hsc
  rfl

/-! ## A plain matrix product on the host, read at one element -/

/-- A record over `[M, K]`, `[K, N]`, `[M, N]` that contracts the left operand's axis 1 with the right operand's axis 0 and has no
    batch axes: the host's product at `(p, q)` is the sum over the contracted coordinate. -/
theorem hostDot_apply {M K N : ℕ} (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = [])
    (prec : Option ContractPrecision) (a : FVec Ideal ⟨2, ![M, K]⟩ .f32) (b : FVec Ideal ⟨2, ![K, N]⟩ .f32) (p : Fin M) (q : Fin N) :
    Host.dotGeneral D prec a b (ix2 p q) = ∑ k : Fin K, a (ix2 p k) * b (ix2 k q) := by
  rw [Cert.Lib.Rowwise.eq_plain D h1 h2 h3 h4 h5 h6]
  simp only [Host.dotGeneral]
  rw [Ideal.dotGeneral_apply, ← Ideal.matmul_constant_zero_apply (DotDims.plain M K N) prec a b (ix2 p q)]
  exact Cert.Lib.Rowwise.plain_matmul_zero_apply prec a b p q

variable (m : (ℓ : Loc nD τ sig) → Buf (Elt Ideal) ℓ)

/-! ## The arguments the later stretches read: as launched -/

/-- An argument that is no window of the row-sum region and that no earlier stretch writes, as the fifth stretch finds it. -/
theorem W5_of_W0 (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) : W5 m c (Proc.devRef .tc r) = m ((c : Thread nD τ).loc r) :=
  (W5_unwritten m c r h4).trans <| (W4_unwritten m c r h3).trans <| (W3_unwritten m c r h2).trans <|
    (W2_unwritten m c r h1).trans (W1_of_ne m c r h0)

/-- An argument that is no window of the first two regions and that no earlier stretch writes, as the last stretch finds it. -/
theorem W7_of_W0 (c : Dev nD) (r : Ref sig .tc) (h0 : ∀ w, Pipeline.arrRef spec0 w ≠ r) (h1 : r ∉ hostOps1_W) (h2 : r ∉ hostOps1_1_W)
    (h3 : r ∉ hostOps1_2_W) (h4 : r ∉ hostOps1_3_W) (h5 : r ∉ hostOps1_4_W) (h6 : ∀ w, Pipeline.arrRef spec1 w ≠ r) :
    W7 m c (Proc.devRef .tc r) = m ((c : Thread nD τ).loc r) :=
  (W7_of_ne m c r h6).trans (W6_of_W0 m c r h0 h1 h2 h3 h4 h5)

/-! ## The scales -/

/-- The scale column as the fifth stretch finds it, at one element: the degree's scale. -/
theorem W5_scale (c : Dev nD) (i : S8192x1.Idx) :
    (W5 m c (Proc.devRef .tc main_v6) : Mat 8192 1) i = Spec.invSqrtOrZero ((W1 m c (Proc.devRef .tc main_v0) : Mat 8192 1) i) := by
  -- the second power reads the degrees the first one read: neither of the first two stretches writes them
  have h5 := stretch_pow' (W3 m c)
  rw [W3_unwritten m c main_v0 (by decide), W2_unwritten m c main_v0 (by decide)] at h5
  exact scale_elem _ _ _ _ _ _ (stretch_pow (W1 m c)) ((W4_unwritten m c main_v3 (by decide)).trans (stretch_isinf (W2 m c))) h5
    (stretch_zero (W3 m c)) (stretch_select (W4 m c)) i

theorem V6_scaleCol (c : Dev nD) (d : Mat 8192 1) (hd : V1 m c main_v0 = d) (sc : Mat 8192 1) (hsc : V6 m c main_v6 = sc) (p : Fin 8192) :
    sc (ix2 p (0 : Fin 1)) = Spec.invSqrtOrZero (d (ix2 p (0 : Fin 1))) := by
  have e : (V6 m c main_v6 : Mat 8192 1) = (W5 m c (Proc.devRef .tc main_v6) : Mat 8192 1) := W6_unwritten m c main_v6 (by decide)
  rw [← hsc, ← hd, e]
  exact W5_scale m c _

theorem V6_scaleRow (c : Dev nD) (d : Mat 8192 1) (hd : V1 m c main_v0 = d) (sr : Mat 1 8192) (hsr : V6 m c main_v7 = sr) (q : Fin 8192) :
    sr (ix2 (0 : Fin 1) q) = Spec.invSqrtOrZero (d (ix2 q (0 : Fin 1))) := by
  have e : (V6 m c main_v7 : Mat 1 8192) = shapeCast S1x8192 (W5 m c (Proc.devRef .tc main_v6) : Mat 8192 1) shapeCasts_S8192x1_S1x8192 :=
    stretch_row (W5 m c)
  -- element q of the row is element q of the column: the same row-major position
  have hpos : shapeCast S1x8192 (W5 m c (Proc.devRef .tc main_v6) : Mat 8192 1) shapeCasts_S8192x1_S1x8192 (ix2 (0 : Fin 1) q)
      = (W5 m c (Proc.devRef .tc main_v6) : Mat 8192 1) (ix2 q (0 : Fin 1)) :=
    shapeCast_apply (s := S8192x1) (t := S1x8192) _ _ _ _ (by
      rw [Shape.rowMajor_val_two, Shape.rowMajor_val_two]
      show q.val * 1 + 0 = 0 * 8192 + q.val
      omega)
  rw [← hsr, ← hd, e, hpos]
  exact W5_scale m c _

/-! ## The products and the bias rows -/

theorem V6_xw (c : Dev nD) (x : Mat 8192 512) (hx : m ((c : Thread nD τ).loc main_arg2) = x) (W1 : Mat 512 256) (hW1 : m ((c : Thread nD τ).loc main_arg3) = W1)
    (B : Mat 8192 256) (hB : V6 m c main_v8 = B) (k : Fin 8192) (cc : Fin 256) :
    B (ix2 k cc) = Spec.xw x W1 k cc := by
  have e := stretch_xw (W5 m c)
  rw [W5_of_W0 m c main_arg2 (by decide) (by decide) (by decide) (by decide) (by decide),
    W5_of_W0 m c main_arg3 (by decide) (by decide) (by decide) (by decide) (by decide), hx, hW1] at e
  have e' : (V6 m c main_v8 : Mat 8192 256) = Host.dotGeneral (F := Ideal) (φ₁ := .f32) (φ₂ := .f32) dot_S8192x512_S512x256_S8192x256_1_0_0_1_n_n none x W1 := e
  rw [← hB, e']
  exact hostDot_apply _ rfl rfl rfl rfl rfl rfl none x W1 k cc

theorem V6_bias (c : Dev nD) (b1 : Vec1 256) (hb1 : m ((c : Thread nD τ).loc main_arg4) = b1) (bias : Mat 1 256) (hbias : V6 m c main_v9 = bias) (cc : Fin 256) :
    bias (ix2 (0 : Fin 1) cc) = b1 (ix1 cc) := by
  have e := stretch_bias1 (W5 m c)
  rw [W5_of_W0 m c main_arg4 (by decide) (by decide) (by decide) (by decide) (by decide), hb1] at e
  have e' : (V6 m c main_v9 : Mat 1 256) = shapeCast S1x256 b1 shapeCasts_S256_S1x256 := e
  rw [← hbias, e']
  exact shapeCast_a_1a_apply b1 _ 0 cc

theorem V8_hw (c : Dev nD) (h : Mat 8192 256) (hh : V7 m c main_v10 = h) (W2 : Mat 256 128) (hW2 : m ((c : Thread nD τ).loc main_arg5) = W2)
    (B : Mat 8192 128) (hB : V8 m c main_v11 = B) (k : Fin 8192) (cc : Fin 128) :
    B (ix2 k cc) = ∑ j : Fin 256, h (ix2 k j) * W2 (ix2 j cc) := by
  have e := stretch_hw (W7 m c)
  rw [W7_of_W0 m c main_arg5 (by decide) (by decide) (by decide) (by decide) (by decide) (by decide) (by decide), hW2,
    show W7 m c (Proc.devRef .tc main_v10) = h from hh] at e
  have e' : (V8 m c main_v11 : Mat 8192 128) = Host.dotGeneral (F := Ideal) (φ₁ := .f32) (φ₂ := .f32) dot_S8192x256_S256x128_S8192x128_1_0_0_1_n_n none h W2 := e
  rw [← hB, e']
  exact hostDot_apply _ rfl rfl rfl rfl rfl rfl none h W2 k cc

theorem V8_bias (c : Dev nD) (b2 : Vec1 128) (hb2 : m ((c : Thread nD τ).loc main_arg6) = b2) (bias : Mat 1 128) (hbias : V8 m c main_v12 = bias) (cc : Fin 128) :
    bias (ix2 (0 : Fin 1) cc) = b2 (ix1 cc) := by
  have e := stretch_bias2 (W7 m c)
  rw [W7_of_W0 m c main_arg6 (by decide) (by decide) (by decide) (by decide) (by decide) (by decide) (by decide), hb2] at e
  have e' : (V8 m c main_v12 : Mat 1 128) = shapeCast S1x128 b2 shapeCasts_S128_S1x128 := e
  rw [← hbias, e']
  exact shapeCast_a_1a_apply b2 _ 0 cc

end Cert.KernelIdeal.Launch

end
-- ==== Proof.PayloadValue.lean ====
import proofs.«171307_j71897752535776_1_alg».proof.Proof.Gen.KernelIdeal.Skeleton
import proofs.«171307_j71897752535776_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«171307_j71897752535776_1_alg».proof.Proof.LibRowwise

set_option maxRecDepth 16384

noncomputable section

open scoped BigOperators

/-! # The kernels' stored values read at one element, over the extended reals

Each store's value, a function of the blocks the body loaded, at a row r and a column of the stored block: the zero fill is
zero; the row-sum step adds the row's 1024 entries of A + beta S (+ eps where the global row and column agree) to the running
total; a layer step adds the row of the normalised block times the column of the right factor; the last store adds the bias
(and, in the first layer, clamps at zero). A change of float format is the identity here. -/

namespace Cert.KernelIdeal.PayloadValue

open Idealize.ShloMosaic Idealize.ShloMosaic.ValueIdx Cert.KernelIdeal Cert.KernelIdeal.Gen Cert.Spec

/-- The diagonal term of a block: eps where the global row equals the global column. -/
def diagTerm (bi bj : ℕ) (r l : Fin 1024) : EReal := if bi * 1024 + r.val = bj * 1024 + l.val then eps else 0

/-- One entry of a block of the shifted adjacency, from the blocks of A and S. -/
def adjEntry (bi bj : ℕ) (x0 x1 : Vec Ideal S1024x1024 .f32) (r l : Fin 1024) : EReal :=
  x0 (ix2 r l) + beta * x1 (ix2 r l) + diagTerm bi bj r l

theorem k0_pay1_apply (j : S1024x1.Idx) : k0_pay1 (F := Ideal) j = 0 := by
  unfold k0_pay1
  rw [shapeCast_self]
  exact Ideal.ofBits_zero_f32

/-! ## The diagonal mask

The kernels mark the diagonal by comparing, as 32-bit words, block row * 1024 + row with block column * 1024 + column. With a block
index below 8 and an offset below 1024 neither sum reaches 2^32, so the two words agree exactly when the two naturals do; the
one-bit result, widened and converted, is the extended real 1 or 0. -/

/-- A block index times 1024 plus an offset, computed in 32-bit words, is the word of that natural number. -/
theorem globalWord (b o : ℕ) : BitVec.ofNat 32 b * 1024#32 + BitVec.ofNat 32 o = BitVec.ofNat 32 (b * 1024 + o) := by
  rw [BitVec.ofNat_add, BitVec.ofNat_mul]

/-- Below 8 blocks of 1024 the words are equal exactly when the naturals are. -/
theorem globalWord_eq_iff (bi bj r l : ℕ) (hbi : bi < 8) (hbj : bj < 8) (hr : r < 1024) (hl : l < 1024) :
    BitVec.ofNat 32 bi * 1024#32 + BitVec.ofNat 32 r = BitVec.ofNat 32 bj * 1024#32 + BitVec.ofNat 32 l
      ↔ bi * 1024 + r = bj * 1024 + l := by
  have h1 : (bi * 1024 + r) % 2 ^ 32 = bi * 1024 + r := Nat.mod_eq_of_lt (by omega)
  have h2 : (bj * 1024 + l) % 2 ^ 32 = bj * 1024 + l := Nat.mod_eq_of_lt (by omega)
  rw [globalWord, globalWord, ← BitVec.toNat_inj, BitVec.toNat_ofNat, BitVec.toNat_ofNat, h1, h2]

/-- The mask at one element, at the extended reals: 1 where the global row and column agree, else 0. -/
theorem mask_sitofp (bi bj r l : ℕ) (hbi : bi < 8) (hbj : bj < 8) (hr : r < 1024) (hl : l < 1024) :
    FloatOps.sitofp (F := Ideal) .f32
        ((IntOp.cmpi .eq (IntOp.addi (Scalar.muli (BitVec.ofNat 32 bi) 1024#32) (BitVec.ofNat 32 r))
          (IntOp.addi (Scalar.muli (BitVec.ofNat 32 bj) 1024#32) (BitVec.ofNat 32 l))).setWidth 32)
      = if bi * 1024 + r = bj * 1024 + l then (1 : EReal) else 0 := by
  have hw := globalWord_eq_iff bi bj r l hbi hbj hr hl
  show ((((BitVec.ofBool (BitVec.ofNat 32 bi * 1024#32 + BitVec.ofNat 32 r == BitVec.ofNat 32 bj * 1024#32 + BitVec.ofNat 32 l)).setWidth 32).toInt : ℝ) : EReal) = _
  by_cases h : bi * 1024 + r = bj * 1024 + l
  · have hb : (BitVec.ofNat 32 bi * 1024#32 + BitVec.ofNat 32 r == BitVec.ofNat 32 bj * 1024#32 + BitVec.ofNat 32 l) = true :=
      beq_iff_eq.mpr (hw.mpr h)
    have e : ((BitVec.ofBool true).setWidth 32).toInt = 1 := by decide
    rw [if_pos h, hb, e]
    simp
  · have hb : (BitVec.ofNat 32 bi * 1024#32 + BitVec.ofNat 32 r == BitVec.ofNat 32 bj * 1024#32 + BitVec.ofNat 32 l) = false :=
      beq_eq_false_iff_ne.mpr fun e => h (hw.mp e)
    have e : ((BitVec.ofBool false).setWidth 32).toInt = 0 := by decide
    rw [if_neg h, hb, e]
    simp

/-- An integer comparison and an integer sum of vectors, read at an index. -/
theorem cmpi_apply {s : Shape} {w : ℕ} (p : CmpIPredicate) (x y : IVec s w) (i : s.Idx) : cmpi p x y i = IntOp.cmpi p (x i) (y i) := rfl
theorem addi_apply {s : Shape} {w : ℕ} (x y : IVec s w) (i : s.Idx) : addi x y i = IntOp.addi (x i) (y i) := rfl

/-- One entry of a block of the shifted adjacency as the kernels compute it: A + beta S, plus eps times the mask. -/
theorem adjBlock_apply (bi bj : ℕ) (hbi : bi < 8) (hbj : bj < 8) (x0 x1 : Vec Ideal S1024x1024 .f32) (r l : Fin 1024) :
    (addf (addf x0 (mulf (broadcast S1024x1024 (Scalar.ofBits (F := Ideal) .f32 0x3F4CCCCD#32)) x1))
      (mulf (broadcast S1024x1024 (Scalar.ofBits (F := Ideal) .f32 0x322BCC77#32))
        (sitofp .f32 (extui 32 (cmpi .eq
          (addi (broadcast S1024x1024 (Scalar.muli (BitVec.ofNat 32 bi) 1024#32)) (iota .tc S1024x1024 32 [0] iota_S1024x1024_d0_w32))
          (addi (broadcast S1024x1024 (Scalar.muli (BitVec.ofNat 32 bj) 1024#32)) (iota .tc S1024x1024 32 [1] iota_S1024x1024_d1_w32)))
          natLt_1_32))) : FVec Ideal S1024x1024 .f32) (ix2 r l)
      = adjEntry bi bj x0 x1 r l := by
  rw [addf_apply, addf_apply, mulf_apply, mulf_apply, broadcast_apply, broadcast_apply, sitofp_apply, extui_apply, cmpi_apply,
    addi_apply, addi_apply, broadcast_apply, broadcast_apply, iota_single_apply, iota_single_apply]
  have hm := mask_sitofp bi bj r.val l.val hbi hbj r.isLt l.isLt
  show x0 (ix2 r l) + beta * x1 (ix2 r l) + eps * FloatOps.sitofp (F := Ideal) .f32
      ((IntOp.cmpi .eq (IntOp.addi (Scalar.muli (BitVec.ofNat 32 bi) 1024#32) (BitVec.ofNat 32 r.val))
        (IntOp.addi (Scalar.muli (BitVec.ofNat 32 bj) 1024#32) (BitVec.ofNat 32 l.val))).setWidth 32) = adjEntry bi bj x0 x1 r l
  rw [hm]
  unfold adjEntry diagTerm
  rw [mul_ite, mul_one, mul_zero]

theorem k0_pay2_apply (i : grid0.Coords) (x0 x1 : Vec Ideal S1024x1024 .f32) (s : Vec Ideal S1024x1 .f32) (r : Fin 1024) :
    k0_pay2 (F := Ideal) i x0 x1 s (ix2 r (0 : Fin 1))
      = s (ix2 r (0 : Fin 1)) + ∑ l : Fin 1024, adjEntry (i 0).val (i 1).val x0 x1 r l := by
  have hi0 : (i 0).val < 8 := (i 0).isLt
  have hi1 : (i 1).val < 8 := (i 1).isLt
  unfold k0_pay2
  rw [shapeCast_self, addf_apply]
  refine congrArg (s (ix2 r (0 : Fin 1)) + ·) ?_
  refine (Cert.Lib.Rowwise.column_apply _ shapeCasts_S1024_S1024x1 r (0 : Fin 1)).trans ?_
  refine (Cert.Lib.Rowwise.laneSum_apply _ _ reduces_S1024x1024_S1024 _ _ r).trans ?_
  exact Finset.sum_congr rfl fun l _ => adjBlock_apply (i 0).val (i 1).val hi0 hi1 x0 x1 r l

theorem k1_pay3_apply (j : S1024x256.Idx) : k1_pay3 (F := Ideal) j = 0 := by
  unfold k1_pay3
  rw [shapeCast_self]
  exact Ideal.ofBits_zero_f32

theorem k1_pay1_apply (v : Vec Ideal S1024x256 .f32) (j : S1024x256.Idx) : k1_pay1 (F := Ideal) v j = v j := by
  unfold k1_pay1
  rw [shapeCast_self]

theorem k1_pay4_apply (i : grid1.Coords) (x0 x1 : Vec Ideal S1024x1024 .f32) (x2 : Vec Ideal S1024x1 .f32) (x3 : Vec Ideal S1x1024 .f32)
    (x4 : Vec Ideal S1024x256 .f32) (s : Vec Ideal S1024x256 .f32) (r : Fin 1024) (cc : Fin 256) :
    k1_pay4 (F := Ideal) i x0 x1 x2 x3 x4 s (ix2 r cc)
      = s (ix2 r cc) + ∑ l : Fin 1024, (x2 (ix2 r (0 : Fin 1)) * adjEntry (i 0).val (i 1).val x0 x1 r l * x3 (ix2 (0 : Fin 1) l)) * x4 (ix2 l cc) := by
  have hi0 : (i 0).val < 8 := (i 0).isLt
  have hi1 : (i 1).val < 8 := (i 1).isLt
  have hD : dot_S1024x1024_S1024x256_S1024x256_1_0_0_1_n_n = DotDims.plain 1024 1024 256 :=
    Cert.Lib.Rowwise.eq_plain _ rfl rfl rfl rfl rfl rfl
  unfold k1_pay4
  rw [addf_apply, hD]
  refine congrArg (s (ix2 r cc) + ·) ?_
  refine (Cert.Lib.Rowwise.plain_matmul_zero_apply none _ _ r cc).trans ?_
  refine Finset.sum_congr rfl fun l _ => ?_
  rw [truncf_apply, truncf_apply, mulf_apply, mulf_apply, shapeCast_self, shapeCast_self, shapeCast_self,
    Cert.Lib.Rowwise.columnBroadcast_apply _ _ (by decide) r l, broadcastTo_1b_ab_apply,
    adjBlock_apply (i 0).val (i 1).val hi0 hi1 x0 x1 r l]

theorem k1_pay2_apply (v43 : Vec Ideal S1024x256 .f32) (v44 : Vec Ideal S1x256 .f32) (r : Fin 1024) (cc : Fin 256) :
    k1_pay2 (F := Ideal) v43 v44 (ix2 r cc) = max (v43 (ix2 r cc) + v44 (ix2 (0 : Fin 1) cc)) 0 := by
  unfold k1_pay2
  rw [maximumf_apply, addf_apply, broadcast_apply, shapeCast_self, broadcastTo_1b_ab_apply]
  exact congrArg (max (v43 (ix2 r cc) + v44 (ix2 (0 : Fin 1) cc))) Ideal.ofBits_zero_f32

theorem k2_pay3_apply (j : S1024x128.Idx) : k2_pay3 (F := Ideal) j = 0 := by
  unfold k2_pay3
  rw [shapeCast_self]
  exact Ideal.ofBits_zero_f32

theorem k2_pay1_apply (v : Vec Ideal S1024x128 .f32) (j : S1024x128.Idx) : k2_pay1 (F := Ideal) v j = v j := by
  unfold k2_pay1
  rw [shapeCast_self]

theorem k2_pay4_apply (i : grid2.Coords) (x0 x1 : Vec Ideal S1024x1024 .f32) (x2 : Vec Ideal S1024x1 .f32) (x3 : Vec Ideal S1x1024 .f32)
    (x4 : Vec Ideal S1024x128 .f32) (s : Vec Ideal S1024x128 .f32) (r : Fin 1024) (cc : Fin 128) :
    k2_pay4 (F := Ideal) i x0 x1 x2 x3 x4 s (ix2 r cc)
      = s (ix2 r cc) + ∑ l : Fin 1024, (x2 (ix2 r (0 : Fin 1)) * adjEntry (i 0).val (i 1).val x0 x1 r l * x3 (ix2 (0 : Fin 1) l)) * x4 (ix2 l cc) := by
  have hi0 : (i 0).val < 8 := (i 0).isLt
  have hi1 : (i 1).val < 8 := (i 1).isLt
  have hD : dot_S1024x1024_S1024x128_S1024x128_1_0_0_1_n_n = DotDims.plain 1024 1024 128 :=
    Cert.Lib.Rowwise.eq_plain _ rfl rfl rfl rfl rfl rfl
  unfold k2_pay4
  rw [addf_apply, hD]
  refine congrArg (s (ix2 r cc) + ·) ?_
  refine (Cert.Lib.Rowwise.plain_matmul_zero_apply none _ _ r cc).trans ?_
  refine Finset.sum_congr rfl fun l _ => ?_
  rw [truncf_apply, truncf_apply, mulf_apply, mulf_apply, shapeCast_self, shapeCast_self, shapeCast_self,
    Cert.Lib.Rowwise.columnBroadcast_apply _ _ (by decide) r l, broadcastTo_1b_ab_apply,
    adjBlock_apply (i 0).val (i 1).val hi0 hi1 x0 x1 r l]

theorem k2_pay2_apply (v43 : Vec Ideal S1024x128 .f32) (v44 : Vec Ideal S1x128 .f32) (r : Fin 1024) (cc : Fin 128) :
    k2_pay2 (F := Ideal) v43 v44 (ix2 r cc) = v43 (ix2 r cc) + v44 (ix2 (0 : Fin 1) cc) := by
  unfold k2_pay2
  rw [addf_apply, shapeCast_self, broadcastTo_1b_ab_apply]

end Cert.KernelIdeal.PayloadValue

end
-- ==== Proof.RowSumValue.lean ====
import proofs.«171307_j71897752535776_1_alg».proof.Proof.RowSumData
import proofs.«171307_j71897752535776_1_alg».proof.Proof.PayloadValue
import proofs.«171307_j71897752535776_1_alg».proof.Proof.Spec
import Idealize.ShloMosaic.Lib.Pipeline.Value
import Idealize.ShloMosaic.Lib.ValueIdx

set_option maxRecDepth 16384

noncomputable section

open scoped BigOperators

namespace Cert.KernelIdeal.RowSum

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-! # What the row-sum region leaves in its output array

Row block bi's eight grid points add the eight column blocks' lane sums to the scratch column, which starts from zero at
the first; the last point stores the column, and that point's write-back puts it at rows bi*1024 ... bi*1024+1023 of the
8192 by 1 array. So entry p of the array is the sum over all 8192 columns of row p of the shifted adjacency. -/

variable (V : (c : Dev nD) → (b : Ref sig .tc) → Buf (Elt Ideal) ((c : Thread nD τ).loc b))

/-! ## Where a point sits and which blocks it reads

Point t of the walk is row block t / 8, column block t % 8. Both input windows read block (t / 8, t % 8) of their 8192 by 8192
arrays; the output window sits on block (t / 8, 0) of the 8192 by 1 array. -/

/-- The coordinates of point t. -/
theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The block indices of the three windows at point t. -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0 :=
  (by decide +kernel : ∀ t : Fin grid0.N, win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0)

/-- Entry (r, l) of the first input block at point t is entry (p, q) of the array, p = (t / 8) * 1024 + r, q = (t % 8) * 1024 + l. -/
theorem iblk0_apply (c : Dev nD) (t : Fin cfg0.N) (r l : Fin 1024) (p q : Fin 8192)
    (hp : p.val = t.val / 8 * 1024 + r.val) (hq : q.val = t.val % 8 * 1024 + l.val) :
    (iblk V c 0 t : Vec Ideal S1024x1024 .f32) (ix2 r l) = (V c main_arg0 : S8192x8192.Idx → EReal) (ix2 p q) := by
  obtain ⟨e0, e1, -, -, -, -⟩ := idx_facts t
  unfold iblk
  rw [View.read_apply]
  show V c main_arg0 (((cfg0.win 0).blk t).view.emb (ix2 r l)) = V c main_arg0 (ix2 p q)
  congr 1
  funext a
  apply Fin.ext
  match a with
  | ⟨0, _⟩ => show win0_0.index t (0 : Fin 2) * 1024 + 1 * r.val = p.val; omega
  | ⟨1, _⟩ => show win0_0.index t (1 : Fin 2) * 1024 + 1 * l.val = q.val; omega

/-- The same for the second input block. -/
theorem iblk1_apply (c : Dev nD) (t : Fin cfg0.N) (r l : Fin 1024) (p q : Fin 8192)
    (hp : p.val = t.val / 8 * 1024 + r.val) (hq : q.val = t.val % 8 * 1024 + l.val) :
    (iblk V c 1 t : Vec Ideal S1024x1024 .f32) (ix2 r l) = (V c main_arg1 : S8192x8192.Idx → EReal) (ix2 p q) := by
  obtain ⟨-, -, e0, e1, -, -⟩ := idx_facts t
  unfold iblk
  rw [View.read_apply]
  show V c main_arg1 (((cfg0.win 1).blk t).view.emb (ix2 r l)) = V c main_arg1 (ix2 p q)
  congr 1
  funext a
  apply Fin.ext
  match a with
  | ⟨0, _⟩ => show win0_1.index t (0 : Fin 2) * 1024 + 1 * r.val = p.val; omega
  | ⟨1, _⟩ => show win0_1.index t (1 : Fin 2) * 1024 + 1 * l.val = q.val; omega

/-! ## One step of the walk at a row

At point t the body adds, to row r of the scratch column (zero at a first column block), the sum over the 1024 columns of column
block t % 8 of row (t / 8) * 1024 + r of the shifted adjacency. -/

/-- An entry of the block of the shifted adjacency the body forms at point t is the shifted adjacency at the global row and column:
    the block-local test for the diagonal is the global one. -/
theorem adjEntry_iblk (c : Dev nD) (t : Fin cfg0.N) (r l : Fin 1024) (p q : Fin 8192)
    (hp : p.val = t.val / 8 * 1024 + r.val) (hq : q.val = t.val % 8 * 1024 + l.val) :
    PayloadValue.adjEntry (t.val / 8) (t.val % 8) (iblk V c 0 t) (iblk V c 1 t) r l = Spec.adj (V c main_arg0) (V c main_arg1) p q := by
  unfold PayloadValue.adjEntry PayloadValue.diagTerm Spec.adj
  rw [iblk0_apply V c t r l p q hp hq, iblk1_apply V c t r l p q hp hq]
  refine congrArg (_ + ·) (if_congr ?_ rfl rfl)
  rw [Fin.ext_iff]; omega

/-- The scratch column after the body at point t, at row r. -/
theorem accStep_apply (c : Dev nD) (t : Fin cfg0.N) (s : Vec Ideal S1024x1 .f32) (r : Fin 1024) (p : Fin 8192)
    (hp : p.val = t.val / 8 * 1024 + r.val) (h8 : t.val % 8 < 8) :
    accStep (grid0.coords t) (iblk V c 0 t) (iblk V c 1 t) s (ix2 r (0 : Fin 1))
      = (if t.val % 8 = 0 then 0 else s (ix2 r (0 : Fin 1)))
        + ∑ l : Fin 1024, Spec.adj (V c main_arg0) (V c main_arg1) p (col ⟨t.val % 8, h8⟩ l) := by
  obtain ⟨g0, g1⟩ := coords_facts t
  unfold accStep
  rw [PayloadValue.k0_pay2_apply]
  congr 1
  · by_cases h : t.val % 8 = 0
    · rw [if_pos h, if_pos ((isFirst_iff t).mpr h), PayloadValue.k0_pay1_apply]
    · rw [if_neg h, if_neg fun hh => h ((isFirst_iff t).mp hh)]
  · refine Finset.sum_congr rfl fun l _ => ?_
    rw [g0, g1]
    exact adjEntry_iblk V c t r l p _ hp rfl

/-- The running total takes one more column block: from zero at the first, else from the total of the blocks before. -/
theorem partialSum_step (f : Fin 8192 → EReal) (k : ℕ) (h8 : k < 8) (s0 : EReal) (hs : k ≠ 0 → s0 = partialSum f k) :
    (if k = 0 then 0 else s0) + ∑ l : Fin 1024, f (col ⟨k, h8⟩ l) = partialSum f (k + 1) := by
  rw [partialSum_succ f k h8]
  congr 1
  by_cases h : k = 0
  · rw [if_pos h, h, partialSum_zero]
  · rw [if_neg h, hs h]

/-! ## The running sums

After position n of the walk, row r of the scratch column is the total, over the first n % 8 + 1 column blocks, of row
(n / 8) * 1024 + r of the shifted adjacency. -/

theorem accAt_apply (c : Dev nD) : ∀ (n : ℕ) (hn : n < cfg0.N) (r : Fin 1024) (p : Fin 8192), p.val = n / 8 * 1024 + r.val →
    accAt V c n hn (ix2 r (0 : Fin 1)) = partialSum (Spec.adj (V c main_arg0) (V c main_arg1) p) (n % 8 + 1)
  | 0, hn, r, p, hp => by
    refine (accStep_apply V c ⟨0, hn⟩ _ r p hp (Nat.mod_lt _ (by decide))).trans ?_
    exact partialSum_step _ 0 (by decide) _ fun h => absurd rfl h
  | n + 1, hn, r, p, hp => by
    have h8 : (n + 1) % 8 < 8 := Nat.mod_lt _ (by decide)
    refine (accStep_apply V c ⟨n + 1, hn⟩ (accAt V c n (Nat.lt_of_succ_lt hn)) r p hp h8).trans ?_
    refine partialSum_step _ ((n + 1) % 8) h8 _ fun h => ?_
    rw [accAt_apply c n (Nat.lt_of_succ_lt hn) r p (by omega), show n % 8 + 1 = (n + 1) % 8 from by omega]

/-! ## From the blocks to the array

The output window is written back at the last column block of each row block, with the scratch column: the whole row sums of the
1024 rows of that row block. Those eight blocks tile the 8192 by 1 array. -/

/-- The degrees as an 8192 by 1 array. -/
def degArr (A S : Mat 8192 8192) : Mat 8192 1 := fun i => Spec.deg A S (i 0)

/-- At a last column block the scratch column holds the whole row sums: entry y of it is the degree of row (t / 8) * 1024 + y. -/
theorem accAt_last (c : Dev nD) (t : Fin cfg0.N) (h7 : t.val % 8 = 7) (y : S1024x1.Idx) (i : S8192x1.Idx)
    (hi : (i 0).val = t.val / 8 * 1024 + (y 0).val) :
    accAt V c t.val t.isLt y = degArr (V c main_arg0) (V c main_arg1) i := by
  obtain ⟨r, q, rfl⟩ : ∃ (r : Fin 1024) (q : Fin 1), y = ix2 r q := ⟨y 0, y 1, eq_ix2 y⟩
  obtain rfl : q = 0 := Subsingleton.elim _ _
  rw [accAt_apply V c t.val t.isLt r (i 0) hi, h7]
  unfold degArr Spec.deg
  exact partialSum_all _

/-- What a point that writes back writes is its block of the degrees. -/
theorem flushed_eq (c : Dev nD) (t : Fin cfg0.N) (hf : (cfg0.win 2).flush t = true) :
    (dat (F := Ideal) V c).flushed 2 t = ((cfg0.win 2).blk t).view.read (Elt Ideal) (degArr (V c main_arg0) (V c main_arg1)) := by
  have h7 : t.val % 8 = 7 := (flush0_2 t).mp hf
  obtain ⟨-, -, -, -, e4, e5⟩ := idx_facts t
  show (cfg0.win 2).cut (grid0.coords t) ((dat (F := Ideal) V c).after 2 t) = _
  rw [after_2]
  funext y
  rw [View.read_apply]
  show accAt V c t.val t.isLt ((cfg0.win 2).xinj (grid0.coords t) y) = degArr (V c main_arg0) (V c main_arg1) (((cfg0.win 2).blk t).view.emb y)
  refine accAt_last V c t h7 _ _ ?_
  show win0_2.index t (0 : Fin 2) * 1024 + 1 * (y 0).val = t.val / 8 * 1024 + (y 0).val
  omega

/-- Every row of the array lies in the block that the last point of its row block writes back. -/
theorem cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : grid0.N = 64 := N_0
  obtain ⟨t, ht⟩ : ∃ t : Fin cfg0.N, t.val = (i 0).val / 1024 * 8 + 7 :=
    ⟨⟨(i 0).val / 1024 * 8 + 7, by show _ < grid0.N; rw [hN]; omega⟩, rfl⟩
  obtain ⟨-, -, -, -, e4, e5⟩ := idx_facts t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1 ≤ (i 1).val ∧ (i 1).val < win0_2.index t (1 : Fin 2) * 1 + 1
    omega

/-- After the run the output array holds every node's degree: with A and S the two input arrays as the region finds them
    and res the output array after the run. -/
theorem arr_final (c : Dev nD) (A S : Mat 8192 8192) (hA : V c main_arg0 = A) (hS : V c main_arg1 = S)
    (res : Mat 8192 1) (hres : (dat (F := Ideal) V c).arrAt 2 cfg0.N = res) (p : Fin 8192) :
    res (ix2 p (0 : Fin 1)) = Spec.deg A S p := by
  subst hA hS hres
  rw [(dat (F := Ideal) V c).arrAt_eq_of_cover 2 (degArr (V c main_arg0) (V c main_arg1)) (flushed_eq V c) cover]
  rfl

end Cert.KernelIdeal.RowSum

end
-- ==== Proof.Layer1Value.lean ====
import proofs.«171307_j71897752535776_1_alg».proof.Proof.Layer1Data
import proofs.«171307_j71897752535776_1_alg».proof.Proof.PayloadValue
import proofs.«171307_j71897752535776_1_alg».proof.Proof.Spec
import Idealize.ShloMosaic.Lib.Pipeline.Value
import Idealize.ShloMosaic.Lib.ValueIdx

set_option maxRecDepth 16384

noncomputable section

open scoped BigOperators

namespace Cert.KernelIdeal.Layer1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-! # What the layer-1 region leaves in its output array

Row block bi's eight grid points add, column block by column block, the products of the normalised adjacency's block with
the right factor's rows to the scratch block, which starts from zero at the first; the last point stores the scratch plus the
bias row, clamped below at zero, and that point's write-back puts it at rows bi*1024 ... bi*1024+1023 of the output array. So
entry (p, cc) is the sum over all 8192 columns k of scale(p) adj(p, k) scale(k) times the factor's entry (k, cc), plus the
bias, clamped at zero. -/

variable (V : (c : Dev nD) → (b : Ref sig .tc) → Buf (Elt Ideal) ((c : Thread nD τ).loc b))

/-! ## Where each block sits

Point t of the walk is row block t / 8, column block t % 8. The blocks of A and S are at (t / 8, t % 8); the scale column
at row block t / 8; the scale row at column block t % 8; the right factor at row block t % 8; the bias row is its whole
array; the output at row block t / 8. -/

theorem idx_facts : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val % 8 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0
    ∧ (grid1.coords t 0).val = t.val / 8 ∧ (grid1.coords t 1).val = t.val % 8 :=
  (by decide +kernel : ∀ t : Fin grid1.N, _)

/-! ## Each input block read at a local index is its array at the global index

A coordinate of a block element in the array is the block index times the block size plus the coordinate inside the block. -/

theorem blk0_apply (c : Dev nD) (t : Fin cfg1.N) (r l : Fin 1024) (p q : Fin 8192)
    (hp : p.val = t.val / 8 * 1024 + r.val) (hq : q.val = t.val % 8 * 1024 + l.val) (A : Mat 8192 8192) (hA : V c main_arg0 = A) :
    (iblk V c 0 t : Vec Ideal S1024x1024 .f32) (ix2 r l) = A (ix2 p q) := by
  obtain rfl := hA
  obtain ⟨e0, e1, -⟩ := idx_facts t
  unfold iblk
  rw [View.read_apply]
  show V c main_arg0 (((cfg1.win 0).blk t).view.emb (ix2 r l)) = V c main_arg0 (ix2 p q)
  congr 1
  funext a
  apply Fin.ext
  match a with
  | ⟨0, _⟩ => show win1_0.index t 0 * 1024 + 1 * r.val = p.val; rw [e0, hp]; omega
  | ⟨1, _⟩ => show win1_0.index t 1 * 1024 + 1 * l.val = q.val; rw [e1, hq]; omega

theorem blk1_apply (c : Dev nD) (t : Fin cfg1.N) (r l : Fin 1024) (p q : Fin 8192)
    (hp : p.val = t.val / 8 * 1024 + r.val) (hq : q.val = t.val % 8 * 1024 + l.val) (S : Mat 8192 8192) (hS : V c main_arg1 = S) :
    (iblk V c 1 t : Vec Ideal S1024x1024 .f32) (ix2 r l) = S (ix2 p q) := by
  obtain rfl := hS
  obtain ⟨-, -, e0, e1, -⟩ := idx_facts t
  unfold iblk
  rw [View.read_apply]
  show V c main_arg1 (((cfg1.win 1).blk t).view.emb (ix2 r l)) = V c main_arg1 (ix2 p q)
  congr 1
  funext a
  apply Fin.ext
  match a with
  | ⟨0, _⟩ => show win1_1.index t 0 * 1024 + 1 * r.val = p.val; rw [e0, hp]; omega
  | ⟨1, _⟩ => show win1_1.index t 1 * 1024 + 1 * l.val = q.val; rw [e1, hq]; omega

theorem blk2_apply (c : Dev nD) (t : Fin cfg1.N) (r : Fin 1024) (p : Fin 8192)
    (hp : p.val = t.val / 8 * 1024 + r.val) (sc : Mat 8192 1) (hsc : V c main_v6 = sc) :
    (iblk V c 2 t : Vec Ideal S1024x1 .f32) (ix2 r (0 : Fin 1)) = sc (ix2 p (0 : Fin 1)) := by
  obtain rfl := hsc
  obtain ⟨-, -, -, -, e0, e1, -⟩ := idx_facts t
  unfold iblk
  rw [View.read_apply]
  show V c main_v6 (((cfg1.win 2).blk t).view.emb (ix2 r (0 : Fin 1))) = V c main_v6 (ix2 p (0 : Fin 1))
  congr 1
  funext a
  apply Fin.ext
  match a with
  | ⟨0, _⟩ => show win1_2.index t 0 * 1024 + 1 * r.val = p.val; rw [e0, hp]; omega
  | ⟨1, _⟩ => show win1_2.index t 1 * 1 + 1 * (0 : Fin 1).val = (0 : Fin 1).val; rw [e1]; omega

theorem blk3_apply (c : Dev nD) (t : Fin cfg1.N) (l : Fin 1024) (q : Fin 8192)
    (hq : q.val = t.val % 8 * 1024 + l.val) (sr : Mat 1 8192) (hsr : V c main_v7 = sr) :
    (iblk V c 3 t : Vec Ideal S1x1024 .f32) (ix2 (0 : Fin 1) l) = sr (ix2 (0 : Fin 1) q) := by
  obtain rfl := hsr
  obtain ⟨-, -, -, -, -, -, e0, e1, -⟩ := idx_facts t
  unfold iblk
  rw [View.read_apply]
  show V c main_v7 (((cfg1.win 3).blk t).view.emb (ix2 (0 : Fin 1) l)) = V c main_v7 (ix2 (0 : Fin 1) q)
  congr 1
  funext a
  apply Fin.ext
  match a with
  | ⟨0, _⟩ => show win1_3.index t 0 * 1 + 1 * (0 : Fin 1).val = (0 : Fin 1).val; rw [e0]; omega
  | ⟨1, _⟩ => show win1_3.index t 1 * 1024 + 1 * l.val = q.val; rw [e1, hq]; omega

theorem blk4_apply (c : Dev nD) (t : Fin cfg1.N) (l : Fin 1024) (cc : Fin 256) (q : Fin 8192)
    (hq : q.val = t.val % 8 * 1024 + l.val) (B : Mat 8192 256) (hB : V c main_v8 = B) :
    (iblk V c 4 t : Vec Ideal S1024x256 .f32) (ix2 l cc) = B (ix2 q cc) := by
  obtain rfl := hB
  obtain ⟨-, -, -, -, -, -, -, -, e0, e1, -⟩ := idx_facts t
  unfold iblk
  rw [View.read_apply]
  show V c main_v8 (((cfg1.win 4).blk t).view.emb (ix2 l cc)) = V c main_v8 (ix2 q cc)
  congr 1
  funext a
  apply Fin.ext
  match a with
  | ⟨0, _⟩ => show win1_4.index t 0 * 1024 + 1 * l.val = q.val; rw [e0, hq]; omega
  | ⟨1, _⟩ => show win1_4.index t 1 * 256 + 1 * cc.val = cc.val; rw [e1]; omega

theorem blk5_apply (c : Dev nD) (t : Fin cfg1.N) (cc : Fin 256) (bias : Mat 1 256) (hbias : V c main_v9 = bias) :
    (iblk V c 5 t : Vec Ideal S1x256 .f32) (ix2 (0 : Fin 1) cc) = bias (ix2 (0 : Fin 1) cc) := by
  obtain rfl := hbias
  obtain ⟨-, -, -, -, -, -, -, -, -, -, e0, e1, -⟩ := idx_facts t
  unfold iblk
  rw [View.read_apply]
  show V c main_v9 (((cfg1.win 5).blk t).view.emb (ix2 (0 : Fin 1) cc)) = V c main_v9 (ix2 (0 : Fin 1) cc)
  congr 1
  funext a
  apply Fin.ext
  match a with
  | ⟨0, _⟩ => show win1_5.index t 0 * 1 + 1 * (0 : Fin 1).val = (0 : Fin 1).val; rw [e0]; omega
  | ⟨1, _⟩ => show win1_5.index t 1 * 256 + 1 * cc.val = cc.val; rw [e1]; omega
/-! ## The running sums

Row p of the result, at output column cc, is a sum over the global column q of one term; the walk adds these terms one
column block at a time. -/

/-- The term of row p and output column cc at the global column q. -/
def rowTerm (A S : Mat 8192 8192) (sc : Mat 8192 1) (sr : Mat 1 8192) (B : Mat 8192 256) (p : Fin 8192) (cc : Fin 256) (q : Fin 8192) : EReal :=
  (sc (ix2 p (0 : Fin 1)) * Spec.adj A S p q * sr (ix2 (0 : Fin 1) q)) * B (ix2 q cc)

/-- One more column block: the running total after m + 1 blocks is the total after m blocks plus block m. -/
theorem partialSum_step (f : Fin 8192 → EReal) (m : ℕ) (jb : Fin 8) (hm : jb.val = m) :
    Spec.partialSum f (m + 1) = Spec.partialSum f m + ∑ l : Fin 1024, f (Spec.col jb l) := by
  subst hm
  exact Spec.partialSum_succ f jb.val jb.isLt

/-- The scratch after one call of the body, at one element: zero or the earlier value, plus the block row times the factor column. -/
theorem accStep_apply (i : grid1.Coords) (x0 x1 : Vec Ideal S1024x1024 .f32) (x2 : Vec Ideal S1024x1 .f32) (x3 : Vec Ideal S1x1024 .f32)
    (x4 : Vec Ideal S1024x256 .f32) (s : Vec Ideal S1024x256 .f32) (r : Fin 1024) (cc : Fin 256) :
    accStep (F := Ideal) i x0 x1 x2 x3 x4 s (ix2 r cc)
      = (if isFirst i then 0 else s (ix2 r cc))
        + ∑ l : Fin 1024, (x2 (ix2 r (0 : Fin 1)) * PayloadValue.adjEntry (i 0).val (i 1).val x0 x1 r l * x3 (ix2 (0 : Fin 1) l)) * x4 (ix2 l cc) := by
  unfold accStep
  rw [PayloadValue.k1_pay1_apply, PayloadValue.k1_pay4_apply]
  by_cases h : isFirst i
  · rw [if_pos h, if_pos h, PayloadValue.k1_pay3_apply]
  · rw [if_neg h, if_neg h]

/-- An entry of a block of the shifted adjacency is the entry of the shifted adjacency at the global row and column. -/
theorem adjEntry_eq (c : Dev nD) (t : Fin cfg1.N) (r l : Fin 1024) (p q : Fin 8192)
    (hp : p.val = t.val / 8 * 1024 + r.val) (hq : q.val = t.val % 8 * 1024 + l.val)
    (A S : Mat 8192 8192) (hA : V c main_arg0 = A) (hS : V c main_arg1 = S) :
    PayloadValue.adjEntry (t.val / 8) (t.val % 8) (iblk V c 0 t) (iblk V c 1 t) r l = Spec.adj A S p q := by
  unfold PayloadValue.adjEntry PayloadValue.diagTerm Spec.adj
  rw [blk0_apply V c t r l p q hp hq A hA, blk1_apply V c t r l p q hp hq S hS]
  congr 1
  exact if_congr (by rw [Fin.ext_iff, hp, hq]) rfl rfl

/-- One step of the walk at one element of the scratch: at a first column block it starts from zero; it adds the terms of the
    point's column block. -/
theorem step_apply (c : Dev nD) (t : Fin cfg1.N) (s : Vec Ideal S1024x256 .f32) (r : Fin 1024) (cc : Fin 256) (p : Fin 8192)
    (hp : p.val = t.val / 8 * 1024 + r.val) (jb : Fin 8) (hjb : jb.val = t.val % 8)
    (A S : Mat 8192 8192) (sc : Mat 8192 1) (sr : Mat 1 8192) (B : Mat 8192 256)
    (hA : V c main_arg0 = A) (hS : V c main_arg1 = S) (hsc : V c main_v6 = sc) (hsr : V c main_v7 = sr) (hB : V c main_v8 = B) :
    accStep (grid1.coords t) (iblk V c 0 t) (iblk V c 1 t) (iblk V c 2 t) (iblk V c 3 t) (iblk V c 4 t) s (ix2 r cc)
      = (if t.val % 8 = 0 then 0 else s (ix2 r cc)) + ∑ l : Fin 1024, rowTerm A S sc sr B p cc (Spec.col jb l) := by
  obtain ⟨-, -, -, -, -, -, -, -, -, -, -, -, -, -, g0, g1⟩ := idx_facts t
  rw [accStep_apply]
  congr 1
  · exact if_congr (isFirst_iff t) rfl rfl
  · rw [g0, g1]
    refine Finset.sum_congr rfl fun l _ => ?_
    have hq : (Spec.col jb l).val = t.val % 8 * 1024 + l.val := by
      show jb.val * 1024 + l.val = _
      rw [hjb]
    unfold rowTerm
    rw [adjEntry_eq V c t r l p (Spec.col jb l) hp hq A S hA hS, blk2_apply V c t r p hp sc hsc,
      blk3_apply V c t l (Spec.col jb l) hq sr hsr, blk4_apply V c t l cc (Spec.col jb l) hq B hB]

/-- The scratch after position n of the walk, at row r of row block n / 8: the row's terms summed over the column blocks
    0 … n % 8. -/
theorem accAt_apply (c : Dev nD) (A S : Mat 8192 8192) (sc : Mat 8192 1) (sr : Mat 1 8192) (B : Mat 8192 256)
    (hA : V c main_arg0 = A) (hS : V c main_arg1 = S) (hsc : V c main_v6 = sc) (hsr : V c main_v7 = sr) (hB : V c main_v8 = B) :
    ∀ (n : ℕ) (hn : n < cfg1.N) (r : Fin 1024) (cc : Fin 256) (p : Fin 8192), p.val = n / 8 * 1024 + r.val →
      accAt V c n hn (ix2 r cc) = Spec.partialSum (rowTerm A S sc sr B p cc) (n % 8 + 1)
  | 0, hn, r, cc, p, hp => by
    show accStep (grid1.coords ⟨0, hn⟩) (iblk V c 0 ⟨0, hn⟩) (iblk V c 1 ⟨0, hn⟩) (iblk V c 2 ⟨0, hn⟩) (iblk V c 3 ⟨0, hn⟩)
      (iblk V c 4 ⟨0, hn⟩) (k1_pay3 (F := Ideal)) (ix2 r cc) = _
    rw [step_apply V c ⟨0, hn⟩ _ r cc p hp (0 : Fin 8) rfl A S sc sr B hA hS hsc hsr hB,
      if_pos (show (⟨0, hn⟩ : Fin cfg1.N).val % 8 = 0 from rfl), zero_add]
    show _ = Spec.partialSum (rowTerm A S sc sr B p cc) (0 + 1)
    rw [partialSum_step _ 0 (0 : Fin 8) rfl, Spec.partialSum_zero, zero_add]
  | n + 1, hn, r, cc, p, hp => by
    have hN : cfg1.N = 64 := rfl
    show accStep (grid1.coords ⟨n + 1, hn⟩) (iblk V c 0 ⟨n + 1, hn⟩) (iblk V c 1 ⟨n + 1, hn⟩) (iblk V c 2 ⟨n + 1, hn⟩) (iblk V c 3 ⟨n + 1, hn⟩)
      (iblk V c 4 ⟨n + 1, hn⟩) (accAt V c n (Nat.lt_of_succ_lt hn)) (ix2 r cc) = _
    have hjb : (n + 1) % 8 < 8 := Nat.mod_lt _ (by omega)
    by_cases h0 : (n + 1) % 8 = 0
    · rw [step_apply V c ⟨n + 1, hn⟩ _ r cc p hp (0 : Fin 8) h0.symm A S sc sr B hA hS hsc hsr hB,
        if_pos (show (⟨n + 1, hn⟩ : Fin cfg1.N).val % 8 = 0 from h0), zero_add, h0]
      show _ = Spec.partialSum (rowTerm A S sc sr B p cc) (0 + 1)
      rw [partialSum_step _ 0 (0 : Fin 8) rfl, Spec.partialSum_zero, zero_add]
    · have hp' : p.val = n / 8 * 1024 + r.val := by
        have : (n + 1) / 8 = n / 8 := by omega
        rw [← this]; exact hp
      have hm : n % 8 + 1 = (n + 1) % 8 := by omega
      rw [step_apply V c ⟨n + 1, hn⟩ _ r cc p hp ⟨(n + 1) % 8, hjb⟩ rfl A S sc sr B hA hS hsc hsr hB,
        if_neg (show ¬ (⟨n + 1, hn⟩ : Fin cfg1.N).val % 8 = 0 from h0),
        accAt_apply c A S sc sr B hA hS hsc hsr hB n (Nat.lt_of_succ_lt hn) r cc p hp', hm,
        partialSum_step _ ((n + 1) % 8) ⟨(n + 1) % 8, hjb⟩ rfl]

/-! ## From the blocks to the array

At a last column block the scratch holds the whole row's sum; the body stores it plus the bias, clamped at zero, and the
write-back puts that block at rows (t / 8) * 1024 … of the output. Row p is written by the point (p / 1024) * 8 + 7. -/

/-- The layer's value as one function of the output index. -/
def layerVal (A S : Mat 8192 8192) (sc : Mat 8192 1) (sr : Mat 1 8192) (B : Mat 8192 256) (bias : Mat 1 256) : Mat 8192 256 :=
  fun i => max ((∑ k : Fin 8192, rowTerm A S sc sr B (i 0) (i 1) k) + bias (ix2 (0 : Fin 1) (i 1))) 0

/-- What the body stores at a last column block, at one element. -/
theorem outAt_apply (c : Dev nD) (t : Fin cfg1.N) (ht : t.val % 8 = 7) (r : Fin 1024) (cc : Fin 256) (p : Fin 8192)
    (hp : p.val = t.val / 8 * 1024 + r.val)
    (A S : Mat 8192 8192) (sc : Mat 8192 1) (sr : Mat 1 8192) (B : Mat 8192 256) (bias : Mat 1 256)
    (hA : V c main_arg0 = A) (hS : V c main_arg1 = S) (hsc : V c main_v6 = sc) (hsr : V c main_v7 = sr)
    (hB : V c main_v8 = B) (hbias : V c main_v9 = bias) :
    outAt V c t (ix2 r cc) = max ((∑ k : Fin 8192, rowTerm A S sc sr B p cc k) + bias (ix2 (0 : Fin 1) cc)) 0 := by
  unfold outAt
  rw [PayloadValue.k1_pay2_apply, accAt_apply V c A S sc sr B hA hS hsc hsr hB t.val t.isLt r cc p hp,
    blk5_apply V c t cc bias hbias, ht]
  show max (Spec.partialSum (rowTerm A S sc sr B p cc) 8 + _) 0 = _
  rw [Spec.partialSum_all]

/-- The same at a block index y and the array index i it lands on. -/
theorem outAt_apply_idx (c : Dev nD) (t : Fin cfg1.N) (ht : t.val % 8 = 7) (y : S1024x256.Idx) (i : S8192x256.Idx)
    (h0 : (i 0).val = t.val / 8 * 1024 + (y 0).val) (h1 : (i 1).val = (y 1).val)
    (A S : Mat 8192 8192) (sc : Mat 8192 1) (sr : Mat 1 8192) (B : Mat 8192 256) (bias : Mat 1 256)
    (hA : V c main_arg0 = A) (hS : V c main_arg1 = S) (hsc : V c main_v6 = sc) (hsr : V c main_v7 = sr)
    (hB : V c main_v8 = B) (hbias : V c main_v9 = bias) :
    outAt V c t y = layerVal A S sc sr B bias i := by
  obtain ⟨r, cc, rfl⟩ : ∃ (r : Fin 1024) (cc : Fin 256), y = ix2 r cc := ⟨y 0, y 1, eq_ix2 y⟩
  obtain ⟨p, cc', rfl⟩ : ∃ (p : Fin 8192) (cc' : Fin 256), i = ix2 p cc' := ⟨i 0, i 1, eq_ix2 i⟩
  obtain rfl : cc' = cc := Fin.ext h1
  exact outAt_apply V c t ht r cc' p h0 A S sc sr B bias hA hS hsc hsr hB hbias

/-- What a point that writes back writes is its block of the layer's value. -/
theorem flushed_eq (c : Dev nD)
    (A S : Mat 8192 8192) (sc : Mat 8192 1) (sr : Mat 1 8192) (B : Mat 8192 256) (bias : Mat 1 256)
    (hA : V c main_arg0 = A) (hS : V c main_arg1 = S) (hsc : V c main_v6 = sc) (hsr : V c main_v7 = sr)
    (hB : V c main_v8 = B) (hbias : V c main_v9 = bias) (t : Fin cfg1.N) (hf : (cfg1.win 6).flush t = true) :
    (dat (F := Ideal) V c).flushed 6 t = ((cfg1.win 6).blk t).view.read (Elt Ideal) (layerVal A S sc sr B bias) := by
  have ht : t.val % 8 = 7 := (flush1_6 t).mp hf
  obtain ⟨-, -, -, -, -, -, -, -, -, -, -, -, e0, e1, -⟩ := idx_facts t
  show (cfg1.win 6).cut (grid1.coords t) ((dat V c).after 6 t) = _
  rw [after_6]
  funext y
  rw [View.read_apply]
  show outAt V c t y = layerVal A S sc sr B bias (((cfg1.win 6).blk t).view.emb y)
  refine outAt_apply_idx V c t ht y _ ?_ ?_ A S sc sr B bias hA hS hsc hsr hB hbias
  · show win1_6.index t 0 * 1024 + 1 * (y 0).val = t.val / 8 * 1024 + (y 0).val
    rw [e0]; omega
  · show win1_6.index t 1 * 256 + 1 * (y 1).val = (y 1).val
    rw [e1]; omega

/-- Every index of the output array lies in the block of a point that writes back. -/
theorem cover (i : S8192x256.Idx) : ∃ t : Fin cfg1.N, (cfg1.win 6).flush t = true ∧ i ∈ ((cfg1.win 6).blk t).view.set := by
  have hi0 : (i 0).val < 8192 := (i 0).isLt
  have hi1 : (i 1).val < 256 := (i 1).isLt
  obtain ⟨t, ht⟩ : ∃ t : Fin cfg1.N, t.val = (i 0).val / 1024 * 8 + 7 := ⟨⟨(i 0).val / 1024 * 8 + 7, by show _ < 64; omega⟩, rfl⟩
  obtain ⟨-, -, -, -, -, -, -, -, -, -, -, -, e0, e1, -⟩ := idx_facts t
  refine ⟨t, (flush1_6 t).mpr (by omega), ?_⟩
  show i ∈ ((View.whole main_v10).slice (win1_6.rect t)).set
  rw [View.set_slice_whole, Rect.mem_set_unit]
  intro a
  match a with
  | ⟨0, _⟩ =>
    show win1_6.index t 0 * 1024 ≤ (i 0).val ∧ (i 0).val < win1_6.index t 0 * 1024 + 1024
    rw [e0]; omega
  | ⟨1, _⟩ =>
    show win1_6.index t 1 * 256 ≤ (i 1).val ∧ (i 1).val < win1_6.index t 1 * 256 + 256
    rw [e1]; omega

/-- The output array after the run is the layer's value. -/
theorem arr_eq (c : Dev nD)
    (A S : Mat 8192 8192) (sc : Mat 8192 1) (sr : Mat 1 8192) (B : Mat 8192 256) (bias : Mat 1 256)
    (hA : V c main_arg0 = A) (hS : V c main_arg1 = S) (hsc : V c main_v6 = sc) (hsr : V c main_v7 = sr)
    (hB : V c main_v8 = B) (hbias : V c main_v9 = bias) :
    (dat (F := Ideal) V c).arrAt 6 cfg1.N = layerVal A S sc sr B bias :=
  (dat (F := Ideal) V c).arrAt_eq_of_cover 6 (layerVal A S sc sr B bias)
    (flushed_eq V c A S sc sr B bias hA hS hsc hsr hB hbias) cover
/-- After the run the output array holds the layer's value: with A, S, sc (the scales as a column), sr (the scales as a
    row), B (the right factor) and bias the six input arrays as the region finds them, and res the output array after the run. -/
theorem arr_final (c : Dev nD) (A S : Mat 8192 8192) (sc : Mat 8192 1) (sr : Mat 1 8192) (B : Mat 8192 256) (bias : Mat 1 256)
    (hA : V c main_arg0 = A) (hS : V c main_arg1 = S) (hsc : V c main_v6 = sc) (hsr : V c main_v7 = sr)
    (hB : V c main_v8 = B) (hbias : V c main_v9 = bias)
    (res : Mat 8192 256) (hres : (dat (F := Ideal) V c).arrAt 6 cfg1.N = res) (p : Fin 8192) (cc : Fin 256) :
    res (ix2 p cc)
      = max ((∑ k : Fin 8192, (sc (ix2 p (0 : Fin 1)) * Spec.adj A S p k * sr (ix2 (0 : Fin 1) k)) * B (ix2 k cc))
          + bias (ix2 (0 : Fin 1) cc)) 0 := by
  have h := congrFun (arr_eq V c A S sc sr B bias hA hS hsc hsr hB hbias) (ix2 p cc)
  rw [hres] at h
  exact h

end Cert.KernelIdeal.Layer1

end
-- ==== Proof.Layer2Value.lean ====
import proofs.«171307_j71897752535776_1_alg».proof.Proof.Layer2Data
import proofs.«171307_j71897752535776_1_alg».proof.Proof.PayloadValue
import proofs.«171307_j71897752535776_1_alg».proof.Proof.Spec
import Idealize.ShloMosaic.Lib.Pipeline.Value
import Idealize.ShloMosaic.Lib.ValueIdx

set_option maxRecDepth 16384

noncomputable section

open scoped BigOperators

namespace Cert.KernelIdeal.Layer2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-! # What the layer-2 region leaves in its output array

Row block bi's eight grid points add, column block by column block, the products of the normalised adjacency's block with
the right factor's rows to the scratch block, which starts from zero at the first; the last point stores the scratch plus the
bias row, and that point's write-back puts it at rows bi*1024 ... bi*1024+1023 of the output array. So
entry (p, cc) is the sum over all 8192 columns k of scale(p) adj(p, k) scale(k) times the factor's entry (k, cc), plus the
bias. -/

variable (V : (c : Dev nD) → (b : Ref sig .tc) → Buf (Elt Ideal) ((c : Thread nD τ).loc b))

/-! ## Where a block sits in its array

Point t of the walk is row block t / 8 and column block t % 8. The blocks of A and S at t are (t / 8, t % 8); the scale column's is
row block t / 8; the scale row's is column block t % 8; the right factor's is row block t % 8; the bias has one block; the
output's is row block t / 8. -/

/-- The point's coordinates and the printed index maps, decided once over the grid. -/
theorem blockPositions : ∀ t : Fin cfg2.N,
    ((grid2.coords t 0).val = t.val / 8 ∧ (grid2.coords t 1).val = t.val % 8)
    ∧ (win2_0.index t (0 : Fin 2) = t.val / 8 ∧ win2_0.index t (1 : Fin 2) = t.val % 8)
    ∧ (win2_1.index t (0 : Fin 2) = t.val / 8 ∧ win2_1.index t (1 : Fin 2) = t.val % 8)
    ∧ (win2_2.index t (0 : Fin 2) = t.val / 8 ∧ win2_2.index t (1 : Fin 2) = 0)
    ∧ (win2_3.index t (0 : Fin 2) = 0 ∧ win2_3.index t (1 : Fin 2) = t.val % 8)
    ∧ (win2_4.index t (0 : Fin 2) = t.val % 8 ∧ win2_4.index t (1 : Fin 2) = 0)
    ∧ (win2_5.index t (0 : Fin 2) = 0 ∧ win2_5.index t (1 : Fin 2) = 0)
    ∧ (win2_6.index t (0 : Fin 2) = t.val / 8 ∧ win2_6.index t (1 : Fin 2) = 0) :=
  (by decide +kernel : ∀ t : Fin grid2.N, _)

/-- The block of A at a point, read at (r, l), is A at (row block * 1024 + r, column block * 1024 + l). -/
theorem blkA_apply (c : Dev nD) (t : Fin cfg2.N) (r l : Fin 1024) (p q : Fin 8192)
    (hp : p.val = t.val / 8 * 1024 + r.val) (hq : q.val = t.val % 8 * 1024 + l.val) :
    (iblk V c 0 t : Vec Ideal S1024x1024 .f32) (ix2 r l) = (V c main_arg0 : Mat 8192 8192) (ix2 p q) := by
  obtain ⟨-, ⟨e0, e1⟩, -⟩ := blockPositions t
  unfold iblk
  rw [View.read_apply]
  show V c main_arg0 _ = V c main_arg0 _
  congr 1
  funext a
  apply Fin.ext
  match a with
  | ⟨0, _⟩ => show win2_0.index t (0 : Fin 2) * 1024 + 1 * r.val = p.val; rw [e0, hp]; omega
  | ⟨1, _⟩ => show win2_0.index t (1 : Fin 2) * 1024 + 1 * l.val = q.val; rw [e1, hq]; omega

/-- The block of S at a point, likewise. -/
theorem blkS_apply (c : Dev nD) (t : Fin cfg2.N) (r l : Fin 1024) (p q : Fin 8192)
    (hp : p.val = t.val / 8 * 1024 + r.val) (hq : q.val = t.val % 8 * 1024 + l.val) :
    (iblk V c 1 t : Vec Ideal S1024x1024 .f32) (ix2 r l) = (V c main_arg1 : Mat 8192 8192) (ix2 p q) := by
  obtain ⟨-, -, ⟨e0, e1⟩, -⟩ := blockPositions t
  unfold iblk
  rw [View.read_apply]
  show V c main_arg1 _ = V c main_arg1 _
  congr 1
  funext a
  apply Fin.ext
  match a with
  | ⟨0, _⟩ => show win2_1.index t (0 : Fin 2) * 1024 + 1 * r.val = p.val; rw [e0, hp]; omega
  | ⟨1, _⟩ => show win2_1.index t (1 : Fin 2) * 1024 + 1 * l.val = q.val; rw [e1, hq]; omega

/-- The block of the scale column at a point, read at row r, is the column at row block * 1024 + r. -/
theorem blkCol_apply (c : Dev nD) (t : Fin cfg2.N) (r : Fin 1024) (p : Fin 8192)
    (hp : p.val = t.val / 8 * 1024 + r.val) :
    (iblk V c 2 t : Vec Ideal S1024x1 .f32) (ix2 r (0 : Fin 1)) = (V c main_v6 : Mat 8192 1) (ix2 p (0 : Fin 1)) := by
  obtain ⟨-, -, -, ⟨e0, e1⟩, -⟩ := blockPositions t
  unfold iblk
  rw [View.read_apply]
  show V c main_v6 _ = V c main_v6 _
  congr 1
  funext a
  apply Fin.ext
  match a with
  | ⟨0, _⟩ => show win2_2.index t (0 : Fin 2) * 1024 + 1 * r.val = p.val; rw [e0, hp]; omega
  | ⟨1, _⟩ => show win2_2.index t (1 : Fin 2) * 1 + 1 * 0 = 0; rw [e1]

/-- The block of the scale row at a point, read at column l, is the row at column block * 1024 + l. -/
theorem blkRow_apply (c : Dev nD) (t : Fin cfg2.N) (l : Fin 1024) (q : Fin 8192)
    (hq : q.val = t.val % 8 * 1024 + l.val) :
    (iblk V c 3 t : Vec Ideal S1x1024 .f32) (ix2 (0 : Fin 1) l) = (V c main_v7 : Mat 1 8192) (ix2 (0 : Fin 1) q) := by
  obtain ⟨-, -, -, -, ⟨e0, e1⟩, -⟩ := blockPositions t
  unfold iblk
  rw [View.read_apply]
  show V c main_v7 _ = V c main_v7 _
  congr 1
  funext a
  apply Fin.ext
  match a with
  | ⟨0, _⟩ => show win2_3.index t (0 : Fin 2) * 1 + 1 * 0 = 0; rw [e0]
  | ⟨1, _⟩ => show win2_3.index t (1 : Fin 2) * 1024 + 1 * l.val = q.val; rw [e1, hq]; omega

/-- The block of the right factor at a point, read at (l, cc), is the factor at (column block * 1024 + l, cc). -/
theorem blkB_apply (c : Dev nD) (t : Fin cfg2.N) (l : Fin 1024) (cc : Fin 128) (q : Fin 8192)
    (hq : q.val = t.val % 8 * 1024 + l.val) :
    (iblk V c 4 t : Vec Ideal S1024x128 .f32) (ix2 l cc) = (V c main_v11 : Mat 8192 128) (ix2 q cc) := by
  obtain ⟨-, -, -, -, -, ⟨e0, e1⟩, -⟩ := blockPositions t
  unfold iblk
  rw [View.read_apply]
  show V c main_v11 _ = V c main_v11 _
  congr 1
  funext a
  apply Fin.ext
  match a with
  | ⟨0, _⟩ => show win2_4.index t (0 : Fin 2) * 1024 + 1 * l.val = q.val; rw [e0, hq]; omega
  | ⟨1, _⟩ => show win2_4.index t (1 : Fin 2) * 128 + 1 * cc.val = cc.val; rw [e1]; omega

/-- The bias has one block: the whole row. -/
theorem blkBias_apply (c : Dev nD) (t : Fin cfg2.N) (cc : Fin 128) :
    (iblk V c 5 t : Vec Ideal S1x128 .f32) (ix2 (0 : Fin 1) cc) = (V c main_v12 : Mat 1 128) (ix2 (0 : Fin 1) cc) := by
  obtain ⟨-, -, -, -, -, -, ⟨e0, e1⟩, -⟩ := blockPositions t
  unfold iblk
  rw [View.read_apply]
  show V c main_v12 _ = V c main_v12 _
  congr 1
  funext a
  apply Fin.ext
  match a with
  | ⟨0, _⟩ => show win2_5.index t (0 : Fin 2) * 1 + 1 * 0 = 0; rw [e0]
  | ⟨1, _⟩ => show win2_5.index t (1 : Fin 2) * 128 + 1 * cc.val = cc.val; rw [e1]; omega

/-! ## One step of the walk, at one entry

The summand of output entry (p, cc) at column k is the normalised adjacency's entry (p, k), scale(p) adj(p, k) scale(k),
times the right factor's entry (k, cc), as ONE function of the global column k. -/

/-- The term of output entry (p, cc) at the global column k. -/
def term (A S : Mat 8192 8192) (sc : Mat 8192 1) (sr : Mat 1 8192) (B : Mat 8192 128) (p : Fin 8192) (cc : Fin 128)
    (k : Fin 8192) : EReal :=
  (sc (ix2 p (0 : Fin 1)) * Spec.adj A S p k * sr (ix2 (0 : Fin 1) k)) * B (ix2 k cc)

/-- The same over the arrays the region finds. -/
abbrev termAt (c : Dev nD) (p : Fin 8192) (cc : Fin 128) (k : Fin 8192) : EReal :=
  term (V c main_arg0) (V c main_arg1) (V c main_v6) (V c main_v7) (V c main_v11) p cc k

/-- An entry of the block of the shifted adjacency the kernel forms at a point is the shifted adjacency at the global row and
    column: the diagonal test on block index * 1024 + offset is the test p = q. -/
theorem adjEntry_eq (c : Dev nD) (t : Fin cfg2.N) (r l : Fin 1024) (p q : Fin 8192)
    (hp : p.val = t.val / 8 * 1024 + r.val) (hq : q.val = t.val % 8 * 1024 + l.val) :
    PayloadValue.adjEntry (grid2.coords t 0).val (grid2.coords t 1).val (iblk V c 0 t) (iblk V c 1 t) r l
      = Spec.adj (V c main_arg0) (V c main_arg1) p q := by
  obtain ⟨⟨g0, g1⟩, -⟩ := blockPositions t
  unfold PayloadValue.adjEntry PayloadValue.diagTerm Spec.adj
  rw [blkA_apply V c t r l p q hp hq, blkS_apply V c t r l p q hp hq, g0, g1]
  congr 1
  exact if_congr (by rw [Fin.ext_iff, hp, hq]) rfl rfl

/-- The scratch block after the body, at one entry, over any blocks: zero or the earlier entry, plus the block's 1024 products. -/
theorem accStep_apply (i : grid2.Coords) (x0 x1 : Vec Ideal S1024x1024 .f32) (x2 : Vec Ideal S1024x1 .f32)
    (x3 : Vec Ideal S1x1024 .f32) (x4 s : Vec Ideal S1024x128 .f32) (r : Fin 1024) (cc : Fin 128) :
    accStep i x0 x1 x2 x3 x4 s (ix2 r cc)
      = (if isFirst i then 0 else s (ix2 r cc))
        + ∑ l : Fin 1024, (x2 (ix2 r (0 : Fin 1)) * PayloadValue.adjEntry (i 0).val (i 1).val x0 x1 r l * x3 (ix2 (0 : Fin 1) l))
            * x4 (ix2 l cc) := by
  unfold accStep
  rw [PayloadValue.k2_pay1_apply, PayloadValue.k2_pay4_apply]
  congr 1
  split_ifs with h
  · exact PayloadValue.k2_pay3_apply _
  · rfl

/-- The same at a point of the walk, on the blocks the region finds there: with jb the point's column block and p the global
    row, the block's products are the terms of entry (p, cc) at the columns of block jb. -/
theorem accStep_point (c : Dev nD) (t : Fin cfg2.N) (jb : Fin 8) (hjb : jb.val = t.val % 8) (s : Vec Ideal S1024x128 .f32)
    (r : Fin 1024) (cc : Fin 128) (p : Fin 8192) (hp : p.val = t.val / 8 * 1024 + r.val) :
    accStep (grid2.coords t) (iblk V c 0 t) (iblk V c 1 t) (iblk V c 2 t) (iblk V c 3 t) (iblk V c 4 t) s (ix2 r cc)
      = (if jb.val = 0 then 0 else s (ix2 r cc)) + ∑ l : Fin 1024, termAt V c p cc (Spec.col jb l) := by
  refine (accStep_apply (grid2.coords t) (iblk V c 0 t) (iblk V c 1 t) (iblk V c 2 t) (iblk V c 3 t) (iblk V c 4 t) s r cc).trans ?_
  congr 1
  · exact if_congr ((isFirst_iff t).trans (by rw [hjb])) rfl rfl
  · refine Finset.sum_congr rfl fun l _ => ?_
    have hq : (Spec.col jb l).val = t.val % 8 * 1024 + l.val := by show jb.val * 1024 + l.val = _; rw [hjb]
    unfold termAt term
    rw [blkCol_apply V c t r p hp, adjEntry_eq V c t r l p (Spec.col jb l) hp hq, blkRow_apply V c t l (Spec.col jb l) hq,
      blkB_apply V c t l cc (Spec.col jb l) hq]

/-! ## The running sums

After position n of the walk the scratch block holds, at row r and column cc, the terms of entry (p, cc), p the global row
(n / 8) * 1024 + r, summed over the first n % 8 + 1 column blocks. -/

/-- One more column block: the running total gains that block's 1024 terms. -/
theorem partialSum_block (f : Fin 8192 → EReal) (jb : Fin 8) :
    Spec.partialSum f (jb.val + 1) = Spec.partialSum f jb.val + ∑ l : Fin 1024, f (Spec.col jb l) :=
  Spec.partialSum_succ f jb.val jb.isLt

theorem accAt_apply (c : Dev nD) : ∀ (n : ℕ) (hn : n < cfg2.N) (r : Fin 1024) (cc : Fin 128) (p : Fin 8192),
    p.val = n / 8 * 1024 + r.val → accAt V c n hn (ix2 r cc) = Spec.partialSum (termAt V c p cc) (n % 8 + 1)
  | 0, hn, r, cc, p, hp => by
    show accStep (grid2.coords ⟨0, hn⟩) (iblk V c 0 ⟨0, hn⟩) (iblk V c 1 ⟨0, hn⟩) (iblk V c 2 ⟨0, hn⟩) (iblk V c 3 ⟨0, hn⟩)
      (iblk V c 4 ⟨0, hn⟩) (k2_pay3 (F := Ideal)) (ix2 r cc) = _
    rw [accStep_point V c ⟨0, hn⟩ (0 : Fin 8) rfl (k2_pay3 (F := Ideal)) r cc p hp,
      if_pos (show (0 : Fin 8).val = 0 from rfl), zero_add]
    show _ = Spec.partialSum (termAt V c p cc) ((0 : Fin 8).val + 1)
    rw [partialSum_block]
    show _ = Spec.partialSum (termAt V c p cc) 0 + _
    rw [Spec.partialSum_zero, zero_add]
  | n + 1, hn, r, cc, p, hp => by
    have hN : cfg2.N = 64 := by decide
    have h8 : (n + 1) % 8 < 8 := Nat.mod_lt _ (by decide)
    show accStep (grid2.coords ⟨n + 1, hn⟩) (iblk V c 0 ⟨n + 1, hn⟩) (iblk V c 1 ⟨n + 1, hn⟩) (iblk V c 2 ⟨n + 1, hn⟩)
      (iblk V c 3 ⟨n + 1, hn⟩) (iblk V c 4 ⟨n + 1, hn⟩) (accAt V c n (Nat.lt_of_succ_lt hn)) (ix2 r cc) = _
    rw [accStep_point V c ⟨n + 1, hn⟩ ⟨(n + 1) % 8, h8⟩ rfl (accAt V c n (Nat.lt_of_succ_lt hn)) r cc p hp]
    show _ = Spec.partialSum (termAt V c p cc) ((⟨(n + 1) % 8, h8⟩ : Fin 8).val + 1)
    rw [partialSum_block]
    by_cases h : (n + 1) % 8 = 0
    · -- a first column block: the total starts from zero
      rw [if_pos h]
      show _ = Spec.partialSum (termAt V c p cc) ((n + 1) % 8) + _
      congr 1
      rw [h, Spec.partialSum_zero]
    · -- a later column block of the same row block: the previous position's total goes on
      rw [if_neg h, accAt_apply c n (Nat.lt_of_succ_lt hn) r cc p (by rw [hp]; omega)]
      show _ = Spec.partialSum (termAt V c p cc) ((n + 1) % 8) + _
      congr 1
      rw [show (n + 1) % 8 = n % 8 + 1 from by omega]

/-! ## The stored value

At a last column block the total is over all eight blocks, the whole row; the stored value adds the bias. -/

/-- The value of output entry (p, cc). -/
def entry (A S : Mat 8192 8192) (sc : Mat 8192 1) (sr : Mat 1 8192) (B : Mat 8192 128) (bias : Mat 1 128) (p : Fin 8192)
    (cc : Fin 128) : EReal :=
  (∑ k : Fin 8192, term A S sc sr B p cc k) + bias (ix2 (0 : Fin 1) cc)

/-- The same over the arrays the region finds, as contents of the output array. -/
abbrev entries (c : Dev nD) : Mat 8192 128 :=
  fun i => entry (V c main_arg0) (V c main_arg1) (V c main_v6) (V c main_v7) (V c main_v11) (V c main_v12) (i 0) (i 1)

/-- What a last column block's point stores, at an entry of its block: the value of the output entry it lands on. -/
theorem outAt_apply (c : Dev nD) (t : Fin cfg2.N) (ht : t.val % 8 = 7) (j : S1024x128.Idx) (p : Fin 8192) (q : Fin 128)
    (hp : p.val = t.val / 8 * 1024 + (j 0).val) (hq : q.val = (j 1).val) :
    outAt V c t j = entry (V c main_arg0) (V c main_arg1) (V c main_v6) (V c main_v7) (V c main_v11) (V c main_v12) p q := by
  obtain ⟨r, cc, rfl⟩ : ∃ (r : Fin 1024) (cc : Fin 128), j = ix2 r cc := ⟨j 0, j 1, eq_ix2 j⟩
  obtain rfl : q = cc := Fin.ext hq
  unfold outAt entry
  rw [PayloadValue.k2_pay2_apply, accAt_apply V c t.val t.isLt r q p hp, blkBias_apply V c t q, ht, Spec.partialSum_all]

/-! ## From the blocks to the array

The output window is written back at the last column block of each row block, t % 8 = 7, and that point's block is rows
(t / 8) * 1024 ... of the array; the eight such blocks cover it. -/

/-- What a point writes back is its block of the array of values. -/
theorem writeBack_eq (c : Dev nD) (t : Fin cfg2.N) (hf : (cfg2.win 6).flush t = true) :
    (dat (F := Ideal) V c).flushed 6 t = ((cfg2.win 6).blk t).view.read (Elt Ideal) (entries V c) := by
  have ht : t.val % 8 = 7 := (flush2_6 t).mp hf
  obtain ⟨-, -, -, -, -, -, -, ⟨e0, e1⟩⟩ := blockPositions t
  show (cfg2.win 6).cut (grid2.coords t) ((dat (F := Ideal) V c).after 6 t) = _
  rw [after_6]
  funext y
  show outAt V c t _ = entry (V c main_arg0) (V c main_arg1) (V c main_v6) (V c main_v7) (V c main_v11) (V c main_v12) _ _
  refine outAt_apply V c t ht _ _ _ ?_ ?_
  · show win2_6.index t (0 : Fin 2) * 1024 + 1 * (y 0).val = t.val / 8 * 1024 + (y 0).val
    rw [e0]; omega
  · show win2_6.index t (1 : Fin 2) * 128 + 1 * (y 1).val = (y 1).val
    rw [e1]; omega

/-- Row p of the array lies in the block written back at the last point of row block p / 1024. -/
theorem row_covered (i : S8192x128.Idx) :
    ∃ t : Fin cfg2.N, (cfg2.win 6).flush t = true ∧ i ∈ ((cfg2.win 6).blk t).view.set := by
  have hN : cfg2.N = 64 := by decide
  have h0 : (i 0).val < 8192 := (i 0).isLt
  have h1 : (i 1).val < 128 := (i 1).isLt
  have hlt : (i 0).val / 1024 * 8 + 7 < cfg2.N := by rw [hN]; omega
  obtain ⟨-, -, -, -, -, -, -, ⟨e0, e1⟩⟩ := blockPositions ⟨(i 0).val / 1024 * 8 + 7, hlt⟩
  refine ⟨⟨(i 0).val / 1024 * 8 + 7, hlt⟩, (flush2_6 _).mpr (by show ((i 0).val / 1024 * 8 + 7) % 8 = 7; omega), ?_⟩
  show i ∈ ((View.whole main_v13).slice (win2_6.rect ⟨(i 0).val / 1024 * 8 + 7, hlt⟩)).set
  rw [View.set_slice_whole, Rect.mem_set_unit]
  intro a
  match a with
  | ⟨0, _⟩ =>
    show win2_6.index ⟨(i 0).val / 1024 * 8 + 7, hlt⟩ (0 : Fin 2) * 1024 ≤ (i 0).val
      ∧ (i 0).val < win2_6.index ⟨(i 0).val / 1024 * 8 + 7, hlt⟩ (0 : Fin 2) * 1024 + 1024
    rw [e0]; show ((i 0).val / 1024 * 8 + 7) / 8 * 1024 ≤ _ ∧ _ < ((i 0).val / 1024 * 8 + 7) / 8 * 1024 + 1024; omega
  | ⟨1, _⟩ =>
    show win2_6.index ⟨(i 0).val / 1024 * 8 + 7, hlt⟩ (1 : Fin 2) * 128 ≤ (i 1).val
      ∧ (i 1).val < win2_6.index ⟨(i 0).val / 1024 * 8 + 7, hlt⟩ (1 : Fin 2) * 128 + 128
    rw [e1]; omega

/-- So the output array ends holding the array of values. -/
theorem array_eq_entries (c : Dev nD) : (dat (F := Ideal) V c).arrAt 6 cfg2.N = entries V c :=
  (dat (F := Ideal) V c).arrAt_eq_of_cover 6 (entries V c) (writeBack_eq V c) row_covered

/-- After the run the output array holds the layer's value: with A, S, sc (the scales as a column), sr (the scales as a
    row), B (the right factor) and bias the six input arrays as the region finds them, and res the output array after the run. -/
theorem arr_final (c : Dev nD) (A S : Mat 8192 8192) (sc : Mat 8192 1) (sr : Mat 1 8192) (B : Mat 8192 128) (bias : Mat 1 128)
    (hA : V c main_arg0 = A) (hS : V c main_arg1 = S) (hsc : V c main_v6 = sc) (hsr : V c main_v7 = sr)
    (hB : V c main_v11 = B) (hbias : V c main_v12 = bias)
    (res : Mat 8192 128) (hres : (dat (F := Ideal) V c).arrAt 6 cfg2.N = res) (p : Fin 8192) (cc : Fin 128) :
    res (ix2 p cc)
      = (∑ k : Fin 8192, (sc (ix2 p (0 : Fin 1)) * Spec.adj A S p k * sr (ix2 (0 : Fin 1) k)) * B (ix2 k cc))
          + bias (ix2 (0 : Fin 1) cc) := by
  subst hA hS hsc hsr hB hbias hres
  rw [array_eq_entries V c]
  rfl

end Cert.KernelIdeal.Layer2

end
-- ==== Proof.FinalValue.lean ====
import proofs.«171307_j71897752535776_1_alg».proof.Proof.HostValues
import proofs.«171307_j71897752535776_1_alg».proof.Proof.RowSumValue
import proofs.«171307_j71897752535776_1_alg».proof.Proof.Layer1Value
import proofs.«171307_j71897752535776_1_alg».proof.Proof.Layer2Value
import proofs.«171307_j71897752535776_1_alg».proof.Proof.BoundaryFacts
import proofs.«171307_j71897752535776_1_alg».proof.Proof.Spec

set_option maxRecDepth 16384

noncomputable section

open scoped BigOperators

namespace Cert.KernelIdeal.Launch

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-! # The result array at the end is the specification

The row-sum region leaves the degrees; the host stretch turns them into the scales, as a column and as a row, forms x W1 and
reshapes the bias; the first layer's region leaves max (anorm (x W1) + b1) 0; the next stretch multiplies by W2; the second
layer's region leaves anorm (hidden W2) + b2. Chained, entry by entry, that is the specification's result. -/

variable (m : (ℓ : Loc nD τ sig) → Buf (Elt Ideal) ℓ)

theorem result_eq (c : Dev nD) :
    (W9 m c (Proc.devRef .tc main_v13) : Mat 8192 128)
      = Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  -- the seven argument arrays and the intermediate arrays, each under a name of its literal type
  generalize hA : (m ((c : Thread nD τ).loc main_arg0) : Mat 8192 8192) = A
  generalize hS : (m ((c : Thread nD τ).loc main_arg1) : Mat 8192 8192) = S
  generalize hx : (m ((c : Thread nD τ).loc main_arg2) : Mat 8192 512) = x
  generalize hW1 : (m ((c : Thread nD τ).loc main_arg3) : Mat 512 256) = W1
  generalize hb1 : (m ((c : Thread nD τ).loc main_arg4) : Vec1 256) = b1
  generalize hW2 : (m ((c : Thread nD τ).loc main_arg5) : Mat 256 128) = W2
  generalize hb2 : (m ((c : Thread nD τ).loc main_arg6) : Vec1 128) = b2
  generalize hd : (V1 m c main_v0 : Mat 8192 1) = d
  generalize hsc : (V6 m c main_v6 : Mat 8192 1) = sc
  generalize hsr : (V6 m c main_v7 : Mat 1 8192) = sr
  generalize hB1 : (V6 m c main_v8 : Mat 8192 256) = B1
  generalize hbias1 : (V6 m c main_v9 : Mat 1 256) = bias1
  generalize hh : (V7 m c main_v10 : Mat 8192 256) = h
  generalize hB2 : (V8 m c main_v11 : Mat 8192 128) = B2
  generalize hbias2 : (V8 m c main_v12 : Mat 1 128) = bias2
  generalize hres : (W9 m c (Proc.devRef .tc main_v13) : Mat 8192 128) = res
  -- the degrees, the scales
  have hdeg : ∀ p : Fin 8192, d (ix2 p (0 : Fin 1)) = Spec.deg A S p := fun p =>
    RowSum.arr_final (V0 m) c A S hA hS d ((V1_main_v0 m c).symm.trans hd) p
  have hscale : ∀ p : Fin 8192, sc (ix2 p (0 : Fin 1)) = Spec.scale A S p := fun p => by
    rw [V6_scaleCol m c d hd sc hsc p, hdeg p]; rfl
  have hscaleR : ∀ q : Fin 8192, sr (ix2 (0 : Fin 1) q) = Spec.scale A S q := fun q => by
    rw [V6_scaleRow m c d hd sr hsr q, hdeg q]; rfl
  -- the first layer
  have hhid : ∀ (p : Fin 8192) (j : Fin 256), h (ix2 p j) = Spec.hidden A S x W1 b1 p j := fun p j => by
    rw [Layer1.arr_final (V6 m) c A S sc sr B1 bias1 ((V6_main_arg0 m c).trans hA) ((V6_main_arg1 m c).trans hS) hsc hsr hB1 hbias1 h
      ((V7_main_v10 m c).symm.trans hh) p j]
    unfold Spec.hidden Spec.anorm
    rw [V6_bias m c b1 hb1 bias1 hbias1 j, hscale p]
    congr 2
    exact Finset.sum_congr rfl fun k _ => by rw [hscaleR k, V6_xw m c x hx W1 hW1 B1 hB1 k j]
  -- the second layer
  funext i
  obtain ⟨p, cc, rfl⟩ : ∃ (p : Fin 8192) (cc : Fin 128), i = ix2 p cc := ⟨i 0, i 1, eq_ix2 i⟩
  rw [Layer2.arr_final (V8 m) c A S sc sr B2 bias2 ((V8_main_arg0 m c).trans hA) ((V8_main_arg1 m c).trans hS)
    ((V8_main_v6 m c).trans hsc) ((V8_main_v7 m c).trans hsr) hB2 hbias2 res ((W9_result m c).symm.trans hres) p cc]
  show _ = Spec.outAt A S x W1 b1 W2 b2 p cc
  unfold Spec.outAt Spec.anorm
  rw [V8_bias m c b2 hb2 bias2 hbias2 cc, hscale p]
  congr 1
  refine Finset.sum_congr rfl fun k _ => ?_
  rw [hscaleR k, V8_hw m c h hh W2 hW2 B2 hB2 k cc]
  unfold Spec.hw
  congr 1
  exact Finset.sum_congr rfl fun j _ => by rw [hhid k j]

end Cert.KernelIdeal.Launch

end
-- ==== Proof.RefValue.lean ====
import proofs.«171307_j71897752535776_1_alg».proof.Defs
import proofs.«171307_j71897752535776_1_alg».proof.Proof.Gen.ReferenceIdeal.Run
import proofs.«171307_j71897752535776_1_alg».proof.Proof.Gen.ReferenceIdeal.Read
import proofs.«171307_j71897752535776_1_alg».proof.Proof.Spec
import Idealize.ShloMosaic.Lib.ValueIdx
import Idealize.ShloMosaic.Lib.ValueLayout
import Idealize.ShloMosaic.Lib.DynamicIndex
import Idealize.ShloMosaic.PureOps.Ideal.Laws

noncomputable section

/-! # The reference computes the specification

The reference program, read over the extended reals one stage at a time and one element at a time, is the two-layer graph
convolution `Cert.Spec.out` of its seven arguments.

The one stage that is not elementwise, a broadcast or a contraction is the accumulating scatter that adds eps on the diagonal.
Its index array is built from an iota: row r holds (r, r), because no entry of an iota is negative and so the wrap of a
negative index (the select between r + 8192 and r) always keeps r. Both operand axes are scattered ones, so update r is the
single element landing at (r, r); read at (p, q), the sum of the updates landing there is eps when p = q and empty otherwise.
That is the shifted adjacency `Spec.adj`. Its row sums from the zero word are the degrees; the power, the test for an infinity
and the select are `Spec.invSqrtOrZero` on one degree; the two broadcasts and the two products give
scale p * adj p q * scale q; each `dot_general` is the sum over its one contracted coordinate; the bias rows are read at the
column; the maximum with the zero word is the maximum with 0. -/

namespace Cert.ReferenceIdeal.RefValue

open Cert.ReferenceIdeal Cert.ReferenceIdeal.Gen Cert.ReferenceIdeal.Read Idealize.ShloMosaic Idealize.ShloMosaic.ValueIdx
open scoped BigOperators

/-! ## The scatter indices: row r of the index array is (r, r) -/

/-- A row number, as a 32-bit word read signed, is not negative: a select on "it is negative" takes its second branch. -/
theorem select_slt_zero_ofNat {α : Type} (r : Fin 8192) (a b : α) :
    Scalar.select (IntOp.cmpi .slt (BitVec.ofNat 32 r.val) 0#32) a b = b := by
  have hlt : (BitVec.ofNat 32 r.val).slt 0#32 = false := by
    simp only [BitVec.slt, BitVec.toInt_zero, decide_eq_false_iff_not, Int.not_lt]
    rw [toInt_ofNat_of_lt (by have := r.isLt; omega)]; omega
  show (if BitVec.ofBool ((BitVec.ofNat 32 r.val).slt 0#32) = 1 then a else b) = b
  rw [hlt]; rfl

/-- The first index column before it is made a column: entry r is r (the wrap of a negative index never applies). -/
theorem v8_apply (r : Fin 8192) : val_main_v8 (F := Ideal) (ix1 r) = BitVec.ofNat 32 r.val := by
  rw [val_main_v8_apply, val_main_v5_apply, val_main_v3_apply, val_main_v4_apply, val_main_c_apply]
  exact select_slt_zero_ofNat r _ _

/-- The second index column likewise. -/
theorem v13_apply (r : Fin 8192) : val_main_v13 (F := Ideal) (ix1 r) = BitVec.ofNat 32 r.val := by
  rw [val_main_v13_apply, val_main_v10_apply, val_main_v3_apply, val_main_v9_apply, val_main_c_1_apply]
  exact select_slt_zero_ofNat r _ _

/-- The two columns as 8192 by 1 arrays. -/
theorem v14_apply (r : Fin 8192) (u : Fin 1) : val_main_v14 (F := Ideal) (ix2 r u) = BitVec.ofNat 32 r.val := by
  rw [val_main_v14_apply, show idx_main_v14 (ix2 r u) = ix1 r from funext fun a => by match a with | ⟨0, _⟩ => rfl]
  exact v8_apply r
theorem v15_apply (r : Fin 8192) (u : Fin 1) : val_main_v15 (F := Ideal) (ix2 r u) = BitVec.ofNat 32 r.val := by
  rw [val_main_v15_apply, show idx_main_v15 (ix2 r u) = ix1 r from funext fun a => by match a with | ⟨0, _⟩ => rfl]
  exact v13_apply r

/-- The index array, the two columns side by side: both entries of row r are r. -/
theorem v16_apply (r : Fin 8192) (c : Fin 2) : val_main_v16 (F := Ideal) (ix2 r c) = BitVec.ofNat 32 r.val := by
  unfold val_main_v16
  match c with
  | ⟨0, _⟩ =>
    refine (concatenate_pair_apply_left _ _ _ concatenates_S8192x1_S8192x1_S8192x2_d1 _ rfl (ix2 r (0 : Fin 1)) ?_).trans (v14_apply r 0)
    intro b; match b with | ⟨0, _⟩ => rfl | ⟨1, _⟩ => rfl
  | ⟨1, _⟩ =>
    refine (concatenate_pair_apply_right _ _ _ concatenates_S8192x1_S8192x1_S8192x2_d1 _ rfl rfl (ix2 r (0 : Fin 1)) ?_ ?_).trans (v15_apply r 0)
    · intro b hb; match b with | ⟨0, _⟩ => rfl | ⟨1, _⟩ => exact absurd rfl hb
    · rfl
/-! ## The scatter: the update of row r lands at (r, r) -/

/-- Where update r's window starts on operand axis 0: the index array's entry (r, 0), read signed. -/
theorem start_0 (idx : IVec S8192x2 32) (r : Fin 8192) :
    scatter_S8192x8192_S8192x2_S8192_n_01_01_1.start (ix1 r) idx 0 = (idx (ix2 r (0 : Fin 2))).toInt := by
  unfold ScatterDims.start
  rw [dif_pos (show (0 : Fin S8192x8192.rank) ∈ scatter_S8192x8192_S8192x2_S8192_n_01_01_1.scatterDimsToOperandDims by decide)]
  refine congrArg (fun k => (idx k).toInt) (funext fun b => Fin.ext ?_)
  match b with
  | ⟨0, _⟩ => rfl
  | ⟨1, _⟩ => rfl

/-- On operand axis 1: the entry (r, 1). -/
theorem start_1 (idx : IVec S8192x2 32) (r : Fin 8192) :
    scatter_S8192x8192_S8192x2_S8192_n_01_01_1.start (ix1 r) idx 1 = (idx (ix2 r (1 : Fin 2))).toInt := by
  unfold ScatterDims.start
  rw [dif_pos (show (1 : Fin S8192x8192.rank) ∈ scatter_S8192x8192_S8192x2_S8192_n_01_01_1.scatterDimsToOperandDims by decide)]
  refine congrArg (fun k => (idx k).toInt) (funext fun b => Fin.ext ?_)
  match b with
  | ⟨0, _⟩ => rfl
  | ⟨1, _⟩ => rfl

/-- Both operand axes are inserted ones: an update is one element, its window coordinate zero. -/
theorem window_zero (j : S8192.Idx) (a : Fin S8192x8192.rank) : scatter_S8192x8192_S8192x2_S8192_n_01_01_1.window j a = 0 := by
  unfold ScatterDims.window
  exact dif_neg (by
    have e : scatter_S8192x8192_S8192x2_S8192_n_01_01_1.sKept = [] := by decide
    rw [e]; exact List.not_mem_nil)

/-- With an index array whose row r is (r, r), update r lands at the diagonal element (r, r). -/
theorem resultIdx_diag (idx : IVec S8192x2 32) (hidx : ∀ (r : Fin 8192) (c : Fin 2), idx (ix2 r c) = BitVec.ofNat 32 r.val)
    (r : Fin 8192) : scatter_S8192x8192_S8192x2_S8192_n_01_01_1.resultIdx? (ix1 r) idx = some (ix2 r r) := by
  have hr : r.val < 2 ^ 31 := by have := r.isLt; omega
  have hs : ∀ a : Fin S8192x8192.rank, scatter_S8192x8192_S8192x2_S8192_n_01_01_1.start (ix1 r) idx a + (scatter_S8192x8192_S8192x2_S8192_n_01_01_1.window (ix1 r) a : Int) = (r.val : Int) := by
    intro a
    rw [window_zero]
    match a with
    | ⟨0, _⟩ => rw [show (⟨0, _⟩ : Fin S8192x8192.rank) = 0 from rfl, start_0, hidx, toInt_ofNat_of_lt hr]; rfl
    | ⟨1, _⟩ => rw [show (⟨1, _⟩ : Fin S8192x8192.rank) = 1 from rfl, start_1, hidx, toInt_ofNat_of_lt hr]; rfl
  unfold ScatterDims.resultIdx?
  rw [dif_pos (fun a => by
    rw [hs a]
    refine ⟨Int.natCast_nonneg _, ?_⟩
    match a with
    | ⟨0, _⟩ => exact Int.ofNat_lt.mpr r.isLt
    | ⟨1, _⟩ => exact Int.ofNat_lt.mpr r.isLt)]
  refine congrArg some (funext fun a => Fin.ext ?_)
  show (scatter_S8192x8192_S8192x2_S8192_n_01_01_1.start (ix1 r) idx a + (scatter_S8192x8192_S8192x2_S8192_n_01_01_1.window (ix1 r) a : Int)).toNat = (ix2 r r a).val
  rw [hs a, Int.toNat_natCast]
  match a with
  | ⟨0, _⟩ => rfl
  | ⟨1, _⟩ => rfl
/-- The accumulating scatter through such an index array, read at (p, q): the operand's element, plus row p's update when p = q. -/
theorem scatterAdd_diag_apply (x : FVec Ideal S8192x8192 .f32) (idx : IVec S8192x2 32)
    (hidx : ∀ (r : Fin 8192) (c : Fin 2), idx (ix2 r c) = BitVec.ofNat 32 r.val) (upd : FVec Ideal S8192 .f32) (p q : Fin 8192) :
    Host.scatterAdd (F := Ideal) (φ := .f32) scatter_S8192x8192_S8192x2_S8192_n_01_01_1 x idx upd (ix2 p q) = x (ix2 p q) + if p = q then upd (ix1 p) else 0 := by
  show Ideal.hostScatterAdd scatter_S8192x8192_S8192x2_S8192_n_01_01_1 x idx upd (ix2 p q) = _
  unfold Ideal.hostScatterAdd
  refine congrArg (x (ix2 p q) + ·) ?_
  rw [Finset.sum_filter]
  by_cases hpq : p = q
  · subst hpq
    rw [if_pos rfl, Fintype.sum_eq_single (ix1 p), if_pos (resultIdx_diag idx hidx p)]
    intro j hj
    obtain ⟨r, rfl⟩ : ∃ r : Fin 8192, j = ix1 r := ⟨j 0, eq_ix1 j⟩
    refine if_neg fun h => hj ?_
    rw [resultIdx_diag idx hidx] at h
    exact congrArg ix1 (congrFun (Option.some.inj h) 0)
  · rw [if_neg hpq]
    refine Finset.sum_eq_zero fun j _ => if_neg fun h => hpq ?_
    obtain ⟨r, rfl⟩ : ∃ r : Fin 8192, j = ix1 r := ⟨j 0, eq_ix1 j⟩
    rw [resultIdx_diag idx hidx] at h
    exact (congrFun (Option.some.inj h) 0).symm.trans (congrFun (Option.some.inj h) 1)

/-! ## The stages of the reference, each at one index -/

/-- The shifted adjacency: A + beta S, and the scatter adds eps on the diagonal. -/
theorem v18_apply (A S : (⟨S8192x8192, .f32⟩ : BufTy).Contents (Elt Ideal)) (p q : Fin 8192) :
    val_main_v18 (F := Ideal) A S (ix2 p q) = Cert.Spec.adj A S p q := by
  unfold val_main_v18
  rw [scatterAdd_diag_apply _ _ v16_apply, val_main_v2_apply, val_main_v1_apply, val_main_v0_apply, val_main_cst_apply,
    val_main_v17_apply, val_main_cst_3_apply]
  rfl

/-- The degrees: the row sums, from the zero word. -/
theorem v19_apply (A S : (⟨S8192x8192, .f32⟩ : BufTy).Contents (Elt Ideal)) (p : Fin 8192) :
    val_main_v19 (F := Ideal) A S (ix1 p) = Cert.Spec.deg A S p := by
  rw [val_main_v19_apply, val_main_cst_4_apply]
  show Ideal.ofBits .f32 0x00000000#32 + _ = _
  rw [Ideal.ofBits_zero_f32, zero_add]
  unfold Cert.Spec.deg
  refine Finset.sum_congr rfl fun k _ => ?_
  rw [show idx_main_v19 (ix1 p) k = ix2 p k from funext fun a => by match a with | ⟨0, _⟩ => rfl | ⟨1, _⟩ => rfl]
  exact v18_apply A S p k

/-- The scales: the power, the test for an infinity and the select, on one degree. -/
theorem v23_apply (A S : (⟨S8192x8192, .f32⟩ : BufTy).Contents (Elt Ideal)) (p : Fin 8192) :
    val_main_v23 (F := Ideal) A S (ix1 p) = Cert.Spec.scale A S p := by
  rw [val_main_v23_apply, val_main_v22_apply, val_main_call0_v0_apply, val_main_v21_apply, val_main_v20_apply, val_main_cst_5_apply,
    val_main_call0_v1_apply, val_main_call0_cst_apply, val_main_call1_v1_apply, val_main_call1_v0_apply, val_main_cst_6_apply, v19_apply]
  rfl

/-- The normalised adjacency: row scale times element times column scale. -/
theorem v29_apply (A S : (⟨S8192x8192, .f32⟩ : BufTy).Contents (Elt Ideal)) (p q : Fin 8192) :
    val_main_v29 (F := Ideal) A S (ix2 p q) = Cert.Spec.anorm A S p q := by
  rw [val_main_v29_apply, val_main_v26_apply, val_main_v25_apply, val_main_v24_apply, val_main_v28_apply, val_main_v27_apply,
    show idx_main_v24 (idx_main_v25 (ix2 p q)) = ix1 p from funext fun a => by match a with | ⟨0, _⟩ => rfl,
    show idx_main_v27 (idx_main_v28 (ix2 p q)) = ix1 q from funext fun a => by match a with | ⟨0, _⟩ => rfl,
    v23_apply, v23_apply, v18_apply]
  rfl
/-- The features times the first weight matrix: the contraction over the 512 inner coordinates. -/
theorem v30_apply (x : (⟨S8192x512, .f32⟩ : BufTy).Contents (Elt Ideal)) (W1 : (⟨S512x256, .f32⟩ : BufTy).Contents (Elt Ideal)) (k : Fin 8192) (c : Fin 256) :
    val_main_v30 (F := Ideal) x W1 (ix2 k c) = Cert.Spec.xw x W1 k c := by
  rw [val_main_v30_apply]
  unfold Cert.Spec.xw
  refine Finset.sum_congr rfl fun j _ => ?_
  rw [show lidx_main_v30 (ix2 k c) j = ix2 k j from funext fun a => by match a with | ⟨0, _⟩ => rfl | ⟨1, _⟩ => rfl,
    show ridx_main_v30 (ix2 k c) j = ix2 j c from funext fun a => by match a with | ⟨0, _⟩ => rfl | ⟨1, _⟩ => rfl]

/-- The first layer: the normalised adjacency times that product, plus the bias row, and the maximum with zero. -/
theorem v35_apply (A S : (⟨S8192x8192, .f32⟩ : BufTy).Contents (Elt Ideal)) (x : (⟨S8192x512, .f32⟩ : BufTy).Contents (Elt Ideal)) (W1 : (⟨S512x256, .f32⟩ : BufTy).Contents (Elt Ideal)) (b1 : (⟨S256, .f32⟩ : BufTy).Contents (Elt Ideal))
    (p : Fin 8192) (c : Fin 256) :
    val_main_v35 (F := Ideal) A S x W1 b1 (ix2 p c) = Cert.Spec.hidden A S x W1 b1 p c := by
  have hsum : ∑ k : Fin 8192, val_main_v29 (F := Ideal) A S (lidx_main_v31 (ix2 p c) k) * val_main_v30 (F := Ideal) x W1 (ridx_main_v31 (ix2 p c) k)
      = ∑ k : Fin 8192, Cert.Spec.anorm A S p k * Cert.Spec.xw x W1 k c :=
    Finset.sum_congr rfl fun k _ => by
      rw [show lidx_main_v31 (ix2 p c) k = ix2 p k from funext fun a => by match a with | ⟨0, _⟩ => rfl | ⟨1, _⟩ => rfl,
        show ridx_main_v31 (ix2 p c) k = ix2 k c from funext fun a => by match a with | ⟨0, _⟩ => rfl | ⟨1, _⟩ => rfl, v29_apply, v30_apply]
  rw [val_main_v35_apply, val_main_v34_apply, val_main_v31_apply, hsum, val_main_v33_apply, val_main_v32_apply,
    show idx_main_v32 (idx_main_v33 (ix2 p c)) = ix1 c from funext fun a => by match a with | ⟨0, _⟩ => rfl,
    val_main_call2_v0_apply, val_main_call2_cst_apply]
  show max (_ + _) (Ideal.ofBits .f32 0x00000000#32) = _
  rw [Ideal.ofBits_zero_f32]
  rfl

/-- The first layer times the second weight matrix. -/
theorem v36_apply (A S : (⟨S8192x8192, .f32⟩ : BufTy).Contents (Elt Ideal)) (x : (⟨S8192x512, .f32⟩ : BufTy).Contents (Elt Ideal)) (W1 : (⟨S512x256, .f32⟩ : BufTy).Contents (Elt Ideal)) (b1 : (⟨S256, .f32⟩ : BufTy).Contents (Elt Ideal))
    (W2 : (⟨S256x128, .f32⟩ : BufTy).Contents (Elt Ideal)) (k : Fin 8192) (c : Fin 128) :
    val_main_v36 (F := Ideal) A S x W1 b1 W2 (ix2 k c) = Cert.Spec.hw A S x W1 b1 W2 k c := by
  rw [val_main_v36_apply]
  unfold Cert.Spec.hw
  refine Finset.sum_congr rfl fun j _ => ?_
  rw [show lidx_main_v36 (ix2 k c) j = ix2 k j from funext fun a => by match a with | ⟨0, _⟩ => rfl | ⟨1, _⟩ => rfl,
    show ridx_main_v36 (ix2 k c) j = ix2 j c from funext fun a => by match a with | ⟨0, _⟩ => rfl | ⟨1, _⟩ => rfl, v35_apply]

/-- The second layer: the normalised adjacency times that product, plus the bias row. -/
theorem v40_apply (A S : (⟨S8192x8192, .f32⟩ : BufTy).Contents (Elt Ideal)) (x : (⟨S8192x512, .f32⟩ : BufTy).Contents (Elt Ideal)) (W1 : (⟨S512x256, .f32⟩ : BufTy).Contents (Elt Ideal)) (b1 : (⟨S256, .f32⟩ : BufTy).Contents (Elt Ideal))
    (W2 : (⟨S256x128, .f32⟩ : BufTy).Contents (Elt Ideal)) (b2 : (⟨S128, .f32⟩ : BufTy).Contents (Elt Ideal)) (p : Fin 8192) (c : Fin 128) :
    val_main_v40 (F := Ideal) A S x W1 b1 W2 b2 (ix2 p c) = Cert.Spec.outAt A S x W1 b1 W2 b2 p c := by
  have hsum : ∑ k : Fin 8192, val_main_v29 (F := Ideal) A S (lidx_main_v37 (ix2 p c) k) * val_main_v36 (F := Ideal) A S x W1 b1 W2 (ridx_main_v37 (ix2 p c) k)
      = ∑ k : Fin 8192, Cert.Spec.anorm A S p k * Cert.Spec.hw A S x W1 b1 W2 k c :=
    Finset.sum_congr rfl fun k _ => by
      rw [show lidx_main_v37 (ix2 p c) k = ix2 p k from funext fun a => by match a with | ⟨0, _⟩ => rfl | ⟨1, _⟩ => rfl,
        show ridx_main_v37 (ix2 p c) k = ix2 k c from funext fun a => by match a with | ⟨0, _⟩ => rfl | ⟨1, _⟩ => rfl, v29_apply, v36_apply]
  rw [val_main_v40_apply, val_main_v37_apply, hsum, val_main_v39_apply, val_main_v38_apply,
    show idx_main_v38 (idx_main_v39 (ix2 p c)) = ix1 c from funext fun a => by match a with | ⟨0, _⟩ => rfl]
  rfl

/-! ## The reference's result is the specification -/

/-- The reference program's result term, at the extended reals, is the two-layer graph convolution of its seven arguments. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = Cert.Spec.out (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) (m ((c.tc : Thread _ _).loc Cert.ReferenceIdeal.main_arg5)) (m ((c.tc : Thread _ _).loc Cert.ReferenceIdeal.main_arg6)) := by
  show Cert.ReferenceIdeal.Value.res_main_v40 (F := Ideal) m c = _
  rw [val_main_v40_eq]
  funext i
  obtain ⟨p, q, rfl⟩ : ∃ (p : Fin 8192) (q : Fin 128), i = ix2 p q := ⟨i 0, i 1, eq_ix2 i⟩
  exact v40_apply _ _ _ _ _ _ _ p q
end Cert.ReferenceIdeal.RefValue

end
-- ==== Proof.lean ====
/- The proof of the certificate's five claims.

   The kernel is a two-layer graph convolution over a dense 8192 by 8192 adjacency in three pallas_calls: the first sums the
   rows of the shifted adjacency A + 0.8 S + 1e-8 I block by block into the degrees; host operations turn each degree d into
   d^(-1/2) (an infinite value replaced by zero); the second and third form the normalised adjacency's blocks on the fly and
   accumulate their products with x W1, then with hidden W2, over the eight column blocks of each row block, adding the bias
   (and clamping the first layer at zero) at the last. The reference computes the same quantities with whole-array
   operations, the diagonal shift by a scatter-add. Over the extended reals both are the specification of Proof/Spec.lean:
   finite sums may be regrouped freely there, and nothing else distinguishes the two programs.

   Frames: each kernel program runs as nine items (three regions among six stretches of host operations); every region's
   body is run symbolically on arbitrary whole buffers, its scratch accumulator carried in the pipeline's invariant; the run
   ends with every buffer at named contents, the arguments as launched. The reference's frame is its generated run. -/
import proofs.«171307_j71897752535776_1_alg».proof.Defs
import proofs.«171307_j71897752535776_1_alg».proof.Proof.Gen.Kernel
import proofs.«171307_j71897752535776_1_alg».proof.Proof.Gen.KernelIdeal
import proofs.«171307_j71897752535776_1_alg».proof.Proof.Gen.ReferenceIdeal
import proofs.«171307_j71897752535776_1_alg».proof.Proof.Gen.Pre_finite_inputs
import proofs.«171307_j71897752535776_1_alg».proof.Proof.Gen.ReferenceIdeal.Run
import proofs.«171307_j71897752535776_1_alg».proof.Proof.Launch
import proofs.«171307_j71897752535776_1_alg».proof.Proof.BoundaryFacts
import proofs.«171307_j71897752535776_1_alg».proof.Proof.KernelBits.Launch
import proofs.«171307_j71897752535776_1_alg».proof.Proof.KernelBits.BoundaryFacts
import proofs.«171307_j71897752535776_1_alg».proof.Proof.FinalValue
import proofs.«171307_j71897752535776_1_alg».proof.Proof.RefValue
import Idealize.ShloMosaic.Adequacy
import Idealize.ShloMosaic.Init

noncomputable section

namespace Cert.Proof

open Idealize.ShloMosaic Idealize.ShloMosaic.TcCoe Idealize.SL.Sem

/-- The bit-level program runs to the end and leaves its arguments as launched. -/
theorem frame_k : @Cert.frame_Kernel Cert.Kernel.Gen.facts Cert.Pre_finite_inputs.Gen.facts := fun m ρ _ =>
  (θ_run Cert.Kernel.defs _ _).mono (fun r h c =>
    ⟨(h c _ (Cert.Kernel.Launch.mem_uc Cert.Kernel.main_arg0 (by decide))).trans (Cert.Kernel.Launch.W9_main_arg0 m c),
      (h c _ (Cert.Kernel.Launch.mem_uc Cert.Kernel.main_arg1 (by decide))).trans (Cert.Kernel.Launch.W9_main_arg1 m c),
      (h c _ (Cert.Kernel.Launch.mem_uc Cert.Kernel.main_arg2 (by decide))).trans (Cert.Kernel.Launch.W9_main_arg2 m c),
      (h c _ (Cert.Kernel.Launch.mem_uc Cert.Kernel.main_arg3 (by decide))).trans (Cert.Kernel.Launch.W9_main_arg3 m c),
      (h c _ (Cert.Kernel.Launch.mem_uc Cert.Kernel.main_arg4 (by decide))).trans (Cert.Kernel.Launch.W9_main_arg4 m c),
      (h c _ (Cert.Kernel.Launch.mem_uc Cert.Kernel.main_arg5 (by decide))).trans (Cert.Kernel.Launch.W9_main_arg5 m c),
      (h c _ (Cert.Kernel.Launch.mem_uc Cert.Kernel.main_arg6 (by decide))).trans (Cert.Kernel.Launch.W9_main_arg6 m c)⟩)
    (Cert.Kernel.Launch.run_main (F := Bits) m ρ)

/-- The idealized program runs to the end and leaves its arguments as launched. -/
theorem frame_ki : @Cert.frame_KernelIdeal Cert.KernelIdeal.Gen.facts Cert.Pre_finite_inputs.Gen.facts := fun m ρ _ =>
  (θ_run Cert.KernelIdeal.defs _ _).mono (fun r h c =>
    ⟨(h c _ (Cert.KernelIdeal.Launch.mem_uc Cert.KernelIdeal.main_arg0 (by decide))).trans (Cert.KernelIdeal.Launch.W9_main_arg0 m c),
      (h c _ (Cert.KernelIdeal.Launch.mem_uc Cert.KernelIdeal.main_arg1 (by decide))).trans (Cert.KernelIdeal.Launch.W9_main_arg1 m c),
      (h c _ (Cert.KernelIdeal.Launch.mem_uc Cert.KernelIdeal.main_arg2 (by decide))).trans (Cert.KernelIdeal.Launch.W9_main_arg2 m c),
      (h c _ (Cert.KernelIdeal.Launch.mem_uc Cert.KernelIdeal.main_arg3 (by decide))).trans (Cert.KernelIdeal.Launch.W9_main_arg3 m c),
      (h c _ (Cert.KernelIdeal.Launch.mem_uc Cert.KernelIdeal.main_arg4 (by decide))).trans (Cert.KernelIdeal.Launch.W9_main_arg4 m c),
      (h c _ (Cert.KernelIdeal.Launch.mem_uc Cert.KernelIdeal.main_arg5 (by decide))).trans (Cert.KernelIdeal.Launch.W9_main_arg5 m c),
      (h c _ (Cert.KernelIdeal.Launch.mem_uc Cert.KernelIdeal.main_arg6 (by decide))).trans (Cert.KernelIdeal.Launch.W9_main_arg6 m c)⟩)
    (Cert.KernelIdeal.Launch.run_main (F := Ideal) m ρ)

/-- The reference runs to the end and leaves its arguments as launched: its generated run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the specification's result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.out (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)), ?_, ?_⟩
  · exact (θ_run Cert.KernelIdeal.defs _ _).mono (fun r h c =>
      ⟨(h c _ (Cert.KernelIdeal.Launch.mem_uc Cert.KernelIdeal.main_v13 (by decide))).trans (Cert.KernelIdeal.Launch.result_eq m c),
      (h c _ (Cert.KernelIdeal.Launch.mem_uc Cert.KernelIdeal.main_arg0 (by decide))).trans (Cert.KernelIdeal.Launch.W9_main_arg0 m c),
      (h c _ (Cert.KernelIdeal.Launch.mem_uc Cert.KernelIdeal.main_arg1 (by decide))).trans (Cert.KernelIdeal.Launch.W9_main_arg1 m c),
      (h c _ (Cert.KernelIdeal.Launch.mem_uc Cert.KernelIdeal.main_arg2 (by decide))).trans (Cert.KernelIdeal.Launch.W9_main_arg2 m c),
      (h c _ (Cert.KernelIdeal.Launch.mem_uc Cert.KernelIdeal.main_arg3 (by decide))).trans (Cert.KernelIdeal.Launch.W9_main_arg3 m c),
      (h c _ (Cert.KernelIdeal.Launch.mem_uc Cert.KernelIdeal.main_arg4 (by decide))).trans (Cert.KernelIdeal.Launch.W9_main_arg4 m c),
      (h c _ (Cert.KernelIdeal.Launch.mem_uc Cert.KernelIdeal.main_arg5 (by decide))).trans (Cert.KernelIdeal.Launch.W9_main_arg5 m c),
      (h c _ (Cert.KernelIdeal.Launch.mem_uc Cert.KernelIdeal.main_arg6 (by decide))).trans (Cert.KernelIdeal.Launch.W9_main_arg6 m c)⟩)
      (Cert.KernelIdeal.Launch.run_main (F := Ideal) m ρ)
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v40 m' c = Cert.ReferenceIdeal.Value.res_out0 m' c from rfl,
      Cert.ReferenceIdeal.RefValue.result_eq m' c,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
